-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg9 : FVec F S2x64x64 .f32) (main_arg10 : FVec F S2x64 .f32) (main_v33 : IVec S_ 1) : IVec S_ 1 :=
  let main_v34 : FVec F S2x64x64 .f32 := Host.absf main_arg9
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  main_v43

def fn_part1 {F : FTy → Type} [FloatOps F] (main_arg6 : FVec F S2x64x64 .f32) (main_arg7 : FVec F S2x64 .f32) (main_arg8 : FVec F S2x64x64 .f32) (main_arg9 : FVec F S2x64x64 .f32) (main_arg10 : FVec F S2x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg6
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : FVec F S1600000 .f32) (main_arg3 : IVec S100000 32) (main_arg4 : FVec F S128x64 .f32) (main_arg5 : FVec F S64 .f32) (main_arg6 : FVec F S2x64x64 .f32) (main_arg7 : FVec F S2x64 .f32) (main_arg8 : FVec F S2x64x64 .f32) (main_arg9 : FVec F S2x64x64 .f32) (main_arg10 : FVec F S2x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S1x1600000 : Shape := ⟨2, ![1, 1600000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S100000x1 : Shape := ⟨2, ![100000, 1]⟩
abbrev S1x64x64 : Shape := ⟨3, ![1, 64, 64]⟩
abbrev S64x64 : Shape := ⟨2, ![64, 64]⟩
abbrev S1600000x64 : Shape := ⟨2, ![1600000, 64]⟩
abbrev S10000x1 : Shape := ⟨2, ![10000, 1]⟩

abbrev nBuf : Space → Nat
  | .hbm => 84
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S2x64x64, .f32⟩
  | .hbm, ⟨7, _⟩ => ⟨S2x64, .f32⟩
  | .hbm, ⟨8, _⟩ => ⟨S2x64x64, .f32⟩
  | .hbm, ⟨9, _⟩ => ⟨S2x64x64, .f32⟩
  | .hbm, ⟨10, _⟩ => ⟨S2x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x64, .f32⟩
  | .hbm, ⟨16, _⟩ => ⟨S100000x64, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x1, .f32⟩
  | .hbm, ⟨22, _⟩ => ⟨S1x64x64, .f32⟩
  | .hbm, ⟨23, _⟩ => ⟨S64x64, .f32⟩
  | .hbm, ⟨24, _⟩ => ⟨S1x64, .f32⟩
  | .hbm, ⟨25, _⟩ => ⟨S64, .f32⟩
  | .hbm, ⟨26, _⟩ => ⟨S1x64x64, .f32⟩
  | .hbm, ⟨27, _⟩ => ⟨S64x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x1, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S1x64x64, .f32⟩
  | .hbm, ⟨48, _⟩ => ⟨S64x64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S100000x64, .f32⟩
  | .hbm, ⟨53, _⟩ => ⟨S1x64x64, .f32⟩
  | .hbm, ⟨54, _⟩ => ⟨S64x64, .f32⟩
  | .hbm, ⟨55, _⟩ => ⟨S1x64, .f32⟩
  | .hbm, ⟨56, _⟩ => ⟨S64, .f32⟩
  | .hbm, ⟨57, _⟩ => ⟨S1x64x64, .f32⟩
  | .hbm, ⟨58, _⟩ => ⟨S64x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S1600000x1, .f32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x1, .f32⟩
  | .local _ .vmem, ⟨22, _⟩ => ⟨S10000x1, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x1, .f32⟩
  | .local _ .vmem, ⟨43, _⟩ => ⟨S10000x1, .f32⟩
  | .local _ .vmem, ⟨44, _⟩ => ⟨S64x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_c_2 : Ref sig .tc := ⟨.hbm, 62, rfl⟩
abbrev main_v45 : Ref sig .tc := ⟨.hbm, 63, rfl⟩
abbrev main_v46 : Ref sig .tc := ⟨.hbm, 64, rfl⟩
abbrev main_c_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem5_0 : DmaSem sig := 45
abbrev cc4_sem6_0 : DmaSem sig := 46
abbrev cc4_sem6_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  slices_S2x64x64_S1x64x64_1_0_0 : S2x64x64.Slices ![1, 0, 0] S1x64x64
  slices_S2x64_S1x64_1_0 : S2x64.Slices ![1, 0] S1x64
  dot_S10000x128_S128x64_S10000x64_1_0_0_1_n_n_wf : DotDims.WF S10000x128 S128x64 S10000x64 [1] [0] [0] [1] [] []
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S100000x64.size a
  hwx4_6 : ∀ i : grid4.Coords, EltTy.bits .f32 = 32 ∨ (Rect.block (s := S100000x64) S10000x64.size (cc4_transform_6 i) (hinb4_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17_1) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44_0) S10000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v44_1) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v36) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44_1) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v9) S10000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v59) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v63) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S100000x64 : Shape := ⟨2, ![100000, 64]⟩
abbrev S1x64 : Shape := ⟨2, ![1, 64]⟩
abbrev S1x1600000 : Shape := ⟨2, ![1, 1600000]⟩
abbrev S1600000x1 : Shape := ⟨2, ![1600000, 1]⟩
abbrev S1x64x64 : Shape := ⟨3, ![1, 64, 64]⟩
abbrev S64x64 : Shape := ⟨2, ![64, 64]⟩
abbrev S_ : Shape := ⟨0, ![]⟩
abbrev S1600000x64 : Shape := ⟨2, ![1600000, 64]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S2x64x64, .f32⟩
  | .hbm, ⟨7, _⟩ => ⟨S2x64, .f32⟩
  | .hbm, ⟨8, _⟩ => ⟨S2x64x64, .f32⟩
  | .hbm, ⟨9, _⟩ => ⟨S2x64x64, .f32⟩
  | .hbm, ⟨10, _⟩ => ⟨S2x64, .f32⟩
  | .hbm, ⟨11, _⟩ => ⟨S100000x64, .f32⟩
  | .hbm, ⟨12, _⟩ => ⟨S1x64, .f32⟩
  | .hbm, ⟨13, _⟩ => ⟨S100000x64, .f32⟩
  | .hbm, ⟨14, _⟩ => ⟨S100000x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S1600000x1, .f32⟩
  | .hbm, ⟨20, _⟩ => ⟨S1x64x64, .f32⟩
  | .hbm, ⟨21, _⟩ => ⟨S64x64, .f32⟩
  | .hbm, ⟨22, _⟩ => ⟨S100000x64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S1x64x64, .f32⟩
  | .hbm, ⟨29, _⟩ => ⟨S64x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64x64, .f32⟩
  | .hbm, ⟨57, _⟩ => ⟨S64x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S1x64x64, .f32⟩
  | .hbm, ⟨69, _⟩ => ⟨S64x64, .f32⟩
  | .hbm, ⟨70, _⟩ => ⟨S100000x64, .f32⟩
  | .hbm, ⟨71, _⟩ => ⟨S1x64, .f32⟩
  | .hbm, ⟨72, _⟩ => ⟨S64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S1x64x64, .f32⟩
  | .hbm, ⟨77, _⟩ => ⟨S64x64, .f32⟩
  | .hbm, ⟨78, _⟩ => ⟨S100000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x64, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1x64x64, .f32⟩
  | .hbm, ⟨105, _⟩ => ⟨S64x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call0_cst : Ref sig .tc := ⟨.hbm, 65, rfl⟩
abbrev main_call0_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_3 : Ref sig .tc := ⟨.hbm, 79, rfl⟩
abbrev main_v61 : Ref sig .tc := ⟨.hbm, 80, rfl⟩
abbrev main_v62 : Ref sig .tc := ⟨.hbm, 81, rfl⟩
abbrev main_c_4 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_5 : Ref sig .tc := ⟨.hbm, 88, rfl⟩
abbrev main_v68 : Ref sig .tc := ⟨.hbm, 89, rfl⟩
abbrev main_v69 : Ref sig .tc := ⟨.hbm, 90, rfl⟩
abbrev main_c_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_7 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call1_cst : Ref sig .tc := ⟨.hbm, 113, rfl⟩
abbrev main_call1_v0 : Ref sig .tc := ⟨.hbm, 114, rfl⟩
abbrev main_v90 : Ref sig .tc := ⟨.hbm, 115, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x64_S1x64x64_1_0_0 : S2x64x64.Slices ![1, 0, 0] S1x64x64
  slices_S2x64_S1x64_1_0 : S2x64.Slices ![1, 0] S1x64
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  Two stacked edge-weighted graph convolutions over 100000 nodes, 1600000 edges and 64 features, written index by
  index over the extended reals.

  A node's features are first an affine image of its 128 inputs. A layer then forms, from the current features `h`,
  the two linear images `a = h·W1 + b1` and `b = h·W2`, and for every node `n` sums over the edges `e` that end at
  `n` (those whose target word, read as a signed integer, is `n`; an edge whose target lies outside the nodes ends
  nowhere). One form of the layer sums the messages `(a[src e] − b[dst e]) · w e`; the other sums `a[src e] · w e`
  and takes off `b[n]` times the summed weights `Σ w e`. The source row of an edge is read the way an array index is:
  a negative word is first moved up by the number of nodes, and the result is then held inside the node range. Both
  forms add `h·W3 + b3` and keep the positive part. On real numbers the two forms agree because a product
  distributes over a finite sum; on the extended reals that needs every term to be finite.
-/
import Idealize.ShloMosaic.PureOps.Ideal
import Idealize.ShloMosaic.Lib.ValueIdx

noncomputable section

open scoped BigOperators

namespace Cert.LeGnn

open Idealize.ShloMosaic Idealize.ShloMosaic.ValueIdx

/-- Node features of width `K`, by node and feature. -/
abbrev Feat (K : Nat) : Type := Fin 100000 → Fin K → EReal
/-- A weight matrix from width `K` to width 64, by input and output feature. -/
abbrev Mat (K : Nat) : Type := Fin K → Fin 64 → EReal
/-- A bias row. -/
abbrev Row : Type := Fin 64 → EReal
/-- One endpoint of every edge, as the 32-bit word the edge list holds. -/
abbrev EdgeIx : Type := Fin 1600000 → BitVec 32
/-- The weight of every edge. -/
abbrev EdgeW : Type := Fin 1600000 → EReal

/-- A rank-2 array as a function of its two coordinates. -/
def toFn2 {a b : Nat} (x : (⟨2, ![a, b]⟩ : Shape).Idx → EReal) : Fin a → Fin b → EReal := fun p q => x (ix2 p q)
/-- A function of two coordinates as a rank-2 array. -/
def ofFn2 {a b : Nat} (g : Fin a → Fin b → EReal) : (⟨2, ![a, b]⟩ : Shape).Idx → EReal :=
  fun i => g ⟨(i 0).val, idx2_lt0 i⟩ ⟨(i 1).val, idx2_lt1 i⟩

theorem ofFn2_ix2 {a b : Nat} (g : Fin a → Fin b → EReal) (p : Fin a) (q : Fin b) : ofFn2 g (ix2 p q) = g p q := rfl
theorem toFn2_ofFn2 {a b : Nat} (g : Fin a → Fin b → EReal) : toFn2 (ofFn2 g) = g := rfl
theorem ofFn2_toFn2 {a b : Nat} (x : (⟨2, ![a, b]⟩ : Shape).Idx → EReal) : ofFn2 (toFn2 x) = x :=
  funext fun i => congrArg x (eq_ix2 i).symm
/-- Two rank-2 arrays are equal when they agree at every pair of coordinates. -/
theorem ext2 {a b : Nat} {x y : (⟨2, ![a, b]⟩ : Shape).Idx → EReal} (h : ∀ p q, x (ix2 p q) = y (ix2 p q)) : x = y :=
  funext fun i => by rw [eq_ix2 i]; exact h _ _

/-- The linear image of the features: row `n` of `h` against column `f` of `W`. -/
def lin0 {K : Nat} (h : Feat K) (W : Mat K) : Feat 64 := fun n f => ∑ q : Fin K, h n q * W q f
/-- The affine image: the linear image plus the bias row. -/
def lin {K : Nat} (h : Feat K) (W : Mat K) (b : Row) : Feat 64 := fun n f => lin0 h W n f + b f

/-- An index word made non-negative the way array indexing does it: a negative word is moved up by the node count. -/
def wrapIx (x : BitVec 32) : BitVec 32 := Scalar.select (IntOp.cmpi .slt x 0#32) (IntOp.addi x 100000#32) x
/-- The node row an index word reads: the word as a signed integer, held inside `[0, 100000)`. -/
def rowOf (x : BitVec 32) : Fin 100000 := ⟨min x.toInt.toNat (100000 - 1), by omega⟩
/-- The edges that end at node `n`: those whose target word is `n` as a signed integer. -/
def inEdges (dst : EdgeIx) (n : Fin 100000) : Finset (Fin 1600000) :=
  Finset.univ.filter fun e => (dst e).toInt = (n.val : ℤ)

/-- One layer with the subtraction taken out of the edge sum: the weighted sum of the source rows of `a`, less
    `b` at the node times the node's summed edge weights, plus the third affine image; the positive part. -/
def layerK (src dst : EdgeIx) (w : EdgeW) (W1 : Mat 64) (b1 : Row) (W2 W3 : Mat 64) (b3 : Row) (h : Feat 64) : Feat 64 :=
  fun n f =>
    max (((∑ e ∈ inEdges dst n, lin h W1 b1 (rowOf (wrapIx (src e))) f * w e)
        - lin0 h W2 n f * (∑ e ∈ inEdges dst n, w e)) + lin h W3 b3 n f) 0

/-- One layer with the subtraction inside the edge sum: each edge's message is the source row of `a` less the
    target row of `b`, times the edge's weight. -/
def layerR (src dst : EdgeIx) (w : EdgeW) (W1 : Mat 64) (b1 : Row) (W2 W3 : Mat 64) (b3 : Row) (h : Feat 64) : Feat 64 :=
  fun n f =>
    max (((∑ e ∈ inEdges dst n,
            (lin h W1 b1 (rowOf (wrapIx (src e))) f - lin0 h W2 (rowOf (wrapIx (dst e))) f) * w e)
        + lin0 h W3 n f) + b3 f) 0

/-- What the combining step leaves at node `n`, feature `f`, from the arrays it is handed: the aggregate less `b`
    times the node's summed weight (a one-column array), plus the third affine image of the features; the positive
    part. -/
def combineF (h agg bb : (⟨2, ![100000, 64]⟩ : Shape).Idx → EReal) (indeg : (⟨2, ![100000, 1]⟩ : Shape).Idx → EReal)
    (W3 : (⟨2, ![64, 64]⟩ : Shape).Idx → EReal) (b3 : (⟨2, ![1, 64]⟩ : Shape).Idx → EReal) : Feat 64 :=
  fun n f =>
    max ((agg (ix2 n f) - bb (ix2 n f) * indeg (ix2 n (0 : Fin 1)))
      + lin (toFn2 h) (toFn2 W3) (fun f => b3 (ix2 (0 : Fin 1) f)) n f) 0

/-- The arguments the way both networks read them: the two rows of the edge list, the edge weights, layer `l`'s
    slices of the stacked parameters. -/
def srcOf (ei : IVec ⟨2, ![2, 1600000]⟩ 32) : EdgeIx := fun e => ei (ix2 (0 : Fin 2) e)
def dstOf (ei : IVec ⟨2, ![2, 1600000]⟩ 32) : EdgeIx := fun e => ei (ix2 (1 : Fin 2) e)
def wOf (w : (⟨1, ![1600000]⟩ : Shape).Idx → EReal) : EdgeW := fun e => w (ix1 e)
def matOf (W : (⟨3, ![2, 64, 64]⟩ : Shape).Idx → EReal) (l : Fin 2) : Mat 64 := fun q f => W (ix3 l q f)
def rowOfArr (b : (⟨2, ![2, 64]⟩ : Shape).Idx → EReal) (l : Fin 2) : Row := fun f => b (ix2 l f)
def vecOf (b : (⟨1, ![64]⟩ : Shape).Idx → EReal) : Row := fun f => b (ix1 f)

/-- The network with the subtraction taken out of the edge sums, as a function of the argument arrays. -/
def netK (x : (⟨2, ![100000, 128]⟩ : Shape).Idx → EReal) (ei : IVec ⟨2, ![2, 1600000]⟩ 32)
    (w : (⟨1, ![1600000]⟩ : Shape).Idx → EReal) (Wemb : (⟨2, ![128, 64]⟩ : Shape).Idx → EReal)
    (bemb : (⟨1, ![64]⟩ : Shape).Idx → EReal) (W1 : (⟨3, ![2, 64, 64]⟩ : Shape).Idx → EReal)
    (b1 : (⟨2, ![2, 64]⟩ : Shape).Idx → EReal) (W2 W3 : (⟨3, ![2, 64, 64]⟩ : Shape).Idx → EReal)
    (b3 : (⟨2, ![2, 64]⟩ : Shape).Idx → EReal) : Feat 64 :=
  layerK (srcOf ei) (dstOf ei) (wOf w) (matOf W1 1) (rowOfArr b1 1) (matOf W2 1) (matOf W3 1) (rowOfArr b3 1)
    (layerK (srcOf ei) (dstOf ei) (wOf w) (matOf W1 0) (rowOfArr b1 0) (matOf W2 0) (matOf W3 0) (rowOfArr b3 0)
      (lin (toFn2 x) (toFn2 Wemb) (vecOf bemb)))

/-- The network with the subtraction inside the edge sums. -/
def netR (x : (⟨2, ![100000, 128]⟩ : Shape).Idx → EReal) (ei : IVec ⟨2, ![2, 1600000]⟩ 32)
    (w : (⟨1, ![1600000]⟩ : Shape).Idx → EReal) (Wemb : (⟨2, ![128, 64]⟩ : Shape).Idx → EReal)
    (bemb : (⟨1, ![64]⟩ : Shape).Idx → EReal) (W1 : (⟨3, ![2, 64, 64]⟩ : Shape).Idx → EReal)
    (b1 : (⟨2, ![2, 64]⟩ : Shape).Idx → EReal) (W2 W3 : (⟨3, ![2, 64, 64]⟩ : Shape).Idx → EReal)
    (b3 : (⟨2, ![2, 64]⟩ : Shape).Idx → EReal) : Feat 64 :=
  layerR (srcOf ei) (dstOf ei) (wOf w) (matOf W1 1) (rowOfArr b1 1) (matOf W2 1) (matOf W3 1) (rowOfArr b3 1)
    (layerR (srcOf ei) (dstOf ei) (wOf w) (matOf W1 0) (rowOfArr b1 0) (matOf W2 0) (matOf W3 0) (rowOfArr b3 0)
      (lin (toFn2 x) (toFn2 Wemb) (vecOf bemb)))

/-- Every entry is a real number (neither infinity). -/
def Real1 {α : Type} (v : α → EReal) : Prop := ∀ a, ∃ r : ℝ, v a = (r : EReal)
/-- Every entry of a two-coordinate family is a real number. -/
def Real2 {α β : Type} (g : α → β → EReal) : Prop := ∀ a b, ∃ r : ℝ, g a b = (r : EReal)

end Cert.LeGnn

end
-- ==== Proof.KernelTerm.lean ====
/-
  What the program with the five regions computes, as one term of its argument arrays: the host operations of its
  main function applied in order, with each region's output array written as the whole-array function its blocks
  are restrictions of (the affine image of the rows for the embedding and for `a`, the linear image for `b`, the
  combining step for the next features). The edge list's two rows are sliced out once; the summed weight of the edges
  ending at each node is a scatter of the weights, laid out as a column; each layer gathers the source rows of `a`,
  scales them by the edge weights and scatters them onto the target nodes.
-/
import proofs.«131890_j77223511982150_1_alg».proof.Proof.Gen.KernelIdeal.Frame
import proofs.«131890_j77223511982150_1_alg».proof.Proof.Spec

noncomputable section

namespace Cert.KernelIdeal.Val

open Cert.KernelIdeal Cert.KernelIdeal.Gen Cert.LeGnn
open Idealize.ShloMosaic Idealize.ShloMosaic.TcCoe Idealize.ShloMosaic.ValueIdx Idealize.SL.Sem

variable (m : (ℓ : Loc nD τ sig) → Buf (Elt Ideal) ℓ) (c : Dev nD)

/-- The argument arrays as launched. -/
abbrev aX : FVec Ideal S100000x128 .f32 := m ((c.tc : Thread nD τ).loc main_arg0)
abbrev aEI : IVec S2x1600000 32 := m ((c.tc : Thread nD τ).loc main_arg1)
abbrev aW : FVec Ideal S1600000 .f32 := m ((c.tc : Thread nD τ).loc main_arg2)
abbrev aWemb : FVec Ideal S128x64 .f32 := m ((c.tc : Thread nD τ).loc main_arg4)
abbrev aBemb : FVec Ideal S64 .f32 := m ((c.tc : Thread nD τ).loc main_arg5)
abbrev aW1 : FVec Ideal S2x64x64 .f32 := m ((c.tc : Thread nD τ).loc main_arg6)
abbrev aB1 : FVec Ideal S2x64 .f32 := m ((c.tc : Thread nD τ).loc main_arg7)
abbrev aW2 : FVec Ideal S2x64x64 .f32 := m ((c.tc : Thread nD τ).loc main_arg8)
abbrev aW3 : FVec Ideal S2x64x64 .f32 := m ((c.tc : Thread nD τ).loc main_arg9)
abbrev aB3 : FVec Ideal S2x64 .f32 := m ((c.tc : Thread nD τ).loc main_arg10)

/-- The edges' source words: row 0 of the edge list. -/
def srcV : IVec S1600000 32 :=
  shapeCast S1600000 (extractStridedSlice S1x1600000 ![0, 0] (aEI m c) slices_S2x1600000_S1x1600000_0_0) shapeCasts_S1x1600000_S1600000
/-- The edges' target words: row 1 of the edge list. -/
def dstV : IVec S1600000 32 :=
  shapeCast S1600000 (extractStridedSlice S1x1600000 ![1, 0] (aEI m c) slices_S2x1600000_S1x1600000_1_0) shapeCasts_S1x1600000_S1600000
/-- The embedding's bias as a 1×64 row. -/
def bembRow : FVec Ideal S1x64 .f32 := shapeCast S1x64 (aBemb m c) shapeCasts_S64_S1x64
/-- The embedded features: the affine image of the input rows. -/
def h0 : FVec Ideal S100000x64 .f32 :=
  ofFn2 (lin (toFn2 (aX m c)) (toFn2 (aWemb m c)) (fun f => bembRow m c (ix2 (0 : Fin 1) f)))
/-- The target words as a column of scatter indices. -/
def dstIdx : IVec S1600000x1 32 := broadcastInDim S1600000x1 ![0] bcast_S1600000_S1600000x1_0 (dstV m c)
/-- The source words, a negative one moved up by the node count, as a column of gather indices. -/
def srcIdx : IVec S1600000x1 32 :=
  broadcastInDim S1600000x1 ![0] bcast_S1600000_S1600000x1_0
    (select (cmpi .slt (srcV m c) (broadcastInDim S1600000 ![] bcast_S_S1600000 (constantI S_ 32 0#32)))
      (addi (srcV m c) (broadcastInDim S1600000 ![] bcast_S_S1600000 (constantI S_ 32 100000#32))) (srcV m c))
/-- Every node's summed weight over the edges ending there, as a 100000×1 column. -/
def indegCol : FVec Ideal S100000x1 .f32 :=
  shapeCast S100000x1
    (Host.scatterAdd scatter_S100000_S1600000x1_S1600000_n_0_0_1
      (broadcastInDim S100000 ![] bcast_S_S100000 (constant S_ .f32 0x00000000#32)) (dstIdx m c) (aW m c))
    shapeCasts_S100000_S100000x1
/-- The edge weights across the 64 features. -/
def wB : FVec Ideal S1600000x64 .f32 :=
  broadcastInDim S1600000x64 ![0, 1] bcast_S1600000x1_S1600000x64_0_1
    (broadcastInDim S1600000x1 ![0] bcast_S1600000_S1600000x1_0 (aW m c))
/-- The aggregate of `a`: its source rows, scaled by the edge weights, summed onto the target nodes. -/
def aggOf (a : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32)) (dstIdx m c)
    (mulf (Host.gather gather_S100000x64_S1600000x1_S1600000x64_1_0_n_n_0_1_164 a (srcIdx m c)) (wB m c))

/-- Layer 0's and layer 1's slices of the stacked parameters. -/
def W1s0 : FVec Ideal S64x64 .f32 := shapeCast S64x64 (extractStridedSlice S1x64x64 ![0, 0, 0] (aW1 m c) slices_S2x64x64_S1x64x64_0_0_0) shapeCasts_S1x64x64_S64x64
def W1s1 : FVec Ideal S64x64 .f32 := shapeCast S64x64 (extractStridedSlice S1x64x64 ![1, 0, 0] (aW1 m c) slices_S2x64x64_S1x64x64_1_0_0) shapeCasts_S1x64x64_S64x64
def W2s0 : FVec Ideal S64x64 .f32 := shapeCast S64x64 (extractStridedSlice S1x64x64 ![0, 0, 0] (aW2 m c) slices_S2x64x64_S1x64x64_0_0_0) shapeCasts_S1x64x64_S64x64
def W2s1 : FVec Ideal S64x64 .f32 := shapeCast S64x64 (extractStridedSlice S1x64x64 ![1, 0, 0] (aW2 m c) slices_S2x64x64_S1x64x64_1_0_0) shapeCasts_S1x64x64_S64x64
def W3s0 : FVec Ideal S64x64 .f32 := shapeCast S64x64 (extractStridedSlice S1x64x64 ![0, 0, 0] (aW3 m c) slices_S2x64x64_S1x64x64_0_0_0) shapeCasts_S1x64x64_S64x64
def W3s1 : FVec Ideal S64x64 .f32 := shapeCast S64x64 (extractStridedSlice S1x64x64 ![1, 0, 0] (aW3 m c) slices_S2x64x64_S1x64x64_1_0_0) shapeCasts_S1x64x64_S64x64
def b1row0 : FVec Ideal S1x64 .f32 := shapeCast S1x64 (shapeCast S64 (extractStridedSlice S1x64 ![0, 0] (aB1 m c) slices_S2x64_S1x64_0_0) shapeCasts_S1x64_S64) shapeCasts_S64_S1x64
def b1row1 : FVec Ideal S1x64 .f32 := shapeCast S1x64 (shapeCast S64 (extractStridedSlice S1x64 ![1, 0] (aB1 m c) slices_S2x64_S1x64_1_0) shapeCasts_S1x64_S64) shapeCasts_S64_S1x64
def b3row0 : FVec Ideal S1x64 .f32 := shapeCast S1x64 (shapeCast S64 (extractStridedSlice S1x64 ![0, 0] (aB3 m c) slices_S2x64_S1x64_0_0) shapeCasts_S1x64_S64) shapeCasts_S64_S1x64
def b3row1 : FVec Ideal S1x64 .f32 := shapeCast S1x64 (shapeCast S64 (extractStridedSlice S1x64 ![1, 0] (aB3 m c) slices_S2x64_S1x64_1_0) shapeCasts_S1x64_S64) shapeCasts_S64_S1x64

/-- One layer over the features `h`: the two linear images, the aggregate of the first, the combining step. -/
def layerT (h : FVec Ideal S100000x64 .f32) (W1 : FVec Ideal S64x64 .f32) (b1row : FVec Ideal S1x64 .f32)
    (W2 W3 : FVec Ideal S64x64 .f32) (b3row : FVec Ideal S1x64 .f32) : FVec Ideal S100000x64 .f32 :=
  ofFn2 (combineF h
    (aggOf m c (ofFn2 (lin (toFn2 h) (toFn2 W1) (fun f => b1row (ix2 (0 : Fin 1) f)))))
    (ofFn2 (lin0 (toFn2 h) (toFn2 W2))) (indegCol m c) W3 b3row)

/-- The program's result as a term of its arguments. -/
def kTerm : FVec Ideal S100000x64 .f32 :=
  layerT m c (layerT m c (h0 m c) (W1s0 m c) (b1row0 m c) (W2s0 m c) (W3s0 m c) (b3row0 m c))
    (W1s1 m c) (b1row1 m c) (W2s1 m c) (W3s1 m c) (b3row1 m c)

end Cert.KernelIdeal.Val

end
-- ==== Proof.RegionSpecs.lean ====
/-
  What each region's output array holds when the region ends, as a function of the arrays the region is entered
  with: the affine image of the rows (the embedding; `a` in each layer), the linear image (`b`), and the combining
  step. Stated for any contents `V` at the region's entry.
-/
import proofs.«131890_j77223511982150_1_alg».proof.Proof.Gen.KernelIdeal.Frame
import proofs.«131890_j77223511982150_1_alg».proof.Proof.Spec

noncomputable section

namespace Cert.KernelIdeal.Val

open Cert.KernelIdeal Cert.KernelIdeal.Gen Cert.LeGnn
open Idealize.ShloMosaic Idealize.ShloMosaic.TcCoe Idealize.ShloMosaic.ValueIdx Idealize.SL.Sem

/-- Buffer contents at a region's entry. -/
abbrev Entry : Type := (c : Dev nD) → (b : Ref sig .tc) → Buf (Elt Ideal) ((c : Thread nD τ).loc b)

def Final0 : Prop := ∀ (V : Entry) (c : Dev nD) (x : S100000x128.Idx → EReal) (W : S128x64.Idx → EReal) (b : S1x64.Idx → EReal),
    V c main_arg0 = x → V c main_arg4 = W → V c main_v4 = b →
    (dat0 (F := Ideal) V c).arrAt 3 cfg0.N = ofFn2 (lin (toFn2 x) (toFn2 W) (fun f => b (ix2 (0 : Fin 1) f)))

def Final1_4 : Prop := ∀ (V : Entry) (c : Dev nD) (h : S100000x64.Idx → EReal) (W1 : S64x64.Idx → EReal) (b1 : S1x64.Idx → EReal) (W2 : S64x64.Idx → EReal),
    V c main_v5 = h → V c main_v11 = W1 → V c main_v16 = b1 → V c main_v15 = W2 →
    (dat1 (F := Ideal) V c).arrAt 4 cfg1.N = ofFn2 (lin (toFn2 h) (toFn2 W1) (fun f => b1 (ix2 (0 : Fin 1) f)))

def Final1_5 : Prop := ∀ (V : Entry) (c : Dev nD) (h : S100000x64.Idx → EReal) (W1 : S64x64.Idx → EReal) (b1 : S1x64.Idx → EReal) (W2 : S64x64.Idx → EReal),
    V c main_v5 = h → V c main_v11 = W1 → V c main_v16 = b1 → V c main_v15 = W2 →
    (dat1 (F := Ideal) V c).arrAt 5 cfg1.N = ofFn2 (lin0 (toFn2 h) (toFn2 W2))

def Final2_6 : Prop := ∀ (V : Entry) (c : Dev nD) (h agg bb : S100000x64.Idx → EReal) (indeg : S100000x1.Idx → EReal) (W3 : S64x64.Idx → EReal) (b3 : S1x64.Idx → EReal),
    V c main_v5 = h → V c main_v30 = agg → V c main_v17_1 = bb → V c main_v9 = indeg → V c main_v32 = W3 → V c main_v35 = b3 →
    (dat2 (F := Ideal) V c).arrAt 6 cfg2.N = ofFn2 (combineF h agg bb indeg W3 b3)

def Final3_4 : Prop := ∀ (V : Entry) (c : Dev nD) (h : S100000x64.Idx → EReal) (W1 : S64x64.Idx → EReal) (b1 : S1x64.Idx → EReal) (W2 : S64x64.Idx → EReal),
    V c main_v36 = h → V c main_v38 = W1 → V c main_v43 = b1 → V c main_v42 = W2 →
    (dat3 (F := Ideal) V c).arrAt 4 cfg3.N = ofFn2 (lin (toFn2 h) (toFn2 W1) (fun f => b1 (ix2 (0 : Fin 1) f)))

def Final3_5 : Prop := ∀ (V : Entry) (c : Dev nD) (h : S100000x64.Idx → EReal) (W1 : S64x64.Idx → EReal) (b1 : S1x64.Idx → EReal) (W2 : S64x64.Idx → EReal),
    V c main_v36 = h → V c main_v38 = W1 → V c main_v43 = b1 → V c main_v42 = W2 →
    (dat3 (F := Ideal) V c).arrAt 5 cfg3.N = ofFn2 (lin0 (toFn2 h) (toFn2 W2))

def Final4_6 : Prop := ∀ (V : Entry) (c : Dev nD) (h agg bb : S100000x64.Idx → EReal) (indeg : S100000x1.Idx → EReal) (W3 : S64x64.Idx → EReal) (b3 : S1x64.Idx → EReal),
    V c main_v36 = h → V c main_v57 = agg → V c main_v44_1 = bb → V c main_v9 = indeg → V c main_v59 = W3 → V c main_v62 = b3 →
    (dat4 (F := Ideal) V c).arrAt 6 cfg4.N = ofFn2 (combineF h agg bb indeg W3 b3)

end Cert.KernelIdeal.Val

end
-- ==== Proof.KernelFold1.lean ====
/-
  The second layer through the run: from the contents when the third region ends to the result buffer.

  The fold of buffer contents is walked back one buffer at a time. A host stretch leaves a buffer none of its
  operations writes as it was, and writes each of the others with its operation's value over the stretch's entry
  contents; a region leaves every buffer that is not one of its arrays, and each of its input arrays, as entered,
  and its output arrays at what the region's statement says. The layer's slices of the stacked parameters enter the
  fourth region, whose outputs are the affine and the linear image of the features; the host stretch after it builds
  the aggregate of the first and the remaining slices; the fifth region's output is the combining step: the layer.
-/
import proofs.«131890_j77223511982150_1_alg».proof.Proof.Gen.KernelIdeal.Frame
import proofs.«131890_j77223511982150_1_alg».proof.Proof.KernelTerm
import proofs.«131890_j77223511982150_1_alg».proof.Proof.RegionSpecs
import Idealize.ShloMosaic.Lib.StableHlo.Run

set_option maxRecDepth 16384

noncomputable section

namespace Cert.KernelIdeal.Val

open Cert.KernelIdeal Cert.KernelIdeal.Gen Cert.LeGnn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A buffer that no operation of the host stretch before the fourth region writes keeps its contents. -/
local macro "keep3" : tactic =>
  `(tactic| exact StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- A buffer that no operation of the host stretch before the fifth region writes keeps its contents. -/
local macro "keep4" : tactic =>
  `(tactic| exact StableHlo.after_of_forall_not_mem _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Through the host stretch before the fourth region -/

section Stretch3

theorem W7_v36 : W7 (F := Ideal) m ρ c (Proc.devRef .tc main_v36) = W6 (F := Ideal) m ρ c (Proc.devRef .tc main_v36) := by keep3
theorem W7_v9 : W7 (F := Ideal) m ρ c (Proc.devRef .tc main_v9) = W6 (F := Ideal) m ρ c (Proc.devRef .tc main_v9) := by keep3
theorem W7_v1 : W7 (F := Ideal) m ρ c (Proc.devRef .tc main_v1) = W6 (F := Ideal) m ρ c (Proc.devRef .tc main_v1) := by keep3
theorem W7_v3 : W7 (F := Ideal) m ρ c (Proc.devRef .tc main_v3) = W6 (F := Ideal) m ρ c (Proc.devRef .tc main_v3) := by keep3
theorem W7_arg2 : W7 (F := Ideal) m ρ c (Proc.devRef .tc main_arg2) = W6 (F := Ideal) m ρ c (Proc.devRef .tc main_arg2) := by keep3
theorem W7_arg9 : W7 (F := Ideal) m ρ c (Proc.devRef .tc main_arg9) = W6 (F := Ideal) m ρ c (Proc.devRef .tc main_arg9) := by keep3
theorem W7_arg10 : W7 (F := Ideal) m ρ c (Proc.devRef .tc main_arg10) = W6 (F := Ideal) m ρ c (Proc.devRef .tc main_arg10) := by keep3

/-- The stretch writes main_v38 with layer 1's slice of the first stacked matrices. -/
theorem W7_v38 (hA6 : W6 (F := Ideal) m ρ c (Proc.devRef .tc main_arg6) = aW1 m c) :
    W7 (F := Ideal) m ρ c (Proc.devRef .tc main_v38) = W1s1 m c := by
  show StableHlo.after hostOps3 (W6 (F := Ideal) m ρ c) (Proc.devRef .tc main_v38) = _
  after_results
  rw [hA6]
  rfl

/-- The stretch writes main_v43 with layer 1's slice of the first stacked rows, laid out as a 1×64 row. -/
theorem W7_v43 (hA7 : W6 (F := Ideal) m ρ c (Proc.devRef .tc main_arg7) = aB1 m c) :
    W7 (F := Ideal) m ρ c (Proc.devRef .tc main_v43) = b1row1 m c := by
  show StableHlo.after hostOps3 (W6 (F := Ideal) m ρ c) (Proc.devRef .tc main_v43) = _
  after_results
  rw [hA7]
  rfl

/-- The stretch writes main_v42 with layer 1's slice of the second stacked matrices. -/
theorem W7_v42 (hA8 : W6 (F := Ideal) m ρ c (Proc.devRef .tc main_arg8) = aW2 m c) :
    W7 (F := Ideal) m ρ c (Proc.devRef .tc main_v42) = W2s1 m c := by
  show StableHlo.after hostOps3 (W6 (F := Ideal) m ρ c) (Proc.devRef .tc main_v42) = _
  after_results
  rw [hA8]
  rfl

end Stretch3

/-! ## Through the fourth region -/

section Region3

/-- The region's first output array: the affine image of the features. -/
theorem W8_v44_0 (f34 : Final3_4) (X : FVec Ideal S100000x64 .f32)
    (hX : W6 (F := Ideal) m ρ c (Proc.devRef .tc main_v36) = X)
    (hA6 : W6 (F := Ideal) m ρ c (Proc.devRef .tc main_arg6) = aW1 m c)
    (hA7 : W6 (F := Ideal) m ρ c (Proc.devRef .tc main_arg7) = aB1 m c)
    (hA8 : W6 (F := Ideal) m ρ c (Proc.devRef .tc main_arg8) = aW2 m c) :
    W8 (F := Ideal) m ρ c (Proc.devRef .tc main_v44_0)
      = ofFn2 (lin (toFn2 X) (toFn2 (W1s1 m c)) (fun f => b1row1 m c (ix2 (0 : Fin 1) f))) :=
  (W8_arr m ρ c 4).trans (f34 (V7 m ρ) c X (W1s1 m c) (b1row1 m c) (W2s1 m c)
    ((W7_v36 m ρ c).trans hX) (W7_v38 m ρ c hA6) (W7_v43 m ρ c hA7) (W7_v42 m ρ c hA8))

/-- The region's second output array: the linear image of the features. -/
theorem W8_v44_1 (f35 : Final3_5) (X : FVec Ideal S100000x64 .f32)
    (hX : W6 (F := Ideal) m ρ c (Proc.devRef .tc main_v36) = X)
    (hA6 : W6 (F := Ideal) m ρ c (Proc.devRef .tc main_arg6) = aW1 m c)
    (hA7 : W6 (F := Ideal) m ρ c (Proc.devRef .tc main_arg7) = aB1 m c)
    (hA8 : W6 (F := Ideal) m ρ c (Proc.devRef .tc main_arg8) = aW2 m c) :
    W8 (F := Ideal) m ρ c (Proc.devRef .tc main_v44_1) = ofFn2 (lin0 (toFn2 X) (toFn2 (W2s1 m c))) :=
  (W8_arr m ρ c 5).trans (f35 (V7 m ρ) c X (W1s1 m c) (b1row1 m c) (W2s1 m c)
    ((W7_v36 m ρ c).trans hX) (W7_v38 m ρ c hA6) (W7_v43 m ρ c hA7) (W7_v42 m ρ c hA8))

/-- The features are an input array of the region: as entered. -/
theorem W8_v36 : W8 (F := Ideal) m ρ c (Proc.devRef .tc main_v36) = W6 (F := Ideal) m ρ c (Proc.devRef .tc main_v36) :=
  ((W8_arr m ρ c 0).trans (((dat3 (V7 m ρ) c).arrAt_in 0 rfl _).trans (A_eq3 (V7 m ρ) c 0))).trans (W7_v36 m ρ c)

theorem W8_v9 : W8 (F := Ideal) m ρ c (Proc.devRef .tc main_v9) = W6 (F := Ideal) m ρ c (Proc.devRef .tc main_v9) :=
  (W8_of_ne m ρ c main_v9 (by decide)).trans (W7_v9 m ρ c)
theorem W8_v1 : W8 (F := Ideal) m ρ c (Proc.devRef .tc main_v1) = W6 (F := Ideal) m ρ c (Proc.devRef .tc main_v1) :=
  (W8_of_ne m ρ c main_v1 (by decide)).trans (W7_v1 m ρ c)
theorem W8_v3 : W8 (F := Ideal) m ρ c (Proc.devRef .tc main_v3) = W6 (F := Ideal) m ρ c (Proc.devRef .tc main_v3) :=
  (W8_of_ne m ρ c main_v3 (by decide)).trans (W7_v3 m ρ c)
theorem W8_arg2 : W8 (F := Ideal) m ρ c (Proc.devRef .tc main_arg2) = W6 (F := Ideal) m ρ c (Proc.devRef .tc main_arg2) :=
  (W8_of_ne m ρ c main_arg2 (by decide)).trans (W7_arg2 m ρ c)
theorem W8_arg9 : W8 (F := Ideal) m ρ c (Proc.devRef .tc main_arg9) = W6 (F := Ideal) m ρ c (Proc.devRef .tc main_arg9) :=
  (W8_of_ne m ρ c main_arg9 (by decide)).trans (W7_arg9 m ρ c)
theorem W8_arg10 : W8 (F := Ideal) m ρ c (Proc.devRef .tc main_arg10) = W6 (F := Ideal) m ρ c (Proc.devRef .tc main_arg10) :=
  (W8_of_ne m ρ c main_arg10 (by decide)).trans (W7_arg10 m ρ c)

end Region3

/-! ## Through the host stretch before the fifth region -/

section Stretch4

theorem W9_v36 : W9 (F := Ideal) m ρ c (Proc.devRef .tc main_v36) = W8 (F := Ideal) m ρ c (Proc.devRef .tc main_v36) := by keep4
theorem W9_v44_1 : W9 (F := Ideal) m ρ c (Proc.devRef .tc main_v44_1) = W8 (F := Ideal) m ρ c (Proc.devRef .tc main_v44_1) := by keep4
theorem W9_v9 : W9 (F := Ideal) m ρ c (Proc.devRef .tc main_v9) = W8 (F := Ideal) m ρ c (Proc.devRef .tc main_v9) := by keep4

/-- The stretch writes main_v57 with the aggregate of the fourth region's first output: its rows gathered at the
    wrapped source words, scaled by the edge weights, scattered onto the target words from the zero array. -/
theorem W9_v57 (A : FVec Ideal S100000x64 .f32)
    (hA : W8 (F := Ideal) m ρ c (Proc.devRef .tc main_v44_0) = A)
    (h1 : W8 (F := Ideal) m ρ c (Proc.devRef .tc main_v1) = srcV m c)
    (h3 : W8 (F := Ideal) m ρ c (Proc.devRef .tc main_v3) = dstV m c)
    (h2 : W8 (F := Ideal) m ρ c (Proc.devRef .tc main_arg2) = aW m c) :
    W9 (F := Ideal) m ρ c (Proc.devRef .tc main_v57) = aggOf m c A := by
  show StableHlo.after hostOps4 (W8 (F := Ideal) m ρ c) (Proc.devRef .tc main_v57) = _
  after_results_simp
  rw [hA, h1, h3, h2]
  rfl

/-- The stretch writes main_v59 with layer 1's slice of the third stacked matrices. -/
theorem W9_v59 (hA9 : W8 (F := Ideal) m ρ c (Proc.devRef .tc main_arg9) = aW3 m c) :
    W9 (F := Ideal) m ρ c (Proc.devRef .tc main_v59) = W3s1 m c := by
  show StableHlo.after hostOps4 (W8 (F := Ideal) m ρ c) (Proc.devRef .tc main_v59) = _
  after_results
  rw [hA9]
  rfl

/-- The stretch writes main_v62 with layer 1's slice of the second stacked rows, laid out as a 1×64 row. -/
theorem W9_v62 (hA10 : W8 (F := Ideal) m ρ c (Proc.devRef .tc main_arg10) = aB3 m c) :
    W9 (F := Ideal) m ρ c (Proc.devRef .tc main_v62) = b3row1 m c := by
  show StableHlo.after hostOps4 (W8 (F := Ideal) m ρ c) (Proc.devRef .tc main_v62) = _
  after_results
  rw [hA10]
  rfl

end Stretch4

/-! ## Through the fifth region: the layer -/

/-- The result buffer when the fifth region ends holds one layer over the features the third region left, with
    layer 1's slices of the stacked parameters. -/
theorem fold_layer1 (f34 : Final3_4) (f35 : Final3_5) (f46 : Final4_6)
    (m : (ℓ : Loc nD τ sig) → Buf (Elt Ideal) ℓ) (ρ : Dev nD → PrngReg) (c : Dev nD) (X : FVec Ideal S100000x64 .f32)
    (hX : W6 (F := Ideal) m ρ c (Proc.devRef .tc main_v36) = X)
    (h9 : W6 (F := Ideal) m ρ c (Proc.devRef .tc main_v9) = indegCol m c)
    (h1 : W6 (F := Ideal) m ρ c (Proc.devRef .tc main_v1) = srcV m c)
    (h3 : W6 (F := Ideal) m ρ c (Proc.devRef .tc main_v3) = dstV m c)
    (hA2 : W6 (F := Ideal) m ρ c (Proc.devRef .tc main_arg2) = aW m c)
    (hA6 : W6 (F := Ideal) m ρ c (Proc.devRef .tc main_arg6) = aW1 m c)
    (hA7 : W6 (F := Ideal) m ρ c (Proc.devRef .tc main_arg7) = aB1 m c)
    (hA8 : W6 (F := Ideal) m ρ c (Proc.devRef .tc main_arg8) = aW2 m c)
    (hA9 : W6 (F := Ideal) m ρ c (Proc.devRef .tc main_arg9) = aW3 m c)
    (hA10 : W6 (F := Ideal) m ρ c (Proc.devRef .tc main_arg10) = aB3 m c) :
    W10 (F := Ideal) m ρ c (Proc.devRef .tc main_v63) = layerT m c X (W1s1 m c) (b1row1 m c) (W2s1 m c) (W3s1 m c) (b3row1 m c) := by
  -- the fifth region's entry arrays
  have e36 : V9 (F := Ideal) m ρ c main_v36 = X := (W9_v36 m ρ c).trans ((W8_v36 m ρ c).trans hX)
  have e57 : V9 (F := Ideal) m ρ c main_v57
      = aggOf m c (ofFn2 (lin (toFn2 X) (toFn2 (W1s1 m c)) (fun f => b1row1 m c (ix2 (0 : Fin 1) f)))) :=
    W9_v57 m ρ c _ (W8_v44_0 m ρ c f34 X hX hA6 hA7 hA8) ((W8_v1 m ρ c).trans h1) ((W8_v3 m ρ c).trans h3)
      ((W8_arg2 m ρ c).trans hA2)
  have e441 : V9 (F := Ideal) m ρ c main_v44_1 = ofFn2 (lin0 (toFn2 X) (toFn2 (W2s1 m c))) :=
    (W9_v44_1 m ρ c).trans (W8_v44_1 m ρ c f35 X hX hA6 hA7 hA8)
  have e9 : V9 (F := Ideal) m ρ c main_v9 = indegCol m c := (W9_v9 m ρ c).trans ((W8_v9 m ρ c).trans h9)
  have e59 : V9 (F := Ideal) m ρ c main_v59 = W3s1 m c := W9_v59 m ρ c ((W8_arg9 m ρ c).trans hA9)
  have e62 : V9 (F := Ideal) m ρ c main_v62 = b3row1 m c := W9_v62 m ρ c ((W8_arg10 m ρ c).trans hA10)
  -- its output array is the combining step over them
  exact (W10_arr m ρ c 6).trans (f46 (V9 m ρ) c X _ _ (indegCol m c) (W3s1 m c) (b3row1 m c) e36 e57 e441 e9 e59 e62)

end Cert.KernelIdeal.Val

end
-- ==== Proof.KernelFold.lean ====
/-
  The first half of the walk through the program's buffer contents: from the launch memory to the end of region 2
  (the third of the five), where the first layer's output lies.

  The contents at each boundary are a fold: a stretch of host operations rewrites the buffers it writes and leaves the
  rest; a region leaves its output arrays at what its blocks add up to, its input arrays as entered, every other
  buffer as it was. Read backwards, one buffer at a time, this gives: the two rows of the edge list, the summed edge
  weights per node and the arguments reach the end of region 2 unchanged; the embedded features are the affine
  image of the input rows; the first layer's two linear images are those of the embedded features under slice 0 of
  the stacked parameters; its aggregate is the gather, scaling and scatter of the first image; and region 2's
  output is the combining step over these, which is the one-layer term at the embedded features. With the second
  half (the same walk from there to the last region's output) the program's result is the two-layer term.
-/
import proofs.«131890_j77223511982150_1_alg».proof.Proof.Gen.KernelIdeal.Frame
import proofs.«131890_j77223511982150_1_alg».proof.Proof.KernelTerm
import proofs.«131890_j77223511982150_1_alg».proof.Proof.RegionSpecs
import proofs.«131890_j77223511982150_1_alg».proof.Proof.KernelFold1
import Idealize.ShloMosaic.Lib.StableHlo.Run

set_option maxRecDepth 16384

noncomputable section

namespace Cert.KernelIdeal.Val

open Cert.KernelIdeal Cert.KernelIdeal.Gen Cert.LeGnn
open Idealize.ShloMosaic Idealize.ShloMosaic.TcCoe Idealize.ShloMosaic.ValueIdx Idealize.SL.Sem

namespace FoldLayer0

variable (m : (ℓ : Loc nD τ sig) → Buf (Elt Ideal) ℓ) (ρ : Dev nD → PrngReg) (c : Dev nD)

/-! ## What a stretch of host operations leaves alone

The references each of the first three stretches writes, in order. A reference outside the list holds after the
stretch what it held before it, whatever the contents the stretch starts from. -/

/-- The references stretch 0 writes: the two rows of the edge list and the embedding's bias row. -/
abbrev wr0 : List (Ref sig .tc) := [main_v0, main_v1, main_v2, main_v3, main_v4]
/-- The references stretch 1 writes: the summed weights as a column, layer 0's first two matrices and first bias row. -/
abbrev wr1 : List (Ref sig .tc) :=
  [main_cst, main_v6, main_v7, main_v8, main_v9, main_v10, main_v11, main_v12, main_v13, main_v14, main_v15, main_v16]
/-- The references stretch 2 writes: layer 0's aggregate with everything it is built from, its third matrix and
    second bias row. -/
abbrev wr2 : List (Ref sig .tc) :=
  [main_c, main_v18, main_v19, main_c_0, main_v20, main_v21, main_v22, main_v23, main_v24, main_v25, main_v26, main_v27,
   main_cst_1, main_v28, main_v29, main_v30, main_v31, main_v32, main_v33, main_v34, main_v35]

theorem keep0 (V : Valuation τ sig (Elt Ideal)) (b : Ref sig .tc) (h : b ∉ wr0) :
    StableHlo.after (hostOps0 (F := Ideal)) V (Proc.devRef .tc b) = V (Proc.devRef .tc b) :=
  StableHlo.after_of_writes_sub (W := wr0) _ V (by
    simp only [hostOps0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) h

theorem keep1 (V : Valuation τ sig (Elt Ideal)) (b : Ref sig .tc) (h : b ∉ wr1) :
    StableHlo.after (hostOps1 (F := Ideal)) V (Proc.devRef .tc b) = V (Proc.devRef .tc b) :=
  StableHlo.after_of_writes_sub (W := wr1) _ V (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) h

theorem keep2 (V : Valuation τ sig (Elt Ideal)) (b : Ref sig .tc) (h : b ∉ wr2) :
    StableHlo.after (hostOps2 (F := Ideal)) V (Proc.devRef .tc b) = V (Proc.devRef .tc b) :=
  StableHlo.after_of_writes_sub (W := wr2) _ V (by
    simp only [hostOps2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) h

/-! ## What a stretch writes, as a term of the contents it starts from -/

/-- Row 0 of the edge list, flattened. -/
theorem ops0_v1 (V : Valuation τ sig (Elt Ideal)) :
    StableHlo.after (hostOps0 (F := Ideal)) V (Proc.devRef .tc main_v1)
      = (shapeCast S1600000 (extractStridedSlice S1x1600000 ![0, 0] (V (Proc.devRef .tc main_arg1) : IVec S2x1600000 32)
          slices_S2x1600000_S1x1600000_0_0) shapeCasts_S1x1600000_S1600000 : IVec S1600000 32) := by
  after_results; rfl

/-- Row 1 of the edge list, flattened. -/
theorem ops0_v3 (V : Valuation τ sig (Elt Ideal)) :
    StableHlo.after (hostOps0 (F := Ideal)) V (Proc.devRef .tc main_v3)
      = (shapeCast S1600000 (extractStridedSlice S1x1600000 ![1, 0] (V (Proc.devRef .tc main_arg1) : IVec S2x1600000 32)
          slices_S2x1600000_S1x1600000_1_0) shapeCasts_S1x1600000_S1600000 : IVec S1600000 32) := by
  after_results; rfl

/-- The embedding's bias as a 1×64 row. -/
theorem ops0_v4 (V : Valuation τ sig (Elt Ideal)) :
    StableHlo.after (hostOps0 (F := Ideal)) V (Proc.devRef .tc main_v4)
      = (shapeCast S1x64 (V (Proc.devRef .tc main_arg5) : FVec Ideal S64 .f32) shapeCasts_S64_S1x64 : FVec Ideal S1x64 .f32) := by
  after_results; rfl

/-- The weights scattered onto the target nodes, as a column. -/
theorem ops1_v9 (V : Valuation τ sig (Elt Ideal)) :
    StableHlo.after (hostOps1 (F := Ideal)) V (Proc.devRef .tc main_v9)
      = (shapeCast S100000x1
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 (V (Proc.devRef .tc main_v3) : IVec S1600000 32))
            (V (Proc.devRef .tc main_arg2) : FVec Ideal S1600000 .f32))
          shapeCasts_S100000_S100000x1 : FVec Ideal S100000x1 .f32) := by
  after_results; rfl

/-- Slice 0 of the first stacked matrix. -/
theorem ops1_v11 (V : Valuation τ sig (Elt Ideal)) :
    StableHlo.after (hostOps1 (F := Ideal)) V (Proc.devRef .tc main_v11)
      = (shapeCast S64x64 (extractStridedSlice S1x64x64 ![0, 0, 0] (V (Proc.devRef .tc main_arg6) : FVec Ideal S2x64x64 .f32)
          slices_S2x64x64_S1x64x64_0_0_0) shapeCasts_S1x64x64_S64x64 : FVec Ideal S64x64 .f32) := by
  after_results; rfl

/-- Slice 0 of the second stacked matrix. -/
theorem ops1_v15 (V : Valuation τ sig (Elt Ideal)) :
    StableHlo.after (hostOps1 (F := Ideal)) V (Proc.devRef .tc main_v15)
      = (shapeCast S64x64 (extractStridedSlice S1x64x64 ![0, 0, 0] (V (Proc.devRef .tc main_arg8) : FVec Ideal S2x64x64 .f32)
          slices_S2x64x64_S1x64x64_0_0_0) shapeCasts_S1x64x64_S64x64 : FVec Ideal S64x64 .f32) := by
  after_results; rfl

/-- Row 0 of the first stacked bias, as a 1×64 row. -/
theorem ops1_v16 (V : Valuation τ sig (Elt Ideal)) :
    StableHlo.after (hostOps1 (F := Ideal)) V (Proc.devRef .tc main_v16)
      = (shapeCast S1x64 (shapeCast S64 (extractStridedSlice S1x64 ![0, 0] (V (Proc.devRef .tc main_arg7) : FVec Ideal S2x64 .f32)
          slices_S2x64_S1x64_0_0) shapeCasts_S1x64_S64) shapeCasts_S64_S1x64 : FVec Ideal S1x64 .f32) := by
  after_results; rfl

/-- The aggregate: the source rows of the region-1 output, scaled by the weights, scattered onto the target nodes. -/
theorem ops2_v30 (V : Valuation τ sig (Elt Ideal)) :
    StableHlo.after (hostOps2 (F := Ideal)) V (Proc.devRef .tc main_v30)
      = (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3) : IVec S1600000 32))
          (mulf
            (Host.gather gather_S100000x64_S1600000x1_S1600000x64_1_0_n_n_0_1_164
              (V (Proc.devRef .tc main_v17_0) : FVec Ideal S100000x64 .f32)
              (broadcastInDim S1600000x1 ![0] bcast_S1600000_S1600000x1_0
                (select
                  (cmpi .slt (V (Proc.devRef .tc main_v1) : IVec S1600000 32)
                    (broadcastInDim S1600000 ![] bcast_S_S1600000 (constantI S_ 32 0#32)))
                  (addi (V (Proc.devRef .tc main_v1) : IVec S1600000 32)
                    (broadcastInDim S1600000 ![] bcast_S_S1600000 (constantI S_ 32 100000#32)))
                  (V (Proc.devRef .tc main_v1) : IVec S1600000 32))))
            (broadcastInDim S1600000x64 ![0, 1] bcast_S1600000x1_S1600000x64_0_1
              (broadcastInDim S1600000x1 ![0] bcast_S1600000_S1600000x1_0
                (V (Proc.devRef .tc main_arg2) : FVec Ideal S1600000 .f32)))) : FVec Ideal S100000x64 .f32) := by
  after_results_simp

/-- Slice 0 of the third stacked matrix. -/
theorem ops2_v32 (V : Valuation τ sig (Elt Ideal)) :
    StableHlo.after (hostOps2 (F := Ideal)) V (Proc.devRef .tc main_v32)
      = (shapeCast S64x64 (extractStridedSlice S1x64x64 ![0, 0, 0] (V (Proc.devRef .tc main_arg9) : FVec Ideal S2x64x64 .f32)
          slices_S2x64x64_S1x64x64_0_0_0) shapeCasts_S1x64x64_S64x64 : FVec Ideal S64x64 .f32) := by
  after_results; rfl

/-- Row 0 of the second stacked bias, as a 1×64 row. -/
theorem ops2_v35 (V : Valuation τ sig (Elt Ideal)) :
    StableHlo.after (hostOps2 (F := Ideal)) V (Proc.devRef .tc main_v35)
      = (shapeCast S1x64 (shapeCast S64 (extractStridedSlice S1x64 ![0, 0] (V (Proc.devRef .tc main_arg10) : FVec Ideal S2x64 .f32)
          slices_S2x64_S1x64_0_0) shapeCasts_S1x64_S64) shapeCasts_S64_S1x64 : FVec Ideal S1x64 .f32) := by
  after_results; rfl

/-! ## Carrying a buffer down the fold

A reference that stretch 0 does not write holds the launch contents at region 0's entry. From there to a later
boundary a reference keeps its contents when no stretch in between writes it and no region in between has it among
its arrays. -/

theorem at1 (b : Ref sig .tc) (h0 : b ∉ wr0) : W1 m ρ c (Proc.devRef .tc b) = m ((c : Thread nD τ).loc b) :=
  keep0 _ b h0

theorem c12 (b : Ref sig .tc) (r0 : ∀ w, Pipeline.arrRef spec0 w ≠ b) :
    W2 m ρ c (Proc.devRef .tc b) = W1 m ρ c (Proc.devRef .tc b) := W2_of_ne m ρ c b r0

theorem c13 (b : Ref sig .tc) (r0 : ∀ w, Pipeline.arrRef spec0 w ≠ b) (h1 : b ∉ wr1) :
    W3 m ρ c (Proc.devRef .tc b) = W1 m ρ c (Proc.devRef .tc b) := (keep1 _ b h1).trans (c12 m ρ c b r0)

theorem c14 (b : Ref sig .tc) (r0 : ∀ w, Pipeline.arrRef spec0 w ≠ b) (h1 : b ∉ wr1) (r1 : ∀ w, Pipeline.arrRef spec1 w ≠ b) :
    W4 m ρ c (Proc.devRef .tc b) = W1 m ρ c (Proc.devRef .tc b) := (W4_of_ne m ρ c b r1).trans (c13 m ρ c b r0 h1)

theorem c15 (b : Ref sig .tc) (r0 : ∀ w, Pipeline.arrRef spec0 w ≠ b) (h1 : b ∉ wr1) (r1 : ∀ w, Pipeline.arrRef spec1 w ≠ b)
    (h2 : b ∉ wr2) : W5 m ρ c (Proc.devRef .tc b) = W1 m ρ c (Proc.devRef .tc b) :=
  (keep2 _ b h2).trans (c14 m ρ c b r0 h1 r1)

theorem c16 (b : Ref sig .tc) (r0 : ∀ w, Pipeline.arrRef spec0 w ≠ b) (h1 : b ∉ wr1) (r1 : ∀ w, Pipeline.arrRef spec1 w ≠ b)
    (h2 : b ∉ wr2) (r2 : ∀ w, Pipeline.arrRef spec2 w ≠ b) :
    W6 m ρ c (Proc.devRef .tc b) = W1 m ρ c (Proc.devRef .tc b) := (W6_of_ne m ρ c b r2).trans (c15 m ρ c b r0 h1 r1 h2)

/-! ## Region 0's entry and exit -/

theorem W1_arg0 : W1 m ρ c (Proc.devRef .tc main_arg0) = aX m c := at1 m ρ c main_arg0 (by decide)
theorem W1_arg4 : W1 m ρ c (Proc.devRef .tc main_arg4) = aWemb m c := at1 m ρ c main_arg4 (by decide)
theorem W1_v4 : W1 m ρ c (Proc.devRef .tc main_v4) = bembRow m c := (ops0_v4 _).trans rfl
theorem W1_v1 : W1 m ρ c (Proc.devRef .tc main_v1) = srcV m c := (ops0_v1 _).trans rfl
theorem W1_v3 : W1 m ρ c (Proc.devRef .tc main_v3) = dstV m c := (ops0_v3 _).trans rfl

/-- The embedded features: region 0's output is the affine image of its entry arrays. -/
theorem W2_v5 (f0 : Final0) : W2 m ρ c (Proc.devRef .tc main_v5) = h0 m c :=
  (W2_arr m ρ c 3).trans (f0 (V1 m ρ) c _ _ _ (W1_arg0 m ρ c) (W1_arg4 m ρ c) (W1_v4 m ρ c))

/-! ## Region 1's entry and exit -/

theorem W2_arg (b : Ref sig .tc) (h0 : b ∉ wr0) (r0 : ∀ w, Pipeline.arrRef spec0 w ≠ b) :
    W2 m ρ c (Proc.devRef .tc b) = m ((c : Thread nD τ).loc b) := (c12 m ρ c b r0).trans (at1 m ρ c b h0)

theorem W3_v5 (f0 : Final0) : W3 m ρ c (Proc.devRef .tc main_v5) = h0 m c :=
  (keep1 _ main_v5 (by decide)).trans (W2_v5 m ρ c f0)

theorem W3_v11 : W3 m ρ c (Proc.devRef .tc main_v11) = W1s0 m c := by
  refine (ops1_v11 _).trans ?_
  rw [W2_arg m ρ c main_arg6 (by decide) (by decide)]; rfl

theorem W3_v15 : W3 m ρ c (Proc.devRef .tc main_v15) = W2s0 m c := by
  refine (ops1_v15 _).trans ?_
  rw [W2_arg m ρ c main_arg8 (by decide) (by decide)]; rfl

theorem W3_v16 : W3 m ρ c (Proc.devRef .tc main_v16) = b1row0 m c := by
  refine (ops1_v16 _).trans ?_
  rw [W2_arg m ρ c main_arg7 (by decide) (by decide)]; rfl

/-- Every node's summed weight over the edges ending there. -/
theorem W3_v9 : W3 m ρ c (Proc.devRef .tc main_v9) = indegCol m c := by
  refine (ops1_v9 _).trans ?_
  rw [W2_arg m ρ c main_arg2 (by decide) (by decide), (c12 m ρ c main_v3 (by decide)).trans (W1_v3 m ρ c)]; rfl

/-- Layer 0's first linear image with its bias: region 1's first output. -/
theorem W4_v17_0 (f0 : Final0) (f14 : Final1_4) :
    W4 m ρ c (Proc.devRef .tc main_v17_0)
      = ofFn2 (lin (toFn2 (h0 m c)) (toFn2 (W1s0 m c)) (fun f => b1row0 m c (ix2 (0 : Fin 1) f))) :=
  (W4_arr m ρ c 4).trans (f14 (V3 m ρ) c _ _ _ _ (W3_v5 m ρ c f0) (W3_v11 m ρ c) (W3_v16 m ρ c) (W3_v15 m ρ c))

/-- Layer 0's second linear image: region 1's second output. -/
theorem W4_v17_1 (f0 : Final0) (f15 : Final1_5) :
    W4 m ρ c (Proc.devRef .tc main_v17_1) = ofFn2 (lin0 (toFn2 (h0 m c)) (toFn2 (W2s0 m c))) :=
  (W4_arr m ρ c 5).trans (f15 (V3 m ρ) c _ _ _ _ (W3_v5 m ρ c f0) (W3_v11 m ρ c) (W3_v16 m ρ c) (W3_v15 m ρ c))

/-- The embedded features are an input array of region 1: it leaves them as entered. -/
theorem W4_v5 (f0 : Final0) : W4 m ρ c (Proc.devRef .tc main_v5) = h0 m c :=
  ((W4_arr m ρ c 0).trans (((dat1 (V3 m ρ) c).arrAt_in 0 rfl _).trans (A_eq1 (V3 m ρ) c 0))).trans (W3_v5 m ρ c f0)

theorem W4_v9 : W4 m ρ c (Proc.devRef .tc main_v9) = indegCol m c :=
  (W4_of_ne m ρ c main_v9 (by decide)).trans (W3_v9 m ρ c)

/-! ## Region 2's entry and exit -/

theorem W4_arg (b : Ref sig .tc) (h0 : b ∉ wr0) (r0 : ∀ w, Pipeline.arrRef spec0 w ≠ b) (h1 : b ∉ wr1)
    (r1 : ∀ w, Pipeline.arrRef spec1 w ≠ b) : W4 m ρ c (Proc.devRef .tc b) = m ((c : Thread nD τ).loc b) :=
  (c14 m ρ c b r0 h1 r1).trans (at1 m ρ c b h0)

theorem W5_v5 (f0 : Final0) : W5 m ρ c (Proc.devRef .tc main_v5) = h0 m c :=
  (keep2 _ main_v5 (by decide)).trans (W4_v5 m ρ c f0)

theorem W5_v17_1 (f0 : Final0) (f15 : Final1_5) :
    W5 m ρ c (Proc.devRef .tc main_v17_1) = ofFn2 (lin0 (toFn2 (h0 m c)) (toFn2 (W2s0 m c))) :=
  (keep2 _ main_v17_1 (by decide)).trans (W4_v17_1 m ρ c f0 f15)

theorem W5_v9 : W5 m ρ c (Proc.devRef .tc main_v9) = indegCol m c :=
  (keep2 _ main_v9 (by decide)).trans (W4_v9 m ρ c)

theorem W5_v32 : W5 m ρ c (Proc.devRef .tc main_v32) = W3s0 m c := by
  refine (ops2_v32 _).trans ?_
  rw [W4_arg m ρ c main_arg9 (by decide) (by decide) (by decide) (by decide)]; rfl

theorem W5_v35 : W5 m ρ c (Proc.devRef .tc main_v35) = b3row0 m c := by
  refine (ops2_v35 _).trans ?_
  rw [W4_arg m ρ c main_arg10 (by decide) (by decide) (by decide) (by decide)]; rfl

/-- Layer 0's aggregate: the gather, the scaling and the scatter of stretch 2, over region 1's first output. -/
theorem W5_v30 (f0 : Final0) (f14 : Final1_4) :
    W5 m ρ c (Proc.devRef .tc main_v30)
      = aggOf m c (ofFn2 (lin (toFn2 (h0 m c)) (toFn2 (W1s0 m c)) (fun f => b1row0 m c (ix2 (0 : Fin 1) f)))) := by
  refine (ops2_v30 _).trans ?_
  rw [W4_arg m ρ c main_arg2 (by decide) (by decide) (by decide) (by decide),
    (c14 m ρ c main_v3 (by decide) (by decide) (by decide)).trans (W1_v3 m ρ c),
    (c14 m ρ c main_v1 (by decide) (by decide) (by decide)).trans (W1_v1 m ρ c),
    W4_v17_0 m ρ c f0 f14]
  rfl

/-- Layer 0's output: region 2's combining step over its six entry arrays. -/
theorem W6_v36 (f0 : Final0) (f14 : Final1_4) (f15 : Final1_5) (f26 : Final2_6) :
    W6 m ρ c (Proc.devRef .tc main_v36)
      = layerT m c (h0 m c) (W1s0 m c) (b1row0 m c) (W2s0 m c) (W3s0 m c) (b3row0 m c) :=
  (W6_arr m ρ c 6).trans (f26 (V5 m ρ) c _ _ _ _ _ _ (W5_v5 m ρ c f0) (W5_v30 m ρ c f0 f14) (W5_v17_1 m ρ c f0 f15)
    (W5_v9 m ρ c) (W5_v32 m ρ c) (W5_v35 m ρ c))

/-- The summed weights are an input array of region 2: it leaves them as entered. -/
theorem W6_v9 : W6 m ρ c (Proc.devRef .tc main_v9) = indegCol m c :=
  ((W6_arr m ρ c 3).trans (((dat2 (V5 m ρ) c).arrAt_in 3 rfl _).trans (A_eq2 (V5 m ρ) c 3))).trans (W5_v9 m ρ c)

theorem W6_v1 : W6 m ρ c (Proc.devRef .tc main_v1) = srcV m c :=
  (c16 m ρ c main_v1 (by decide) (by decide) (by decide) (by decide) (by decide)).trans (W1_v1 m ρ c)

theorem W6_v3 : W6 m ρ c (Proc.devRef .tc main_v3) = dstV m c :=
  (c16 m ρ c main_v3 (by decide) (by decide) (by decide) (by decide) (by decide)).trans (W1_v3 m ρ c)

/-- An argument no stretch up to region 2's exit writes and no region up to there has among its arrays is there
    as launched. -/
theorem W6_arg (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) :
    W6 m ρ c (Proc.devRef .tc b) = m ((c : Thread nD τ).loc b) :=
  (c16 m ρ c b r0 h1 r1 h2 r2).trans (at1 m ρ c b h0)

end FoldLayer0

open FoldLayer0 in
/-- The program's result buffer holds, at the end of the last region, the two-layer term of the launch arrays: the
    first layer's output at the end of region 2 is the one-layer term at the embedded features, and the
    second half of the walk applies the layer once more with slice 1 of the stacked parameters. -/
theorem fold_eq (f0 : Final0) (f14 : Final1_4) (f15 : Final1_5) (f26 : Final2_6) (f34 : Final3_4) (f35 : Final3_5) (f46 : Final4_6)
    (m : (ℓ : Loc nD τ sig) → Buf (Elt Ideal) ℓ) (ρ : Dev nD → PrngReg) (c : Dev nD) :
    W10 (F := Ideal) m ρ c (Proc.devRef .tc main_v63) = kTerm m c :=
  (fold_layer1 f34 f35 f46 m ρ c _ (W6_v36 m ρ c f0 f14 f15 f26) (W6_v9 m ρ c) (W6_v1 m ρ c) (W6_v3 m ρ c)
    (W6_arg m ρ c main_arg2 (by decide) (by decide) (by decide) (by decide) (by decide) (by decide))
    (W6_arg m ρ c main_arg6 (by decide) (by decide) (by decide) (by decide) (by decide) (by decide))
    (W6_arg m ρ c main_arg7 (by decide) (by decide) (by decide) (by decide) (by decide) (by decide))
    (W6_arg m ρ c main_arg8 (by decide) (by decide) (by decide) (by decide) (by decide) (by decide))
    (W6_arg m ρ c main_arg9 (by decide) (by decide) (by decide) (by decide) (by decide) (by decide))
    (W6_arg m ρ c main_arg10 (by decide) (by decide) (by decide) (by decide) (by decide) (by decide))).trans rfl

end Cert.KernelIdeal.Val

end
-- ==== Proof.LibSlices.lean ====
/-
  Layout operations read at an index, for any extents.

  A stacked parameter array [2, n, k] (or [2, n]) holds one matrix (one row) per layer: the unit-stride slice at
  offset l along the leading axis, with that unit axis dropped by a shape cast, reads at (q, f) (at f) the array at
  (l, q, f) (at (l, f)). A vector [n] laid out as a row [1, n] or as a column [n, 1], by a shape cast or by a
  broadcast along a new unit axis, reads the vector at its one free coordinate. A column [n, 1] broadcast across
  the columns of [n, k] reads the column at its row; a row [1, n] broadcast down the rows of [a, n] reads the row at
  its column; a scalar broadcast to any shape reads the scalar. A broadcast's rule on an operand axis is
  "coordinate 0 where the operand's extent is 1, else the result's coordinate": where the extent is a variable that
  may itself be 1 the two branches agree, since a coordinate below 1 is 0.
-/
import Idealize.ShloMosaic.Lib.ValueIdx
import Idealize.ShloMosaic.Lib.ValueLayout
import Idealize.ShloMosaic.Lib.Pipeline.Value

noncomputable section

namespace Cert.LibSlices

open Idealize.ShloMosaic Idealize.ShloMosaic.ValueIdx

variable {α : Type}

/-- A coordinate below the extent m, under the broadcast rule for an operand axis of extent m: the rule's value is the
    coordinate itself, also when m = 1 (the coordinate is then 0). -/
theorem coord_eq_rule {m : Nat} (c : Fin m) : c.val = if m = 1 then 0 else c.val := by
  split
  · have := c.isLt; omega
  · rfl

/-- Layer l of a stacked [2, n, k] array, as an [n, k] matrix: at (q, f), the array at (l, q, f). -/
theorem slice_mat_apply {n k : Nat} (a : (⟨3, ![2, n, k]⟩ : Shape).Idx → α) (l : Nat) (hl : l < 2)
    (hs : (⟨3, ![2, n, k]⟩ : Shape).Slices ![l, 0, 0] ⟨3, ![1, n, k]⟩) (hc : (⟨3, ![1, n, k]⟩ : Shape).ShapeCasts ⟨2, ![n, k]⟩) (q : Fin n) (f : Fin k) :
    shapeCast ⟨2, ![n, k]⟩ (extractStridedSlice ⟨3, ![1, n, k]⟩ ![l, 0, 0] a hs) hc (ix2 q f) = a (ix3 (⟨l, hl⟩ : Fin 2) q f) := by
  refine (shapeCast_1ab_ab_apply _ hc q f).trans
    (extractStridedSlice_apply ![l, 0, 0] a hs _ _ fun ax => ?_)
  match ax with
  | ⟨0, _⟩ => show l = l + 0; omega
  | ⟨1, _⟩ => show q.val = 0 + q.val; omega
  | ⟨2, _⟩ => show f.val = 0 + f.val; omega

/-- Layer l of a stacked [2, n] array, as a vector [n]: at f, the array at (l, f). -/
theorem slice_row_apply {n : Nat} (a : (⟨2, ![2, n]⟩ : Shape).Idx → α) (l : Nat) (hl : l < 2)
    (hs : (⟨2, ![2, n]⟩ : Shape).Slices ![l, 0] ⟨2, ![1, n]⟩) (hc : (⟨2, ![1, n]⟩ : Shape).ShapeCasts ⟨1, ![n]⟩) (f : Fin n) :
    shapeCast ⟨1, ![n]⟩ (extractStridedSlice ⟨2, ![1, n]⟩ ![l, 0] a hs) hc (ix1 f) = a (ix2 (⟨l, hl⟩ : Fin 2) f) := by
  refine (shapeCast_1a_a_apply _ hc f).trans
    (extractStridedSlice_apply ![l, 0] a hs _ _ fun ax => ?_)
  match ax with
  | ⟨0, _⟩ => show l = l + 0; omega
  | ⟨1, _⟩ => show f.val = 0 + f.val; omega

/-- A vector [n] cast to a row [1, n]: at (0, f), the vector at f. -/
theorem vec_as_row_apply {n : Nat} (v : (⟨1, ![n]⟩ : Shape).Idx → α) (hc : (⟨1, ![n]⟩ : Shape).ShapeCasts ⟨2, ![1, n]⟩) (f : Fin n) :
    shapeCast ⟨2, ![1, n]⟩ v hc (ix2 (0 : Fin 1) f) = v (ix1 f) :=
  shapeCast_a_1a_apply v hc 0 f

/-- A vector [n] cast to a column [n, 1]: at (p, 0), the vector at p (row-major position p * 1 + 0). -/
theorem vec_as_col_apply {n : Nat} (v : (⟨1, ![n]⟩ : Shape).Idx → α) (hc : (⟨1, ![n]⟩ : Shape).ShapeCasts ⟨2, ![n, 1]⟩) (p : Fin n) :
    shapeCast ⟨2, ![n, 1]⟩ v hc (ix2 p (0 : Fin 1)) = v (ix1 p) :=
  shapeCast_apply v hc _ _ (by
    rw [Shape.rowMajor_val_one, Shape.rowMajor_val_two]
    show p.val = p.val * 1 + 0
    omega)

/-- A vector [n] broadcast along a new trailing unit axis to a column [n, 1]: at (p, 0), the vector at p. -/
theorem bcast_vec_col_apply {n : Nat} (v : (⟨1, ![n]⟩ : Shape).Idx → α) (h : (⟨1, ![n]⟩ : Shape).BroadcastsInDim ⟨2, ![n, 1]⟩ ![0]) (p : Fin n) :
    broadcastInDim ⟨2, ![n, 1]⟩ ![0] h v (ix2 p (0 : Fin 1)) = v (ix1 p) := by
  refine broadcastInDim_apply _ h v _ (ix1 p) fun ax => ?_
  match ax with
  | ⟨0, _⟩ => exact coord_eq_rule p

/-- A column [n, 1] broadcast across the columns of [n, k]: at (p, q), the column at (p, 0). -/
theorem bcast_col_apply {n k : Nat} (x : (⟨2, ![n, 1]⟩ : Shape).Idx → α) (h : (⟨2, ![n, 1]⟩ : Shape).BroadcastsInDim ⟨2, ![n, k]⟩ ![0, 1]) (p : Fin n) (q : Fin k) :
    broadcastInDim ⟨2, ![n, k]⟩ ![0, 1] h x (ix2 p q) = x (ix2 p (0 : Fin 1)) := by
  refine broadcastInDim_apply _ h x _ (ix2 p (0 : Fin 1)) fun ax => ?_
  match ax with
  | ⟨0, _⟩ => exact coord_eq_rule p
  | ⟨1, _⟩ => rfl

/-- A vector [n] broadcast along a new leading unit axis to a row [1, n]: at (0, f), the vector at f. -/
theorem bcast_vec_row_apply {n : Nat} (v : (⟨1, ![n]⟩ : Shape).Idx → α) (h : (⟨1, ![n]⟩ : Shape).BroadcastsInDim ⟨2, ![1, n]⟩ ![1]) (f : Fin n) :
    broadcastInDim ⟨2, ![1, n]⟩ ![1] h v (ix2 (0 : Fin 1) f) = v (ix1 f) := by
  refine broadcastInDim_apply _ h v _ (ix1 f) fun ax => ?_
  match ax with
  | ⟨0, _⟩ => exact coord_eq_rule f

/-- A row [1, n] broadcast down the rows of [a, n]: at (p, f), the row at (0, f). -/
theorem bcast_row_apply {a n : Nat} (x : (⟨2, ![1, n]⟩ : Shape).Idx → α) (h : (⟨2, ![1, n]⟩ : Shape).BroadcastsInDim ⟨2, ![a, n]⟩ ![0, 1]) (p : Fin a) (f : Fin n) :
    broadcastInDim ⟨2, ![a, n]⟩ ![0, 1] h x (ix2 p f) = x (ix2 (0 : Fin 1) f) := by
  refine broadcastInDim_apply _ h x _ (ix2 (0 : Fin 1) f) fun ax => ?_
  match ax with
  | ⟨0, _⟩ => rfl
  | ⟨1, _⟩ => exact coord_eq_rule f

/-- A scalar broadcast to any shape: at every index, the scalar. -/
theorem bcast_scalar_apply {t : Shape} (x : (⟨0, ![]⟩ : Shape).Idx → α) (h : (⟨0, ![]⟩ : Shape).BroadcastsInDim t ![]) (i : t.Idx) :
    broadcastInDim t ![] h x i = x ix0 :=
  broadcastInDim_apply ![] h x i ix0 fun ax => ax.elim0

/-- A column [a, 1] cast to its own shape and broadcast across the columns of [a, b]: at (p, q), the column at (p, 0). -/
theorem col_self_broadcast_apply {a b : Nat} (v : (⟨2, ![a, 1]⟩ : Shape).Idx → α) (h₁ : (⟨2, ![a, 1]⟩ : Shape).ShapeCasts ⟨2, ![a, 1]⟩)
    (h₂ : (⟨2, ![a, 1]⟩ : Shape).Broadcasts ⟨2, ![a, b]⟩) (p : Fin a) (q : Fin b) :
    broadcastTo ⟨2, ![a, b]⟩ (shapeCast ⟨2, ![a, 1]⟩ v h₁) h₂ (ix2 p q) = v (ix2 p (0 : Fin 1)) :=
  (broadcastTo_apply _ h₂ (ix2 p q) (ix2 p (0 : Fin 1)) fun ax => match ax with
    | ⟨0, _⟩ => coord_eq_rule p
    | ⟨1, _⟩ => rfl).trans (congrFun (shapeCast_self v h₁) _)

/-- A shape cast to the same shape is the identity. -/
theorem self_cast_apply {s : Shape} (v : s.Idx → α) (h : s.ShapeCasts s) : shapeCast s v h = v :=
  shapeCast_self v h

end Cert.LibSlices

end
-- ==== Proof.LibRowOps.lean ====
/-
  Rows of a table selected by a column of index words, read at an index, for any extents.

  Three host operations at the dimension numbers of "rows indexed by an [E, 1] column of words":
  the row gather (result row e is the operand's row at the word of e, read signed and held in [0, N − 1]),
  and at the ideal values the accumulating scatter into the rows of a table [N, C] and into a vector [N]
  (element n gains the sum of the updates of the e whose word, read signed and not clamped, is n; a word
  outside [0, N) contributes nothing).
-/
import Idealize.ShloMosaic.PureOps.Ideal
import Idealize.ShloMosaic.PureOps.Ideal.Laws
import Idealize.ShloMosaic.Lib.ValueIdx

noncomputable section

open scoped BigOperators

namespace Cert.RowOps

open Idealize.ShloMosaic Idealize.ShloMosaic.ValueIdx

/-! ## The row gather -/

/-- The dimension numbers of a row gather: operand [N, C], start indices [E, 1], result [E, C]; the row axis is
    collapsed and is the one the start index names, the column axis is the offset axis, a slice is one whole row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {N E C w : Nat}
  (wf : GatherDims.WF ⟨2, ![N, C]⟩ ⟨2, ![E, 1]⟩ ⟨2, ![E, C]⟩ [1] [0] [] [0] [] 1 ![1, C])

/-- On the row axis the operand coordinate is the clamped word: the axis is collapsed (no offset), not a batching
    axis, and the one the start index names. -/
theorem gather_rows_coord0 (idx : IVec ⟨2, ![E, 1]⟩ w) (e : Fin E) (f : Fin C) :
    ((rowGatherDims N E C wf).operandIdx (ix2 e f) idx (0 : Fin 2)).val
      = min (idx (ix2 e (0 : Fin 1))).toInt.toNat (N - 1) := by
  show (rowGatherDims N E C wf).start (ix2 e f) idx (0 : Fin 2) + (rowGatherDims N E C wf).batchCoord (ix2 e f) (0 : Fin 2)
    + (rowGatherDims N E C wf).offCoord (ix2 e f) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e f) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand coordinate is the result's column: the start index does not name the axis
    (start 0), and it is the one kept axis, read by the one offset axis. -/
theorem gather_rows_coord1 (idx : IVec ⟨2, ![E, 1]⟩ w) (e : Fin E) (f : Fin C) :
    ((rowGatherDims N E C wf).operandIdx (ix2 e f) idx (1 : Fin 2)).val = f.val := by
  show (rowGatherDims N E C wf).start (ix2 e f) idx (1 : Fin 2) + (rowGatherDims N E C wf).batchCoord (ix2 e f) (1 : Fin 2)
    + (rowGatherDims N E C wf).offCoord (ix2 e f) (1 : Fin 2) = _
  have h10 : ¬ (1 : Fin 2) = 0 := by decide
  have hs : (rowGatherDims N E C wf).start (ix2 e f) idx (1 : Fin 2) = 0 := by
    unfold GatherDims.start
    rw [dif_neg (fun h => h10 (List.mem_singleton.mp h))]
  have hk : (1 : Fin 2) ∈ (rowGatherDims N E C wf).sKept :=
    (GatherDims.mem_sKept _ _).mpr ⟨fun h => h10 (List.mem_singleton.mp h), List.not_mem_nil⟩
  have ho : (rowGatherDims N E C wf).offCoord (ix2 e f) (1 : Fin 2) = f.val := by
    unfold GatherDims.offCoord
    rw [dif_pos hk]
    rfl
  rw [GatherDims.batchCoord_eq_zero _ _ _ List.not_mem_nil, hs, ho]
  omega

end Gather

/-- The row gather at (e, f): the operand at column f of the row named by the word at (e, 0), read signed and
    clamped into [0, N − 1]. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ => exact gather_rows_coord0 wf idx e f
  | ⟨1, _⟩ => exact gather_rows_coord1 wf idx e f

/-! ## The accumulating scatter into the rows of a table -/

/-- The dimension numbers of a scatter into rows: operand [N, C], scatter indices [E, 1], updates [E, C]; the
    updates' column axis is the window axis and goes to the operand's column axis, the operand's row axis is inserted
    and is the one the scatter index names. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-- On the row axis the start of update (e, g) is the word at (e, 0), read signed. -/
theorem row_start0 (idx : IVec ⟨2, ![E, 1]⟩ w) (e : Fin E) (g : Fin C) :
    (rowScatterDims N E C wf).start (ix2 e g) idx (0 : Fin 2) = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e g) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the start is 0: the scatter index does not name it. -/
theorem row_start1 (idx : IVec ⟨2, ![E, 1]⟩ w) (e : Fin E) (g : Fin C) :
    (rowScatterDims N E C wf).start (ix2 e g) idx (1 : Fin 2) = 0 := by
  have h10 : ¬ (1 : Fin 2) = 0 := by decide
  unfold ScatterDims.start
  rw [dif_neg (fun h => h10 (List.mem_singleton.mp h))]

/-- On the row axis there is no window coordinate: the axis is inserted. -/
theorem row_window0 (e : Fin E) (g : Fin C) : (rowScatterDims N E C wf).window (ix2 e g) (0 : Fin 2) = 0 := by
  unfold ScatterDims.window
  rw [dif_neg]
  intro h
  have := (List.mem_filter.mp h).2
  simp at this

/-- On the column axis the window coordinate is the update's column. -/
theorem row_window1 (e : Fin E) (g : Fin C) : (rowScatterDims N E C wf).window (ix2 e g) (1 : Fin 2) = g.val := by
  have hk : (1 : Fin 2) ∈ (rowScatterDims N E C wf).sKept := by
    refine List.mem_filter.mpr ⟨List.mem_finRange _, ?_⟩
    simp
  unfold ScatterDims.window
  rw [dif_pos hk]
  rfl

/-- Update (e, g) lands at element (n, f) exactly when its word, read signed, is n and its column is f. -/
theorem row_resultIdx_iff (idx : IVec ⟨2, ![E, 1]⟩ w) (e : Fin E) (g : Fin C) (n : Fin N) (f : Fin C) :
    (rowScatterDims N E C wf).resultIdx? (ix2 e g) idx = some (ix2 n f)
      ↔ (idx (ix2 e (0 : Fin 1))).toInt = (n.val : ℤ) ∧ g.val = f.val := by
  have hsw0 : (rowScatterDims N E C wf).start (ix2 e g) idx (0 : Fin 2) + ((rowScatterDims N E C wf).window (ix2 e g) (0 : Fin 2) : ℤ)
      = (idx (ix2 e (0 : Fin 1))).toInt := by
    rw [row_start0, row_window0]; simp
  have hsw1 : (rowScatterDims N E C wf).start (ix2 e g) idx (1 : Fin 2) + ((rowScatterDims N E C wf).window (ix2 e g) (1 : Fin 2) : ℤ)
      = (g.val : ℤ) := by
    rw [row_start1, row_window1]; simp
  unfold ScatterDims.resultIdx?
  split
  · rename_i h
    rw [Option.some.injEq]
    constructor
    · intro hv
      have h0 := congrArg (fun i => ((i (0 : Fin 2) : Fin N) : ℕ)) hv
      have h1 := congrArg (fun i => ((i (1 : Fin 2) : Fin C) : ℕ)) hv
      simp only [] at h0 h1
      have hp := (h 0).1
      rw [hsw0] at hp
      have h0' : ((idx (ix2 e (0 : Fin 1))).toInt).toNat = n.val := by
        rw [← hsw0]; exact h0
      have h1' : ((g.val : ℤ)).toNat = f.val := by
        rw [← hsw1]; exact h1
      constructor
      · omega
      · simpa using h1'
    · rintro ⟨hv, hg⟩
      funext a
      refine Fin.ext ?_
      match a with
      | ⟨0, _⟩ =>
        show ((rowScatterDims N E C wf).start (ix2 e g) idx (0 : Fin 2) + ((rowScatterDims N E C wf).window (ix2 e g) (0 : Fin 2) : ℤ)).toNat = n.val
        rw [hsw0, hv]; simp
      | ⟨1, _⟩ =>
        show ((rowScatterDims N E C wf).start (ix2 e g) idx (1 : Fin 2) + ((rowScatterDims N E C wf).window (ix2 e g) (1 : Fin 2) : ℤ)).toNat = f.val
        rw [hsw1, ← hg]; simp
  · rename_i h
    constructor
    · intro hv; exact absurd hv (by simp)
    · rintro ⟨hv, _⟩
      exfalso; apply h
      intro a
      match a with
      | ⟨0, _⟩ =>
        show 0 ≤ (rowScatterDims N E C wf).start (ix2 e g) idx (0 : Fin 2) + ((rowScatterDims N E C wf).window (ix2 e g) (0 : Fin 2) : ℤ)
          ∧ (rowScatterDims N E C wf).start (ix2 e g) idx (0 : Fin 2) + ((rowScatterDims N E C wf).window (ix2 e g) (0 : Fin 2) : ℤ) < (N : ℤ)
        rw [hsw0, hv]
        have := n.isLt
        omega
      | ⟨1, _⟩ =>
        show 0 ≤ (rowScatterDims N E C wf).start (ix2 e g) idx (1 : Fin 2) + ((rowScatterDims N E C wf).window (ix2 e g) (1 : Fin 2) : ℤ)
          ∧ (rowScatterDims N E C wf).start (ix2 e g) idx (1 : Fin 2) + ((rowScatterDims N E C wf).window (ix2 e g) (1 : Fin 2) : ℤ) < (C : ℤ)
        rw [hsw1]
        have := g.isLt
        omega

end RowScatter

/-- The accumulating scatter into rows at (n, f): the operand there plus the updates (e, f) of the e whose word,
    read signed, is n. -/
theorem scatterAdd_rows_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (n : Fin N) (f : Fin C) :
    Host.scatterAdd (F := Ideal) (rowScatterDims N E C wf) x idx upd (ix2 n f)
      = x (ix2 n f) + ∑ e ∈ Finset.univ.filter (fun e : Fin E => (idx (ix2 e (0 : Fin 1))).toInt = (n.val : ℤ)),
          upd (ix2 e f) := by
  show x (ix2 n f) + ∑ j ∈ Finset.univ.filter (fun j => (rowScatterDims N E C wf).resultIdx? j idx = some (ix2 n f)), upd j = _
  congr 1
  -- an update that lands in column f has column f: re-index by the row coordinate
  have key : ∀ j : (⟨2, ![E, C]⟩ : Shape).Idx, (rowScatterDims N E C wf).resultIdx? j idx = some (ix2 n f)
      ↔ (idx (ix2 (⟨(j 0).val, idx2_lt0 j⟩ : Fin E) (0 : Fin 1))).toInt = (n.val : ℤ) ∧ (j 1).val = f.val := by
    intro j
    have := row_resultIdx_iff wf idx (⟨(j 0).val, idx2_lt0 j⟩ : Fin E) (⟨(j 1).val, idx2_lt1 j⟩ : Fin C) n f
    rw [eq_ix2 j]
    exact this
  refine Finset.sum_nbij' (fun j => (⟨(j 0).val, idx2_lt0 j⟩ : Fin E)) (fun e => ix2 e f) ?_ ?_ ?_ ?_ ?_
  · intro j hj
    rw [Finset.mem_filter] at hj ⊢
    exact ⟨Finset.mem_univ _, ((key j).mp hj.2).1⟩
  · intro e he
    rw [Finset.mem_filter] at he ⊢
    exact ⟨Finset.mem_univ _, (row_resultIdx_iff wf idx e f n f).mpr ⟨he.2, rfl⟩⟩
  · intro j hj
    rw [Finset.mem_filter] at hj
    have hc := ((key j).mp hj.2).2
    funext a
    refine Fin.ext ?_
    match a with
    | ⟨0, _⟩ => rfl
    | ⟨1, _⟩ => exact hc.symm
  · intro e _
    rfl
  · intro j hj
    rw [Finset.mem_filter] at hj
    have hc := ((key j).mp hj.2).2
    refine congrArg upd ?_
    funext a
    refine Fin.ext ?_
    match a with
    | ⟨0, _⟩ => rfl
    | ⟨1, _⟩ => exact hc

/-! ## The accumulating scatter into a vector -/

/-- The dimension numbers of a scatter into a vector: operand [N], scatter indices [E, 1], updates [E]; no window
    axis, the operand's one axis is inserted and is the one the scatter index names. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)

/-- The start of update e on the operand's axis is the word at (e, 0), read signed. -/
theorem vec_start (idx : IVec ⟨2, ![E, 1]⟩ w) (e : Fin E) :
    (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window: the operand's one axis is inserted. -/
theorem vec_window (e : Fin E) : (vecScatterDims N E wf).window (ix1 e) (0 : Fin 1) = 0 := by
  unfold ScatterDims.window
  rw [dif_neg]
  intro h
  have := (List.mem_filter.mp h).2
  simp at this

/-- Update e lands at element n exactly when its word, read signed, is n. -/
theorem vec_resultIdx_iff (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hsw : ∀ a : Fin 1, (vecScatterDims N E wf).start (ix1 e) idx a + ((vecScatterDims N E wf).window (ix1 e) a : ℤ)
      = (idx (ix2 e (0 : Fin 1))).toInt := by
    intro a
    obtain rfl : a = 0 := Subsingleton.elim _ _
    rw [vec_start, vec_window]; simp
  unfold ScatterDims.resultIdx?
  split
  · rename_i h
    rw [Option.some.injEq]
    constructor
    · intro hv
      have h0 := congrArg (fun i => ((i (0 : Fin 1) : Fin N) : ℕ)) hv
      simp only [] at h0
      have := (h 0).1
      rw [hsw] at this
      have h1 : ((idx (ix2 e (0 : Fin 1))).toInt).toNat = n.val := by
        rw [← hsw 0]; exact h0
      omega
    · intro hv
      funext a
      obtain rfl : a = 0 := Subsingleton.elim _ _
      refine Fin.ext ?_
      show ((vecScatterDims N E wf).start (ix1 e) idx 0 + ((vecScatterDims N E wf).window (ix1 e) 0 : ℤ)).toNat = n.val
      rw [hsw, hv]; simp
  · rename_i h
    constructor
    · intro hv; exact absurd hv (by simp)
    · intro hv
      exfalso; apply h
      intro a
      rw [hsw, hv]
      obtain rfl : a = 0 := Subsingleton.elim _ _
      have := n.isLt
      constructor
      · omega
      · show (n.val : ℤ) < (N : ℤ)
        omega

end VecScatter

/-- The accumulating scatter into a vector at n: the operand there plus the updates of the e whose word, read
    signed, is n. -/
theorem scatterAdd_vec_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatterDims N E wf) x idx upd (ix1 n)
      = x (ix1 n) + ∑ e ∈ Finset.univ.filter (fun e : Fin E => (idx (ix2 e (0 : Fin 1))).toInt = (n.val : ℤ)),
          upd (ix1 e) := by
  show x (ix1 n) + ∑ j ∈ Finset.univ.filter (fun j => (vecScatterDims N E wf).resultIdx? j idx = some (ix1 n)), upd j = _
  congr 1
  -- re-index the updates by their one coordinate
  refine Finset.sum_nbij' (fun j => (⟨(j 0).val, (j 0).isLt⟩ : Fin E)) (fun e => ix1 e) ?_ ?_ ?_ ?_ ?_
  · intro j hj
    rw [Finset.mem_filter] at hj ⊢
    refine ⟨Finset.mem_univ _, ?_⟩
    have := hj.2
    rw [eq_ix1 j] at this
    exact (vec_resultIdx_iff wf idx _ n).mp this
  · intro e he
    rw [Finset.mem_filter] at he ⊢
    exact ⟨Finset.mem_univ _, (vec_resultIdx_iff wf idx e n).mpr he.2⟩
  · intro j _
    exact (eq_ix1 j).symm
  · intro e _
    rfl
  · intro j _
    exact congrArg upd (eq_ix1 j)

end Cert.RowOps

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KernelRead.lean ====
/-
  The program's dataflow term read index by index.

  The edge list's two sliced rows are the source and target words of the edges; the index chain "a negative word
  moved up by the node count", laid out as a column, is the wrapped source word at each edge; the row gather reads
  the row that word names, held inside the node range; the accumulating scatter onto the target words, from the
  zero array, is at node n the sum over the edges ending at n; the same scatter of the weights is each node's summed
  weight; and layer l's slices of the stacked parameters are the l-th matrices and rows. With these, one layer of
  the term is the layer with the subtraction taken out of the edge sum, and the whole term is the two-layer network.
-/
import proofs.«131890_j77223511982150_1_alg».proof.Proof.KernelTerm
import proofs.«131890_j77223511982150_1_alg».proof.Proof.Spec
import proofs.«131890_j77223511982150_1_alg».proof.Proof.LibSlices
import proofs.«131890_j77223511982150_1_alg».proof.Proof.LibRowOps
import proofs.«131890_j77223511982150_1_alg».proof.Proof.LibKeepdims
import Idealize.ShloMosaic.Lib.ValueIdx
import Idealize.ShloMosaic.PureOps.Ideal.Laws

noncomputable section

open scoped BigOperators

namespace Cert.KernelIdeal.Val

open Cert.KernelIdeal Cert.KernelIdeal.Gen Cert.LeGnn
open Idealize.ShloMosaic Idealize.ShloMosaic.TcCoe Idealize.ShloMosaic.ValueIdx Idealize.SL.Sem
open Cert.LibSlices

variable (m : (ℓ : Loc nD τ sig) → Buf (Elt Ideal) ℓ) (c : Dev nD)

/-! ## The sliced parameters -/

/-- Layer l's slice of a stacked [2, 64, 64] array, read by coordinates, is its l-th matrix. -/
theorem mat_slice_read (W : FVec Ideal S2x64x64 .f32) (l : Nat) (hl : l < 2) (hs : S2x64x64.Slices ![l, 0, 0] S1x64x64) :
    toFn2 (shapeCast S64x64 (extractStridedSlice S1x64x64 ![l, 0, 0] W hs) shapeCasts_S1x64x64_S64x64) = matOf W ⟨l, hl⟩ :=
  funext fun q => funext fun f => slice_mat_apply W l hl hs shapeCasts_S1x64x64_S64x64 q f

/-- Layer l's slice of a stacked [2, 64] array, laid out as a 1×64 row, read along the row is its l-th row. -/
theorem row_slice_read (b : FVec Ideal S2x64 .f32) (l : Nat) (hl : l < 2) (hs : S2x64.Slices ![l, 0] S1x64) :
    (fun f : Fin 64 => shapeCast S1x64 (shapeCast S64 (extractStridedSlice S1x64 ![l, 0] b hs) shapeCasts_S1x64_S64) shapeCasts_S64_S1x64
      (ix2 (0 : Fin 1) f)) = rowOfArr b ⟨l, hl⟩ :=
  funext fun f => (vec_as_row_apply _ shapeCasts_S64_S1x64 f).trans (slice_row_apply b l hl hs shapeCasts_S1x64_S64 f)

theorem W1s0_read : toFn2 (W1s0 m c) = matOf (aW1 m c) 0 := mat_slice_read (aW1 m c) 0 (by decide) _
theorem W1s1_read : toFn2 (W1s1 m c) = matOf (aW1 m c) 1 := mat_slice_read (aW1 m c) 1 (by decide) _
theorem W2s0_read : toFn2 (W2s0 m c) = matOf (aW2 m c) 0 := mat_slice_read (aW2 m c) 0 (by decide) _
theorem W2s1_read : toFn2 (W2s1 m c) = matOf (aW2 m c) 1 := mat_slice_read (aW2 m c) 1 (by decide) _
theorem W3s0_read : toFn2 (W3s0 m c) = matOf (aW3 m c) 0 := mat_slice_read (aW3 m c) 0 (by decide) _
theorem W3s1_read : toFn2 (W3s1 m c) = matOf (aW3 m c) 1 := mat_slice_read (aW3 m c) 1 (by decide) _
theorem b1row0_read : (fun f : Fin 64 => b1row0 m c (ix2 (0 : Fin 1) f)) = rowOfArr (aB1 m c) 0 := row_slice_read (aB1 m c) 0 (by decide) _
theorem b1row1_read : (fun f : Fin 64 => b1row1 m c (ix2 (0 : Fin 1) f)) = rowOfArr (aB1 m c) 1 := row_slice_read (aB1 m c) 1 (by decide) _
theorem b3row0_read : (fun f : Fin 64 => b3row0 m c (ix2 (0 : Fin 1) f)) = rowOfArr (aB3 m c) 0 := row_slice_read (aB3 m c) 0 (by decide) _
theorem b3row1_read : (fun f : Fin 64 => b3row1 m c (ix2 (0 : Fin 1) f)) = rowOfArr (aB3 m c) 1 := row_slice_read (aB3 m c) 1 (by decide) _

/-- The embedding's bias row read along the row is the bias vector. -/
theorem bembRow_read : (fun f : Fin 64 => bembRow m c (ix2 (0 : Fin 1) f)) = vecOf (aBemb m c) :=
  funext fun f => vec_as_row_apply (aBemb m c) shapeCasts_S64_S1x64 f

/-- The embedded features by coordinates. -/
theorem h0_read : toFn2 (h0 m c) = lin (toFn2 (aX m c)) (toFn2 (aWemb m c)) (vecOf (aBemb m c)) := by
  unfold h0
  rw [toFn2_ofFn2, bembRow_read]

/-! ## The edge list -/

/-- Row 0 of the edge list, at edge e, is the edge's source word. -/
theorem srcV_apply (e : Fin 1600000) : srcV m c (ix1 e) = srcOf (aEI m c) e :=
  slice_row_apply (aEI m c) 0 (by decide) slices_S2x1600000_S1x1600000_0_0 shapeCasts_S1x1600000_S1600000 e

/-- Row 1 of the edge list, at edge e, is the edge's target word. -/
theorem dstV_apply (e : Fin 1600000) : dstV m c (ix1 e) = dstOf (aEI m c) e :=
  slice_row_apply (aEI m c) 1 (by decide) slices_S2x1600000_S1x1600000_1_0 shapeCasts_S1x1600000_S1600000 e

/-- The column of scatter indices at (e, 0) is edge e's target word. -/
theorem dstIdx_apply (e : Fin 1600000) : dstIdx m c (ix2 e (0 : Fin 1)) = dstOf (aEI m c) e :=
  (bcast_vec_col_apply (dstV m c) bcast_S1600000_S1600000x1_0 e).trans (dstV_apply m c e)

/-- The column of gather indices at (e, 0) is edge e's source word, a negative one moved up by the node count. -/
theorem srcIdx_apply (e : Fin 1600000) : srcIdx m c (ix2 e (0 : Fin 1)) = wrapIx (srcOf (aEI m c) e) := by
  unfold srcIdx
  rw [bcast_vec_col_apply, select_apply]
  show Scalar.select (IntOp.cmpi .slt (srcV m c (ix1 e)) (broadcastInDim S1600000 ![] bcast_S_S1600000 (constantI S_ 32 0#32) (ix1 e)))
      (IntOp.addi (srcV m c (ix1 e)) (broadcastInDim S1600000 ![] bcast_S_S1600000 (constantI S_ 32 100000#32) (ix1 e))) (srcV m c (ix1 e))
    = wrapIx (srcOf (aEI m c) e)
  rw [bcast_scalar_apply, bcast_scalar_apply, srcV_apply]
  rfl

/-- The edge weights across the features, at (e, f), are edge e's weight. -/
theorem wB_apply (e : Fin 1600000) (f : Fin 64) : wB m c (ix2 e f) = wOf (aW m c) e :=
  (bcast_col_apply _ bcast_S1600000x1_S1600000x64_0_1 e f).trans (bcast_vec_col_apply (aW m c) bcast_S1600000_S1600000x1_0 e)

/-- The edges a scatter onto the column of target words lands at node n are the edges ending at n. -/
theorem filter_dstIdx (n : Fin 100000) :
    Finset.univ.filter (fun e : Fin 1600000 => (dstIdx m c (ix2 e (0 : Fin 1))).toInt = (n.val : ℤ)) = inEdges (dstOf (aEI m c)) n :=
  Finset.filter_congr fun e _ => by rw [dstIdx_apply]

/-! ## The aggregate and the summed weights -/

/-- The aggregate of a at (n, f): over the edges ending at n, the wrapped and clamped source row of a at f times
    the edge's weight. -/
theorem aggOf_apply (a : FVec Ideal S100000x64 .f32) (n : Fin 100000) (f : Fin 64) :
    aggOf m c a (ix2 n f)
      = ∑ e ∈ inEdges (dstOf (aEI m c)) n, a (ix2 (rowOf (wrapIx (srcOf (aEI m c) e))) f) * wOf (aW m c) e := by
  unfold aggOf
  have hS : scatter_S100000x64_S1600000x1_S1600000x64_1_0_0_1
      = Cert.RowOps.rowScatterDims 100000 1600000 64 scatter_S100000x64_S1600000x1_S1600000x64_1_0_0_1_wf := rfl
  have hG : gather_S100000x64_S1600000x1_S1600000x64_1_0_n_n_0_1_164
      = Cert.RowOps.rowGatherDims 100000 1600000 64 gather_S100000x64_S1600000x1_S1600000x64_1_0_n_n_0_1_164_wf := rfl
  rw [hS, Cert.RowOps.scatterAdd_rows_apply, bcast_scalar_apply, constant_apply, Ideal.ofBits_zero_f32, zero_add, filter_dstIdx]
  refine Finset.sum_congr rfl fun e _ => ?_
  rw [mulf_apply, wB_apply, hG, Cert.RowOps.gather_rows_apply (by decide)]
  -- the gathered row: the clamp of the wrapped source word
  have hrow : (⟨min (srcIdx m c (ix2 e (0 : Fin 1))).toInt.toNat (100000 - 1), by omega⟩ : Fin 100000)
      = rowOf (wrapIx (srcOf (aEI m c) e)) :=
    Fin.ext (congrArg (fun x : BitVec 32 => min x.toInt.toNat (100000 - 1)) (srcIdx_apply m c e))
  exact congrArg (fun r : Fin 100000 => a (ix2 r f) * wOf (aW m c) e) hrow

/-- Every node's summed weight at (n, 0): the sum of the weights of the edges ending at n. -/
theorem indegCol_apply (n : Fin 100000) :
    indegCol m c (ix2 n (0 : Fin 1)) = ∑ e ∈ inEdges (dstOf (aEI m c)) n, wOf (aW m c) e := by
  unfold indegCol
  have hS : scatter_S100000_S1600000x1_S1600000_n_0_0_1
      = Cert.RowOps.vecScatterDims 100000 1600000 scatter_S100000_S1600000x1_S1600000_n_0_0_1_wf := rfl
  rw [vec_as_col_apply, hS, Cert.RowOps.scatterAdd_vec_apply, bcast_scalar_apply, constant_apply, Ideal.ofBits_zero_f32, zero_add,
    filter_dstIdx]
  rfl

/-! ## One layer, and the network -/

/-- One layer of the term over features h with parameters given as arrays is the layer with the subtraction taken
    out of the edge sum, over the same data read by coordinates. -/
theorem layerT_eq (h : FVec Ideal S100000x64 .f32) (W1 : FVec Ideal S64x64 .f32) (b1row : FVec Ideal S1x64 .f32)
    (W2 W3 : FVec Ideal S64x64 .f32) (b3row : FVec Ideal S1x64 .f32) :
    layerT m c h W1 b1row W2 W3 b3row
      = ofFn2 (layerK (srcOf (aEI m c)) (dstOf (aEI m c)) (wOf (aW m c)) (toFn2 W1) (fun f => b1row (ix2 (0 : Fin 1) f))
          (toFn2 W2) (toFn2 W3) (fun f => b3row (ix2 (0 : Fin 1) f)) (toFn2 h)) := by
  unfold layerT
  refine congrArg ofFn2 (funext fun n => funext fun f => ?_)
  unfold combineF layerK
  rw [aggOf_apply, indegCol_apply]
  rfl

/-- The program's term is the two-layer network with the subtraction taken out of the edge sums, of the argument
    arrays. -/
theorem kTerm_eq (m : (ℓ : Loc nD τ sig) → Buf (Elt Ideal) ℓ) (c : Dev nD) :
    kTerm m c = ofFn2 (netK (aX m c) (aEI m c) (aW m c) (aWemb m c) (aBemb m c) (aW1 m c) (aB1 m c) (aW2 m c) (aW3 m c) (aB3 m c)) := by
  unfold kTerm netK
  rw [layerT_eq, layerT_eq, toFn2_ofFn2, h0_read, W1s0_read, W1s1_read, W2s0_read, W2s1_read, W3s0_read, W3s1_read,
    b1row0_read, b1row1_read, b3row0_read, b3row1_read]

end Cert.KernelIdeal.Val

end
-- ==== Proof.RegionMatmul.lean ====
/-
  The two matrix products of the network's dense layers, read at an entry.

  A [10000, K] block of rows times a [K, 64] matrix, accumulated from zero, holds at (p, q) the sum over the K
  inner coordinates k of the row's entry (p, k) times the matrix's entry (k, q); K is 128 for the embedding of the
  inputs and 64 for the layers' linear images. On the extended reals the product is that plain sum: no rounding and
  no order of accumulation is left in it.
-/
import proofs.«131890_j77223511982150_1_alg».proof.Proof.Gen.KernelIdeal
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-- Axis 0 of the left operand's index is the output's row. -/
theorem lhs128_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- Axis 1 of the left operand's index is the contracted coordinate. -/
theorem lhs128_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- Axis 0 of the right operand's index is the contracted coordinate. -/
theorem rhs128_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- Axis 1 of the right operand's index is the output's column. -/
theorem rhs128_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Rows of 128 inputs against the 128×64 embedding matrix: entry (p, q) is the sum over the 128 inputs. -/
theorem matmul128_apply (x : FVec Ideal S10000x128 .f32) (w : FVec Ideal S128x64 .f32) (p : Fin 10000) (q : Fin 64) :
    matmul (F := Ideal) dot_S10000x128_S128x64_S10000x64_1_0_0_1_n_n none x w (constant (F := Ideal) S10000x64 .f32 0x00000000#32) (ix2 p q)
      = ∑ k : Fin 128, x (ix2 p k) * w (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs128_0 _ _
    | ⟨1, _⟩ => exact (lhs128_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- Axis 0 of the left operand's index is the output's row. -/
theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Axis 1 of the left operand's index is the contracted coordinate. -/
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Axis 0 of the right operand's index is the contracted coordinate. -/
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Axis 1 of the right operand's index is the output's column. -/
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Rows of 64 features against a 64×64 layer matrix: entry (p, q) is the sum over the 64 features. -/
theorem matmul64_apply (x : FVec Ideal S10000x64 .f32) (w : FVec Ideal S64x64 .f32) (p : Fin 10000) (q : Fin 64) :
    matmul (F := Ideal) dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

end Cert.KernelIdeal.Val

end
-- ==== Proof.Region0.lean ====
/-
  The embedding of the node inputs, read off the ten grid points.

  The 100000 nodes are cut into ten blocks of 10000 rows. At point t the kernel holds rows [10000·t, 10000·t + 10000)
  of the inputs x, the whole 128×64 matrix W and the whole bias row b, and writes the same rows of the output: entry
  (p, f) of its block is the sum over the 128 inputs of x[10000·t + p, k] · W[k, f], plus b[f]. Every row of the
  output lies in exactly the block of point (row / 10000), so after the ten points the output array is the affine
  image x·W + b at every index.
-/
import proofs.«131890_j77223511982150_1_alg».proof.Proof.Gen.KernelIdeal.Frame
import proofs.«131890_j77223511982150_1_alg».proof.Proof.Spec
import proofs.«131890_j77223511982150_1_alg».proof.Proof.LibKeepdims
import proofs.«131890_j77223511982150_1_alg».proof.Proof.RegionMatmul
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.LeGnn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, however the zeros are written. -/
theorem origin2 : (![0, 0] : Fin 2 → Nat) = fun _ => 0 := funext fun a => by fin_cases a <;> rfl

/-- The index maps over the ten points: the rows of the inputs and of the output move with the point, the
    matrix and the bias row stay. -/
theorem embed_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block's arithmetic at an entry: the row's 128 inputs against the matrix's column, plus the bias. -/
theorem embed_payload_apply (x0 : Vec Ideal S10000x128 .f32) (x1 : Vec Ideal S128x64 .f32) (x2 : Vec Ideal S1x64 .f32)
    (p : Fin 10000) (q : Fin 64) :
    k0_pay1 (F := Ideal) x0 x1 x2 (ix2 p q) = (∑ k : Fin 128, x0 (ix2 p k) * x1 (ix2 k q)) + x2 (ix2 (0 : Fin 1) q) := by
  unfold k0_pay1
  refine (addf_apply _ _ (ix2 p q)).trans ?_
  refine congrArg₂ (· + ·) (matmul128_apply x0 x1 p q) ?_
  exact Cert.LibKeepdims.row_broadcast_apply x2 shapeCasts_S1x64_S1x64 broadcasts_S1x64_S10000x64 p q

/-- The rows of the inputs a point holds: row p of its block is row 10000·t + p of the array. -/
theorem embed_x_block (c : Dev nD) (x : S100000x128.Idx → EReal) (hx : V c main_arg0 = x) (t : Fin cfg0.N)
    (p : Fin 10000) (k : Fin 128) (n : Fin 100000) (hn : n.val = t.val * 10000 + p.val) :
    (iblk0 V c 0 t : Vec Ideal S10000x128 .f32) (ix2 p k) = x (ix2 n k) := by
  obtain ⟨e0, e1, -⟩ := embed_index_facts t
  unfold iblk0
  rw [View.read_apply]
  show V c main_arg0 _ = _
  rw [hx]
  refine congrArg x (funext fun a => Fin.ext ?_)
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- Every point holds the whole matrix. -/
theorem embed_w_block (c : Dev nD) (W : S128x64.Idx → EReal) (hW : V c main_arg4 = W) (t : Fin cfg0.N)
    (k : Fin 128) (q : Fin 64) :
    (iblk0 V c 1 t : Vec Ideal S128x64 .f32) (ix2 k q) = W (ix2 k q) := by
  obtain ⟨-, -, e0, e1, -⟩ := embed_index_facts t
  unfold iblk0
  rw [View.read_apply]
  show V c main_arg4 _ = _
  rw [hW]
  refine congrArg W (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- Every point holds the whole bias row. -/
theorem embed_b_block (c : Dev nD) (b : S1x64.Idx → EReal) (hb : V c main_v4 = b) (t : Fin cfg0.N) (q : Fin 64) :
    (iblk0 V c 2 t : Vec Ideal S1x64 .f32) (ix2 (0 : Fin 1) q) = b (ix2 (0 : Fin 1) q) := by
  obtain ⟨-, -, -, -, e0, e1, -⟩ := embed_index_facts t
  unfold iblk0
  rw [View.read_apply]
  show V c main_v4 _ = _
  rw [hb]
  refine congrArg b (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 64 + 1 * q.val = q.val; rw [e1]; omega

/-- What point t writes back is rows [10000·t, 10000·t + 10000) of the affine image of the inputs. -/
theorem embed_flushed (c : Dev nD) (x : S100000x128.Idx → EReal) (W : S128x64.Idx → EReal) (b : S1x64.Idx → EReal)
    (hx : V c main_arg0 = x) (hW : V c main_arg4 = W) (hb : V c main_v4 = b) (t : Fin cfg0.N) :
    (dat0 (F := Ideal) V c).flushed 3 t
      = ((cfg0.win 3).blk t).view.read (Elt Ideal) (ofFn2 (lin (toFn2 x) (toFn2 W) (fun f => b (ix2 (0 : Fin 1) f)))) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S128x64) origin2, View.ld_unit_zero (S := S1x64) origin2]
  funext j
  obtain ⟨p, q, rfl⟩ : ∃ (p : Fin 10000) (q : Fin 64), j = ix2 p q := ⟨j 0, j 1, eq_ix2 j⟩
  obtain ⟨-, -, -, -, -, -, e0, e1⟩ := embed_index_facts t
  have hN : cfg0.N = 10 := N_0
  have hlt : t.val * 10000 + p.val < 100000 := by have := t.isLt; have := p.isLt; omega
  have hinj : (win0 3).xinj (grid0.coords t) (ix2 p q) = ix2 p q := funext fun a => Fin.ext rfl
  refine (congrArg (k0_pay1 (F := Ideal) (iblk0 V c 0 t) (iblk0 V c 1 t) (iblk0 V c 2 t)) hinj).trans ?_
  refine (embed_payload_apply (iblk0 V c 0 t) (iblk0 V c 1 t) (iblk0 V c 2 t) p q).trans ?_
  rw [View.read_apply]
  have hidx : ((View.whole main_v5).slice ((win0 3).rect t)).emb (ix2 p q) = ix2 (⟨t.val * 10000 + p.val, hlt⟩ : Fin 100000) q :=
    funext fun a => Fin.ext (by
      match a with
      | ⟨0, _⟩ => show win0_3.index t (0 : Fin 2) * 10000 + 1 * p.val = t.val * 10000 + p.val; rw [e0]; omega
      | ⟨1, _⟩ => show win0_3.index t (1 : Fin 2) * 64 + 1 * q.val = q.val; rw [e1]; omega)
  rw [hidx, ofFn2_ix2]
  exact congrArg₂ (· + ·)
    (Finset.sum_congr rfl fun k _ => congrArg₂ (· * ·) (embed_x_block V c x hx t p k _ rfl) (embed_w_block V c W hW t k q))
    (embed_b_block V c b hb t q)

/-- An index of the output is in point t's block when its row lies in [10000·t, 10000·t + 10000). -/
theorem embed_mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v5).slice (win0_3.rect t)).set ↔ _
  rw [View.set_slice_whole, Rect.mem_set_unit]
  exact Iff.rfl

/-- Row r of the output is written by point r / 10000. -/
theorem embed_cover (i : S100000x64.Idx) :
    ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e0, e1⟩ := embed_index_facts t
  refine ⟨t, flush0_3 t, ?_⟩
  rw [embed_mem_block]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 64 ≤ (i 1).val ∧ (i 1).val < win0_3.index t (1 : Fin 2) * 64 + 64
    rw [e1]; omega

/-- After the ten points the output array holds the affine image of the inputs: row n, feature f is the sum over
    the 128 inputs of x[n, k] · W[k, f], plus the bias b[f]. -/
theorem final0 (c : Dev nD) (x : S100000x128.Idx → EReal) (W : S128x64.Idx → EReal) (b : S1x64.Idx → EReal)
    (hx : V c main_arg0 = x) (hW : V c main_arg4 = W) (hb : V c main_v4 = b) :
    (dat0 (F := Ideal) V c).arrAt 3 cfg0.N = ofFn2 (lin (toFn2 x) (toFn2 W) (fun f => b (ix2 (0 : Fin 1) f))) :=
  (dat0 (F := Ideal) V c).arrAt_eq_of_cover 3 (ofFn2 (lin (toFn2 x) (toFn2 W) (fun f => b (ix2 (0 : Fin 1) f))))
    (fun t _ => embed_flushed V c x W b hx hW hb t) embed_cover

end Cert.KernelIdeal.Val

end
-- ==== Proof.Region1.lean ====
/-
  A layer's two linear images of the node features, read off the ten grid points.

  The 100000 nodes are cut into ten blocks of 10000 rows. At point t the kernel holds rows [10000·t, 10000·t + 10000)
  of the features h, the two whole 64×64 matrices W1 and W2 and the whole bias row b1, and writes the same rows of
  two outputs: entry (p, f) of the first is the sum over the 64 features of h[10000·t + p, k] · W1[k, f], plus b1[f];
  entry (p, f) of the second is the sum of h[10000·t + p, k] · W2[k, f]. Every row of an output lies in exactly the
  block of point (row / 10000), so after the ten points the first output is h·W1 + b1 and the second h·W2 at every
  index.
-/
import proofs.«131890_j77223511982150_1_alg».proof.Proof.Gen.KernelIdeal.Frame
import proofs.«131890_j77223511982150_1_alg».proof.Proof.Spec
import proofs.«131890_j77223511982150_1_alg».proof.Proof.LibKeepdims
import proofs.«131890_j77223511982150_1_alg».proof.Proof.RegionMatmul
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.LeGnn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, however the zeros are written. -/
theorem ab1_origin : (![0, 0] : Fin 2 → Nat) = fun _ => 0 := funext fun a => by fin_cases a <;> rfl

/-- The index maps over the ten points: the rows of the features and of both outputs move with the point, the two
    matrices and the bias row stay. -/
theorem ab1_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The block of features enters both products as it was loaded. -/
theorem ab1_rows_cast (x0 : Vec Ideal S10000x64 .f32) : k1_pay1 (F := Ideal) x0 = x0 := by
  unfold k1_pay1
  exact shapeCast_self x0 shapeCasts_S10000x64_S10000x64

/-- The first output's arithmetic at an entry: the row's 64 features against the first matrix's column, plus the
    bias. -/
theorem ab1_payload_a_apply (x0 : Vec Ideal S10000x64 .f32) (x1 : Vec Ideal S64x64 .f32) (x2 : Vec Ideal S1x64 .f32)
    (p : Fin 10000) (q : Fin 64) :
    k1_pay2 (F := Ideal) x0 x1 x2 (ix2 p q) = (∑ k : Fin 64, x0 (ix2 p k) * x1 (ix2 k q)) + x2 (ix2 (0 : Fin 1) q) := by
  unfold k1_pay2
  rw [ab1_rows_cast, shapeCast_self x1 shapeCasts_S64x64_S64x64]
  refine (addf_apply _ _ (ix2 p q)).trans ?_
  refine congrArg₂ (· + ·) (matmul64_apply x0 x1 p q) ?_
  exact Cert.LibKeepdims.row_broadcast_apply x2 shapeCasts_S1x64_S1x64 broadcasts_S1x64_S10000x64 p q

/-- The second output's arithmetic at an entry: the row's 64 features against the second matrix's column. -/
theorem ab1_payload_b_apply (x0 : Vec Ideal S10000x64 .f32) (x3 : Vec Ideal S64x64 .f32) (p : Fin 10000) (q : Fin 64) :
    k1_pay3 (F := Ideal) x0 x3 (ix2 p q) = ∑ k : Fin 64, x0 (ix2 p k) * x3 (ix2 k q) := by
  unfold k1_pay3
  rw [ab1_rows_cast, shapeCast_self x3 shapeCasts_S64x64_S64x64]
  exact matmul64_apply x0 x3 p q

/-- The rows of the features a point holds: row p of its block is row 10000·t + p of the array. -/
theorem ab1_h_block (c : Dev nD) (h : S100000x64.Idx → EReal) (hh : V c main_v5 = h) (t : Fin cfg1.N)
    (p : Fin 10000) (k : Fin 64) (n : Fin 100000) (hn : n.val = t.val * 10000 + p.val) :
    (iblk1 V c 0 t : Vec Ideal S10000x64 .f32) (ix2 p k) = h (ix2 n k) := by
  obtain ⟨e0, e1, -⟩ := ab1_index_facts t
  unfold iblk1
  rw [View.read_apply]
  show V c main_v5 _ = _
  rw [hh]
  refine congrArg h (funext fun a => Fin.ext ?_)
  match a with
  | ⟨0, _⟩ => show win1_0.index t (0 : Fin 2) * 10000 + 1 * p.val = n.val; rw [e0, hn]; omega
  | ⟨1, _⟩ => show win1_0.index t (1 : Fin 2) * 64 + 1 * k.val = k.val; rw [e1]; omega

/-- Every point holds the whole first matrix. -/
theorem ab1_w1_block (c : Dev nD) (W1 : S64x64.Idx → EReal) (hW1 : V c main_v11 = W1) (t : Fin cfg1.N)
    (k : Fin 64) (q : Fin 64) :
    (iblk1 V c 1 t : Vec Ideal S64x64 .f32) (ix2 k q) = W1 (ix2 k q) := by
  obtain ⟨-, -, e0, e1, -⟩ := ab1_index_facts t
  unfold iblk1
  rw [View.read_apply]
  show V c main_v11 _ = _
  rw [hW1]
  refine congrArg W1 (funext fun a => Fin.ext ?_)
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- Every point holds the whole bias row. -/
theorem ab1_b1_block (c : Dev nD) (b1 : S1x64.Idx → EReal) (hb1 : V c main_v16 = b1) (t : Fin cfg1.N) (q : Fin 64) :
    (iblk1 V c 2 t : Vec Ideal S1x64 .f32) (ix2 (0 : Fin 1) q) = b1 (ix2 (0 : Fin 1) q) := by
  obtain ⟨-, -, -, -, e0, e1, -⟩ := ab1_index_facts t
  unfold iblk1
  rw [View.read_apply]
  show V c main_v16 _ = _
  rw [hb1]
  refine congrArg b1 (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 64 + 1 * q.val = q.val; rw [e1]; omega

/-- Every point holds the whole second matrix. -/
theorem ab1_w2_block (c : Dev nD) (W2 : S64x64.Idx → EReal) (hW2 : V c main_v15 = W2) (t : Fin cfg1.N)
    (k : Fin 64) (q : Fin 64) :
    (iblk1 V c 3 t : Vec Ideal S64x64 .f32) (ix2 k q) = W2 (ix2 k q) := by
  obtain ⟨-, -, -, -, -, -, e0, e1, -⟩ := ab1_index_facts t
  unfold iblk1
  rw [View.read_apply]
  show V c main_v15 _ = _
  rw [hW2]
  refine congrArg W2 (funext fun a => Fin.ext ?_)
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- What point t writes back to the first output is rows [10000·t, 10000·t + 10000) of the affine image. -/
theorem ab1_flushed_a (c : Dev nD) (h : S100000x64.Idx → EReal) (W1 : S64x64.Idx → EReal) (b1 : S1x64.Idx → EReal)
    (hh : V c main_v5 = h) (hW1 : V c main_v11 = W1) (hb1 : V c main_v16 = b1) (t : Fin cfg1.N) :
    (dat1 (F := Ideal) V c).flushed 4 t
      = ((cfg1.win 4).blk t).view.read (Elt Ideal) (ofFn2 (lin (toFn2 h) (toFn2 W1) (fun f => b1 (ix2 (0 : Fin 1) f)))) := by
  show (cfg1.win 4).cut (grid1.coords t) ((dat1 V c).after 4 t) = _
  rw [after1_4]
  unfold out1_4
  rw [View.canon_unit_zero ab1_origin]
  simp only [View.ld_unit_zero (S := S10000x64) ab1_origin, View.ld_unit_zero (S := S64x64) ab1_origin, View.ld_unit_zero (S := S1x64) ab1_origin]
  funext j
  obtain ⟨p, q, rfl⟩ : ∃ (p : Fin 10000) (q : Fin 64), j = ix2 p q := ⟨j 0, j 1, eq_ix2 j⟩
  obtain ⟨-, -, -, -, -, -, -, -, e0, e1, -⟩ := ab1_index_facts t
  have hN : cfg1.N = 10 := N_1
  have hlt : t.val * 10000 + p.val < 100000 := by have := t.isLt; have := p.isLt; omega
  have hinj : (win1 4).xinj (grid1.coords t) (ix2 p q) = ix2 p q := funext fun a => Fin.ext rfl
  refine (congrArg (k1_pay2 (F := Ideal) (iblk1 V c 0 t) (iblk1 V c 1 t) (iblk1 V c 2 t)) hinj).trans ?_
  refine (ab1_payload_a_apply (iblk1 V c 0 t) (iblk1 V c 1 t) (iblk1 V c 2 t) p q).trans ?_
  rw [View.read_apply]
  have hidx : ((View.whole main_v17_0).slice ((win1 4).rect t)).emb (ix2 p q) = ix2 (⟨t.val * 10000 + p.val, hlt⟩ : Fin 100000) q :=
    funext fun a => Fin.ext (by
      match a with
      | ⟨0, _⟩ => show win1_4.index t (0 : Fin 2) * 10000 + 1 * p.val = t.val * 10000 + p.val; rw [e0]; omega
      | ⟨1, _⟩ => show win1_4.index t (1 : Fin 2) * 64 + 1 * q.val = q.val; rw [e1]; omega)
  rw [hidx, ofFn2_ix2]
  exact congrArg₂ (fun u v : EReal => u + v)
    (Finset.sum_congr rfl fun k _ => congrArg₂ (fun u v : EReal => u * v) (ab1_h_block V c h hh t p k _ rfl) (ab1_w1_block V c W1 hW1 t k q))
    (ab1_b1_block V c b1 hb1 t q)

/-- What point t writes back to the second output is rows [10000·t, 10000·t + 10000) of the linear image. -/
theorem ab1_flushed_b (c : Dev nD) (h : S100000x64.Idx → EReal) (W2 : S64x64.Idx → EReal)
    (hh : V c main_v5 = h) (hW2 : V c main_v15 = W2) (t : Fin cfg1.N) :
    (dat1 (F := Ideal) V c).flushed 5 t
      = ((cfg1.win 5).blk t).view.read (Elt Ideal) (ofFn2 (lin0 (toFn2 h) (toFn2 W2))) := by
  show (cfg1.win 5).cut (grid1.coords t) ((dat1 V c).after 5 t) = _
  rw [after1_5]
  unfold out1_5
  rw [View.canon_unit_zero ab1_origin]
  simp only [View.ld_unit_zero (S := S10000x64) ab1_origin, View.ld_unit_zero (S := S64x64) ab1_origin]
  funext j
  obtain ⟨p, q, rfl⟩ : ∃ (p : Fin 10000) (q : Fin 64), j = ix2 p q := ⟨j 0, j 1, eq_ix2 j⟩
  obtain ⟨-, -, -, -, -, -, -, -, -, -, e0, e1⟩ := ab1_index_facts t
  have hN : cfg1.N = 10 := N_1
  have hlt : t.val * 10000 + p.val < 100000 := by have := t.isLt; have := p.isLt; omega
  have hinj : (win1 5).xinj (grid1.coords t) (ix2 p q) = ix2 p q := funext fun a => Fin.ext rfl
  refine (congrArg (k1_pay3 (F := Ideal) (iblk1 V c 0 t) (iblk1 V c 3 t)) hinj).trans ?_
  refine (ab1_payload_b_apply (iblk1 V c 0 t) (iblk1 V c 3 t) p q).trans ?_
  rw [View.read_apply]
  have hidx : ((View.whole main_v17_1).slice ((win1 5).rect t)).emb (ix2 p q) = ix2 (⟨t.val * 10000 + p.val, hlt⟩ : Fin 100000) q :=
    funext fun a => Fin.ext (by
      match a with
      | ⟨0, _⟩ => show win1_5.index t (0 : Fin 2) * 10000 + 1 * p.val = t.val * 10000 + p.val; rw [e0]; omega
      | ⟨1, _⟩ => show win1_5.index t (1 : Fin 2) * 64 + 1 * q.val = q.val; rw [e1]; omega)
  rw [hidx, ofFn2_ix2]
  exact Finset.sum_congr rfl fun k _ => congrArg₂ (fun u v : EReal => u * v) (ab1_h_block V c h hh t p k _ rfl) (ab1_w2_block V c W2 hW2 t k q)

/-- An index of the first output is in point t's block when its row lies in [10000·t, 10000·t + 10000). -/
theorem ab1_mem_block_a (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v17_0).slice (win1_4.rect t)).set ↔ _
  rw [View.set_slice_whole, Rect.mem_set_unit]
  exact Iff.rfl

/-- The same for the second output. -/
theorem ab1_mem_block_b (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v17_1).slice (win1_5.rect t)).set ↔ _
  rw [View.set_slice_whole, Rect.mem_set_unit]
  exact Iff.rfl

/-- Row r of the first output is written by point r / 10000. -/
theorem ab1_cover_a (i : S100000x64.Idx) :
    ∃ t : Fin cfg1.N, (cfg1.win 4).flush t = true ∧ i ∈ ((cfg1.win 4).blk t).view.set := by
  have h0 : (i 0).val < 100000 := (i 0).isLt
  have h1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, e0, e1, -⟩ := ab1_index_facts t
  refine ⟨t, flush1_4 t, ?_⟩
  rw [ab1_mem_block_a]
  intro a
  match a with
  | ⟨0, _⟩ =>
    show win1_4.index t (0 : Fin 2) * 10000 ≤ (i 0).val ∧ (i 0).val < win1_4.index t (0 : Fin 2) * 10000 + 10000
    rw [e0, ht]; omega
  | ⟨1, _⟩ =>
    show win1_4.index t (1 : Fin 2) * 64 ≤ (i 1).val ∧ (i 1).val < win1_4.index t (1 : Fin 2) * 64 + 64
    rw [e1]; omega

/-- Row r of the second output is written by point r / 10000. -/
theorem ab1_cover_b (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, -, -, e0, e1⟩ := ab1_index_facts t
  refine ⟨t, flush1_5 t, ?_⟩
  rw [ab1_mem_block_b]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 64 ≤ (i 1).val ∧ (i 1).val < win1_5.index t (1 : Fin 2) * 64 + 64
    rw [e1]; omega

/-- After the ten points the first output holds the affine image of the features: row n, feature f is the sum over
    the 64 features of h[n, k] · W1[k, f], plus the bias b1[f]. -/
theorem final1_4 (c : Dev nD) (h : S100000x64.Idx → EReal) (W1 : S64x64.Idx → EReal) (b1 : S1x64.Idx → EReal) (W2 : S64x64.Idx → EReal)
    (hh : V c main_v5 = h) (hW1 : V c main_v11 = W1) (hb1 : V c main_v16 = b1) (hW2 : V c main_v15 = W2) :
    (dat1 (F := Ideal) V c).arrAt 4 cfg1.N = ofFn2 (lin (toFn2 h) (toFn2 W1) (fun f => b1 (ix2 (0 : Fin 1) f))) :=
  (dat1 (F := Ideal) V c).arrAt_eq_of_cover 4 (ofFn2 (lin (toFn2 h) (toFn2 W1) (fun f => b1 (ix2 (0 : Fin 1) f))))
    (fun t _ => ab1_flushed_a V c h W1 b1 hh hW1 hb1 t) ab1_cover_a

/-- After the ten points the second output holds the linear image of the features: row n, feature f is the sum over
    the 64 features of h[n, k] · W2[k, f]. -/
theorem final1_5 (c : Dev nD) (h : S100000x64.Idx → EReal) (W1 : S64x64.Idx → EReal) (b1 : S1x64.Idx → EReal) (W2 : S64x64.Idx → EReal)
    (hh : V c main_v5 = h) (hW1 : V c main_v11 = W1) (hb1 : V c main_v16 = b1) (hW2 : V c main_v15 = W2) :
    (dat1 (F := Ideal) V c).arrAt 5 cfg1.N = ofFn2 (lin0 (toFn2 h) (toFn2 W2)) :=
  (dat1 (F := Ideal) V c).arrAt_eq_of_cover 5 (ofFn2 (lin0 (toFn2 h) (toFn2 W2)))
    (fun t _ => ab1_flushed_b V c h W2 hh hW2 t) ab1_cover_b

end Cert.KernelIdeal.Val

end
-- ==== Proof.Region2.lean ====
/-
  The combining step of the first layer, from its row blocks to its whole output array.

  The grid has 10 points. At point t the body reads rows [10000·t, 10000·t + 10000) of the features h, of the
  aggregate, of b and of the one-column array of summed weights, and all of the 64×64 matrix W3 and of the 1×64 bias
  row; it writes the same rows of the output. At row p and column q of its block the body leaves
  max ((agg − b · s) + (Σ_k h[p, k] · W3[k, q] + bias[q])) 0, with s the summed weight of the row. Read through the
  blocks, row p of point t is row n = 10000·t + p of every array, so the block written at t is block t of the one
  function `combineF` of the arrays; row r lies in the block of point r / 10000, so the blocks cover the output and
  the output array ends as that function.
-/
import proofs.«131890_j77223511982150_1_alg».proof.Proof.Gen.KernelIdeal.Frame
import proofs.«131890_j77223511982150_1_alg».proof.Proof.Spec
import proofs.«131890_j77223511982150_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.LeGnn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product of a row block with the 64×64 matrix, read at an index -/

theorem combine2_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem combine2_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem combine2_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem combine2_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into the zero accumulator, the product at (p, q) is the sum over k of row p of the left factor against column q
    of the right. -/
theorem combine2_matmul_apply (x : FVec Ideal S10000x64 .f32) (w : FVec Ideal S64x64 .f32) (p : Fin 10000) (q : Fin 64) :
    matmul (F := Ideal) dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact combine2_lhs_row _ _
    | ⟨1, _⟩ => exact (combine2_lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (combine2_rhs_row _ _).trans hk
    | ⟨1, _⟩ => exact combine2_rhs_col _ _)
  rw [el, er]

/-- A one-column block cast to its own shape and broadcast across 64 columns: at (p, q), the column at p. -/
theorem combine2_column_apply (v : FVec Ideal S10000x1 .f32) (p : Fin 10000) (q : Fin 64) :
    broadcastTo S10000x64 (shapeCast S10000x1 v shapeCasts_S10000x1_S10000x1) broadcasts_S10000x1_S10000x64 (ix2 p q) = v (ix2 p (0 : Fin 1)) := by
  rw [shapeCast_self]
  refine broadcastTo_apply v broadcasts_S10000x1_S10000x64 (ix2 p q) (ix2 p (0 : Fin 1)) fun ax => ?_
  match ax with
  | ⟨0, _⟩ =>
    show p.val = if (10000 : Nat) = 1 then 0 else p.val
    rw [if_neg (by decide)]
  | ⟨1, _⟩ => rfl

/-- The body's arithmetic at (p, q): the aggregate less b times the row's summed weight, plus row p of h against
    column q of W3 plus the bias at q; the positive part. -/
theorem combine2_payload_apply (x0 : Vec Ideal S10000x64 .f32) (x2 : Vec Ideal S64x64 .f32) (x5 : Vec Ideal S1x64 .f32)
    (x9 x11 : Vec Ideal S10000x64 .f32) (x13 : Vec Ideal S10000x1 .f32) (p : Fin 10000) (q : Fin 64) :
    k2_pay1 (F := Ideal) x0 x2 x5 x9 x11 x13 (ix2 p q)
      = max ((x9 (ix2 p q) - x11 (ix2 p q) * x13 (ix2 p (0 : Fin 1)))
          + ((∑ k : Fin 64, x0 (ix2 p k) * x2 (ix2 k q)) + x5 (ix2 (0 : Fin 1) q))) 0 := by
  unfold k2_pay1
  rw [maximumf_apply, addf_apply, subf_apply, mulf_apply, addf_apply, broadcast_apply]
  rw [shapeCast_self x0, shapeCast_self x2, shapeCast_self x9, shapeCast_self x11]
  rw [combine2_matmul_apply, combine2_column_apply, Cert.LibKeepdims.row_broadcast_apply]
  show _ = max _ 0
  congr 1
  exact Ideal.ofBits_zero_f32

/-- The body's arithmetic at (p, q) of blocks that read row n of the arrays: the combining step at (n, q). -/
theorem combine2_value_at (x0 : Vec Ideal S10000x64 .f32) (x2 : Vec Ideal S64x64 .f32) (x5 : Vec Ideal S1x64 .f32)
    (x9 x11 : Vec Ideal S10000x64 .f32) (x13 : Vec Ideal S10000x1 .f32)
    (h agg bb : S100000x64.Idx → EReal) (indeg : S100000x1.Idx → EReal) (W3 : S64x64.Idx → EReal) (b3 : S1x64.Idx → EReal)
    (p : Fin 10000) (q : Fin 64) (n : Fin 100000)
    (e0 : ∀ k : Fin 64, x0 (ix2 p k) = h (ix2 n k)) (e2 : ∀ k : Fin 64, x2 (ix2 k q) = W3 (ix2 k q))
    (e5 : x5 (ix2 (0 : Fin 1) q) = b3 (ix2 (0 : Fin 1) q)) (e9 : x9 (ix2 p q) = agg (ix2 n q))
    (e11 : x11 (ix2 p q) = bb (ix2 n q)) (e13 : x13 (ix2 p (0 : Fin 1)) = indeg (ix2 n (0 : Fin 1))) :
    k2_pay1 (F := Ideal) x0 x2 x5 x9 x11 x13 (ix2 p q) = combineF h agg bb indeg W3 b3 n q := by
  have es : (∑ k : Fin 64, x0 (ix2 p k) * x2 (ix2 k q)) = ∑ k : Fin 64, h (ix2 n k) * W3 (ix2 k q) :=
    Finset.sum_congr rfl fun k _ => by rw [e0 k, e2 k]
  rw [combine2_payload_apply, e9, e11, e13, e5, es]
  rfl

/-! ## From the blocks to the array -/

theorem combine2_zero_offsets : (![0, 0] : Fin 2 → Nat) = fun _ => 0 := funext fun a => by fin_cases a <;> rfl

/-- The index maps over the grid: at point t every row-block window is at block (t, 0) and every whole-array window
    at block (0, 0). -/
theorem combine2_index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row p of the block of h at point t is row 10000·t + p of h. -/
theorem combine2_block_h (c : Dev nD) (h : S100000x64.Idx → EReal) (hh : V c main_v5 = h) (t : Fin cfg2.N)
    (p : Fin 10000) (q : Fin 64) (r : Fin 100000) (hr : r.val = t.val * 10000 + p.val) :
    (iblk2 V c 0 t : Vec Ideal S10000x64 .f32) (ix2 p q) = h (ix2 r q) := by
  obtain ⟨e0, e1⟩ := (combine2_index_facts t).1
  subst hh
  unfold iblk2
  rw [View.read_apply]
  show V c main_v5 _ = V c main_v5 _
  congr 1
  funext a
  apply Fin.ext
  match a with
  | ⟨0, _⟩ => show win2_0.index t 0 * 10000 + 1 * p.val = r.val; rw [e0, hr]; omega
  | ⟨1, _⟩ => show win2_0.index t 1 * 64 + 1 * q.val = q.val; rw [e1]; omega

/-- Row p of the block of the aggregate at point t is row 10000·t + p of the aggregate. -/
theorem combine2_block_agg (c : Dev nD) (agg : S100000x64.Idx → EReal) (hagg : V c main_v30 = agg) (t : Fin cfg2.N)
    (p : Fin 10000) (q : Fin 64) (r : Fin 100000) (hr : r.val = t.val * 10000 + p.val) :
    (iblk2 V c 1 t : Vec Ideal S10000x64 .f32) (ix2 p q) = agg (ix2 r q) := by
  obtain ⟨e0, e1⟩ := (combine2_index_facts t).2.1
  subst hagg
  unfold iblk2
  rw [View.read_apply]
  show V c main_v30 _ = V c main_v30 _
  congr 1
  funext a
  apply Fin.ext
  match a with
  | ⟨0, _⟩ => show win2_1.index t 0 * 10000 + 1 * p.val = r.val; rw [e0, hr]; omega
  | ⟨1, _⟩ => show win2_1.index t 1 * 64 + 1 * q.val = q.val; rw [e1]; omega

/-- Row p of the block of b at point t is row 10000·t + p of b. -/
theorem combine2_block_b (c : Dev nD) (bb : S100000x64.Idx → EReal) (hbb : V c main_v17_1 = bb) (t : Fin cfg2.N)
    (p : Fin 10000) (q : Fin 64) (r : Fin 100000) (hr : r.val = t.val * 10000 + p.val) :
    (iblk2 V c 2 t : Vec Ideal S10000x64 .f32) (ix2 p q) = bb (ix2 r q) := by
  obtain ⟨e0, e1⟩ := (combine2_index_facts t).2.2.1
  subst hbb
  unfold iblk2
  rw [View.read_apply]
  show V c main_v17_1 _ = V c main_v17_1 _
  congr 1
  funext a
  apply Fin.ext
  match a with
  | ⟨0, _⟩ => show win2_2.index t 0 * 10000 + 1 * p.val = r.val; rw [e0, hr]; omega
  | ⟨1, _⟩ => show win2_2.index t 1 * 64 + 1 * q.val = q.val; rw [e1]; omega

/-- Entry p of the block of the summed-weight column at point t is entry 10000·t + p of the column. -/
theorem combine2_block_indeg (c : Dev nD) (indeg : S100000x1.Idx → EReal) (hin : V c main_v9 = indeg) (t : Fin cfg2.N)
    (p : Fin 10000) (r : Fin 100000) (hr : r.val = t.val * 10000 + p.val) :
    (iblk2 V c 3 t : Vec Ideal S10000x1 .f32) (ix2 p (0 : Fin 1)) = indeg (ix2 r (0 : Fin 1)) := by
  obtain ⟨e0, e1⟩ := (combine2_index_facts t).2.2.2.1
  subst hin
  unfold iblk2
  rw [View.read_apply]
  show V c main_v9 _ = V c main_v9 _
  congr 1
  funext a
  apply Fin.ext
  match a with
  | ⟨0, _⟩ => show win2_3.index t 0 * 10000 + 1 * p.val = r.val; rw [e0, hr]; omega
  | ⟨1, _⟩ => show win2_3.index t 1 * 1 + 1 * 0 = 0; rw [e1]

/-- The block of W3 at every point is W3. -/
theorem combine2_block_W3 (c : Dev nD) (W3 : S64x64.Idx → EReal) (hW3 : V c main_v32 = W3) (t : Fin cfg2.N)
    (k : Fin 64) (q : Fin 64) :
    (iblk2 V c 4 t : Vec Ideal S64x64 .f32) (ix2 k q) = W3 (ix2 k q) := by
  obtain ⟨e0, e1⟩ := (combine2_index_facts t).2.2.2.2.1
  subst hW3
  unfold iblk2
  rw [View.read_apply]
  show V c main_v32 _ = V c main_v32 _
  congr 1
  funext a
  apply Fin.ext
  match a with
  | ⟨0, _⟩ => show win2_4.index t 0 * 64 + 1 * k.val = k.val; rw [e0]; omega
  | ⟨1, _⟩ => show win2_4.index t 1 * 64 + 1 * q.val = q.val; rw [e1]; omega

/-- The block of the bias row at every point is the bias row. -/
theorem combine2_block_bias (c : Dev nD) (b3 : S1x64.Idx → EReal) (hb3 : V c main_v35 = b3) (t : Fin cfg2.N)
    (q : Fin 64) :
    (iblk2 V c 5 t : Vec Ideal S1x64 .f32) (ix2 (0 : Fin 1) q) = b3 (ix2 (0 : Fin 1) q) := by
  obtain ⟨e0, e1⟩ := (combine2_index_facts t).2.2.2.2.2.1
  subst hb3
  unfold iblk2
  rw [View.read_apply]
  show V c main_v35 _ = V c main_v35 _
  congr 1
  funext a
  apply Fin.ext
  match a with
  | ⟨0, _⟩ => show win2_5.index t 0 * 1 + 1 * 0 = 0; rw [e0]
  | ⟨1, _⟩ => show win2_5.index t 1 * 64 + 1 * q.val = q.val; rw [e1]; omega

/-- What point t writes back is block t of the combining step's function of the arrays the region is entered with. -/
theorem combine2_flushed_eq (c : Dev nD) (h agg bb : S100000x64.Idx → EReal) (indeg : S100000x1.Idx → EReal)
    (W3 : S64x64.Idx → EReal) (b3 : S1x64.Idx → EReal)
    (hh : V c main_v5 = h) (hagg : V c main_v30 = agg) (hbb : V c main_v17_1 = bb) (hin : V c main_v9 = indeg)
    (hW3 : V c main_v32 = W3) (hb3 : V c main_v35 = b3) (t : Fin cfg2.N) :
    (dat2 (F := Ideal) V c).flushed 6 t
      = ((cfg2.win 6).blk t).view.read (Elt Ideal) (ofFn2 (combineF h agg bb indeg W3 b3)) := by
  show (cfg2.win 6).cut (grid2.coords t) ((dat2 (F := Ideal) V c).after 6 t) = _
  rw [after2_6]
  unfold out2_6
  rw [View.canon_unit_zero combine2_zero_offsets]
  simp only [View.ld_unit_zero (S := S10000x64) combine2_zero_offsets, View.ld_unit_zero (S := S64x64) combine2_zero_offsets,
    View.ld_unit_zero (S := S1x64) combine2_zero_offsets, View.ld_unit_zero (S := S10000x1) combine2_zero_offsets]
  funext j
  obtain ⟨p, q, rfl⟩ : ∃ (p : Fin 10000) (q : Fin 64), j = ix2 p q := ⟨j 0, j 1, eq_ix2 j⟩
  have ht : t.val < 10 := by have h1 : t.val < grid2.N := t.isLt; have hN : grid2.N = 10 := N_2; omega
  obtain ⟨e0, e1⟩ := (combine2_index_facts t).2.2.2.2.2.2
  have hr : t.val * 10000 + p.val < 100000 := by have := p.isLt; omega
  show k2_pay1 (F := Ideal) (iblk2 V c 0 t) (iblk2 V c 4 t) (iblk2 V c 5 t) (iblk2 V c 1 t) (iblk2 V c 2 t) (iblk2 V c 3 t) (ix2 p q)
      = ofFn2 (combineF h agg bb indeg W3 b3) (((cfg2.win 6).blk t).view.emb (ix2 p q))
  have hemb : ((cfg2.win 6).blk t).view.emb (ix2 p q) = ix2 (⟨t.val * 10000 + p.val, hr⟩ : Fin 100000) q := by
    funext a
    apply Fin.ext
    match a with
    | ⟨0, _⟩ => show win2_6.index t 0 * 10000 + 1 * p.val = t.val * 10000 + p.val; rw [e0]; omega
    | ⟨1, _⟩ => show win2_6.index t 1 * 64 + 1 * q.val = q.val; rw [e1]; omega
  rw [hemb, ofFn2_ix2]
  exact combine2_value_at (iblk2 V c 0 t) (iblk2 V c 4 t) (iblk2 V c 5 t) (iblk2 V c 1 t) (iblk2 V c 2 t) (iblk2 V c 3 t)
    h agg bb indeg W3 b3 p q ⟨t.val * 10000 + p.val, hr⟩
    (fun k => combine2_block_h V c h hh t p k ⟨t.val * 10000 + p.val, hr⟩ rfl)
    (fun k => combine2_block_W3 V c W3 hW3 t k q)
    (combine2_block_bias V c b3 hb3 t q)
    (combine2_block_agg V c agg hagg t p q ⟨t.val * 10000 + p.val, hr⟩ rfl)
    (combine2_block_b V c bb hbb t p q ⟨t.val * 10000 + p.val, hr⟩ rfl)
    (combine2_block_indeg V c indeg hin t p ⟨t.val * 10000 + p.val, hr⟩ rfl)

/-- An index of the array is in point t's block iff each coordinate is in the block's range on its axis. -/
theorem combine2_mem_blk (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v36).slice (win2_6.rect t)).set ↔ _
  rw [View.set_slice_whole, Rect.mem_set_unit]
  exact Iff.rfl

/-- Row r is in the block of point r / 10000: the blocks cover the array. -/
theorem combine2_cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : grid2.N = 10 := N_2
  have hlt : (i 0).val / 10000 < grid2.N := by rw [hN]; omega
  obtain ⟨e0, e1⟩ := (combine2_index_facts ⟨(i 0).val / 10000, hlt⟩).2.2.2.2.2.2
  refine ⟨⟨(i 0).val / 10000, hlt⟩, flush2_6 _, ?_⟩
  rw [combine2_mem_blk]
  intro a
  match a with
  | ⟨0, _⟩ =>
    show win2_6.index ⟨(i 0).val / 10000, hlt⟩ 0 * 10000 ≤ (i 0).val ∧ (i 0).val < win2_6.index ⟨(i 0).val / 10000, hlt⟩ 0 * 10000 + 10000
    rw [e0]
    show (i 0).val / 10000 * 10000 ≤ (i 0).val ∧ (i 0).val < (i 0).val / 10000 * 10000 + 10000
    omega
  | ⟨1, _⟩ =>
    show win2_6.index ⟨(i 0).val / 10000, hlt⟩ 1 * 64 ≤ (i 1).val ∧ (i 1).val < win2_6.index ⟨(i 0).val / 10000, hlt⟩ 1 * 64 + 64
    rw [e1]
    omega

/-- The output array after the region: the combining step's function of the arrays the region is entered with. -/
theorem final2_6 (c : Dev nD) (h agg bb : S100000x64.Idx → EReal) (indeg : S100000x1.Idx → EReal) (W3 : S64x64.Idx → EReal) (b3 : S1x64.Idx → EReal)
    (hh : V c main_v5 = h) (hagg : V c main_v30 = agg) (hbb : V c main_v17_1 = bb) (hin : V c main_v9 = indeg) (hW3 : V c main_v32 = W3) (hb3 : V c main_v35 = b3) :
    (dat2 (F := Ideal) V c).arrAt 6 cfg2.N = ofFn2 (combineF h agg bb indeg W3 b3) :=
  (dat2 (F := Ideal) V c).arrAt_eq_of_cover 6 (ofFn2 (combineF h agg bb indeg W3 b3))
    (fun t _ => combine2_flushed_eq V c h agg bb indeg W3 b3 hh hagg hbb hin hW3 hb3 t) combine2_cover

end Cert.KernelIdeal.Val

end
-- ==== Proof.Region3.lean ====
/-
  A layer's two linear images of the node features, read off the ten grid points.

  The 100000 nodes are cut into ten blocks of 10000 rows. At point t the kernel holds rows [10000·t, 10000·t + 10000)
  of the features h, the two whole 64×64 matrices W1 and W2 and the whole bias row b1, and writes the same rows of
  two outputs: entry (p, f) of the first is the sum over the 64 features of h[10000·t + p, k] · W1[k, f], plus b1[f];
  entry (p, f) of the second is the sum of h[10000·t + p, k] · W2[k, f]. Every row of an output lies in exactly the
  block of point (row / 10000), so after the ten points the first output is h·W1 + b1 and the second h·W2 at every
  index.
-/
import proofs.«131890_j77223511982150_1_alg».proof.Proof.Gen.KernelIdeal.Frame
import proofs.«131890_j77223511982150_1_alg».proof.Proof.Spec
import proofs.«131890_j77223511982150_1_alg».proof.Proof.LibKeepdims
import proofs.«131890_j77223511982150_1_alg».proof.Proof.RegionMatmul
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.LeGnn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, however the zeros are written. -/
theorem ab3_origin : (![0, 0] : Fin 2 → Nat) = fun _ => 0 := funext fun a => by fin_cases a <;> rfl

/-- The index maps over the ten points: the rows of the features and of both outputs move with the point, the two
    matrices and the bias row stay. -/
theorem ab3_index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The block of features enters both products as it was loaded. -/
theorem ab3_rows_cast (x0 : Vec Ideal S10000x64 .f32) : k3_pay1 (F := Ideal) x0 = x0 := by
  unfold k3_pay1
  exact shapeCast_self x0 shapeCasts_S10000x64_S10000x64

/-- The first output's arithmetic at an entry: the row's 64 features against the first matrix's column, plus the
    bias. -/
theorem ab3_payload_a_apply (x0 : Vec Ideal S10000x64 .f32) (x1 : Vec Ideal S64x64 .f32) (x2 : Vec Ideal S1x64 .f32)
    (p : Fin 10000) (q : Fin 64) :
    k3_pay2 (F := Ideal) x0 x1 x2 (ix2 p q) = (∑ k : Fin 64, x0 (ix2 p k) * x1 (ix2 k q)) + x2 (ix2 (0 : Fin 1) q) := by
  unfold k3_pay2
  rw [ab3_rows_cast, shapeCast_self x1 shapeCasts_S64x64_S64x64]
  refine (addf_apply _ _ (ix2 p q)).trans ?_
  refine congrArg₂ (· + ·) (matmul64_apply x0 x1 p q) ?_
  exact Cert.LibKeepdims.row_broadcast_apply x2 shapeCasts_S1x64_S1x64 broadcasts_S1x64_S10000x64 p q

/-- The second output's arithmetic at an entry: the row's 64 features against the second matrix's column. -/
theorem ab3_payload_b_apply (x0 : Vec Ideal S10000x64 .f32) (x3 : Vec Ideal S64x64 .f32) (p : Fin 10000) (q : Fin 64) :
    k3_pay3 (F := Ideal) x0 x3 (ix2 p q) = ∑ k : Fin 64, x0 (ix2 p k) * x3 (ix2 k q) := by
  unfold k3_pay3
  rw [ab3_rows_cast, shapeCast_self x3 shapeCasts_S64x64_S64x64]
  exact matmul64_apply x0 x3 p q

/-- The rows of the features a point holds: row p of its block is row 10000·t + p of the array. -/
theorem ab3_h_block (c : Dev nD) (h : S100000x64.Idx → EReal) (hh : V c main_v36 = h) (t : Fin cfg3.N)
    (p : Fin 10000) (k : Fin 64) (n : Fin 100000) (hn : n.val = t.val * 10000 + p.val) :
    (iblk3 V c 0 t : Vec Ideal S10000x64 .f32) (ix2 p k) = h (ix2 n k) := by
  obtain ⟨e0, e1, -⟩ := ab3_index_facts t
  unfold iblk3
  rw [View.read_apply]
  show V c main_v36 _ = _
  rw [hh]
  refine congrArg h (funext fun a => Fin.ext ?_)
  match a with
  | ⟨0, _⟩ => show win3_0.index t (0 : Fin 2) * 10000 + 1 * p.val = n.val; rw [e0, hn]; omega
  | ⟨1, _⟩ => show win3_0.index t (1 : Fin 2) * 64 + 1 * k.val = k.val; rw [e1]; omega

/-- Every point holds the whole first matrix. -/
theorem ab3_w1_block (c : Dev nD) (W1 : S64x64.Idx → EReal) (hW1 : V c main_v38 = W1) (t : Fin cfg3.N)
    (k : Fin 64) (q : Fin 64) :
    (iblk3 V c 1 t : Vec Ideal S64x64 .f32) (ix2 k q) = W1 (ix2 k q) := by
  obtain ⟨-, -, e0, e1, -⟩ := ab3_index_facts t
  unfold iblk3
  rw [View.read_apply]
  show V c main_v38 _ = _
  rw [hW1]
  refine congrArg W1 (funext fun a => Fin.ext ?_)
  match a with
  | ⟨0, _⟩ => show win3_1.index t (0 : Fin 2) * 64 + 1 * k.val = k.val; rw [e0]; omega
  | ⟨1, _⟩ => show win3_1.index t (1 : Fin 2) * 64 + 1 * q.val = q.val; rw [e1]; omega

/-- Every point holds the whole bias row. -/
theorem ab3_b1_block (c : Dev nD) (b1 : S1x64.Idx → EReal) (hb1 : V c main_v43 = b1) (t : Fin cfg3.N) (q : Fin 64) :
    (iblk3 V c 2 t : Vec Ideal S1x64 .f32) (ix2 (0 : Fin 1) q) = b1 (ix2 (0 : Fin 1) q) := by
  obtain ⟨-, -, -, -, e0, e1, -⟩ := ab3_index_facts t
  unfold iblk3
  rw [View.read_apply]
  show V c main_v43 _ = _
  rw [hb1]
  refine congrArg b1 (funext fun a => Fin.ext ?_)
  match a with
  | ⟨0, _⟩ => show win3_2.index t (0 : Fin 2) * 1 + 1 * (0 : Fin 1).val = (0 : Fin 1).val; rw [e0]; rfl
  | ⟨1, _⟩ => show win3_2.index t (1 : Fin 2) * 64 + 1 * q.val = q.val; rw [e1]; omega

/-- Every point holds the whole second matrix. -/
theorem ab3_w2_block (c : Dev nD) (W2 : S64x64.Idx → EReal) (hW2 : V c main_v42 = W2) (t : Fin cfg3.N)
    (k : Fin 64) (q : Fin 64) :
    (iblk3 V c 3 t : Vec Ideal S64x64 .f32) (ix2 k q) = W2 (ix2 k q) := by
  obtain ⟨-, -, -, -, -, -, e0, e1, -⟩ := ab3_index_facts t
  unfold iblk3
  rw [View.read_apply]
  show V c main_v42 _ = _
  rw [hW2]
  refine congrArg W2 (funext fun a => Fin.ext ?_)
  match a with
  | ⟨0, _⟩ => show win3_3.index t (0 : Fin 2) * 64 + 1 * k.val = k.val; rw [e0]; omega
  | ⟨1, _⟩ => show win3_3.index t (1 : Fin 2) * 64 + 1 * q.val = q.val; rw [e1]; omega

/-- What point t writes back to the first output is rows [10000·t, 10000·t + 10000) of the affine image. -/
theorem ab3_flushed_a (c : Dev nD) (h : S100000x64.Idx → EReal) (W1 : S64x64.Idx → EReal) (b1 : S1x64.Idx → EReal)
    (hh : V c main_v36 = h) (hW1 : V c main_v38 = W1) (hb1 : V c main_v43 = b1) (t : Fin cfg3.N) :
    (dat3 (F := Ideal) V c).flushed 4 t
      = ((cfg3.win 4).blk t).view.read (Elt Ideal) (ofFn2 (lin (toFn2 h) (toFn2 W1) (fun f => b1 (ix2 (0 : Fin 1) f)))) := by
  show (cfg3.win 4).cut (grid3.coords t) ((dat3 V c).after 4 t) = _
  rw [after3_4]
  unfold out3_4
  rw [View.canon_unit_zero ab3_origin]
  simp only [View.ld_unit_zero (S := S10000x64) ab3_origin, View.ld_unit_zero (S := S64x64) ab3_origin, View.ld_unit_zero (S := S1x64) ab3_origin]
  funext j
  obtain ⟨p, q, rfl⟩ : ∃ (p : Fin 10000) (q : Fin 64), j = ix2 p q := ⟨j 0, j 1, eq_ix2 j⟩
  obtain ⟨-, -, -, -, -, -, -, -, e0, e1, -⟩ := ab3_index_facts t
  have hN : cfg3.N = 10 := N_3
  have hlt : t.val * 10000 + p.val < 100000 := by have := t.isLt; have := p.isLt; omega
  have hinj : (win3 4).xinj (grid3.coords t) (ix2 p q) = ix2 p q := funext fun a => Fin.ext rfl
  refine (congrArg (k3_pay2 (F := Ideal) (iblk3 V c 0 t) (iblk3 V c 1 t) (iblk3 V c 2 t)) hinj).trans ?_
  refine (ab3_payload_a_apply (iblk3 V c 0 t) (iblk3 V c 1 t) (iblk3 V c 2 t) p q).trans ?_
  rw [View.read_apply]
  have hidx : ((View.whole main_v44_0).slice ((win3 4).rect t)).emb (ix2 p q) = ix2 (⟨t.val * 10000 + p.val, hlt⟩ : Fin 100000) q :=
    funext fun a => Fin.ext (by
      match a with
      | ⟨0, _⟩ => show win3_4.index t (0 : Fin 2) * 10000 + 1 * p.val = t.val * 10000 + p.val; rw [e0]; omega
      | ⟨1, _⟩ => show win3_4.index t (1 : Fin 2) * 64 + 1 * q.val = q.val; rw [e1]; omega)
  rw [hidx, ofFn2_ix2]
  exact congrArg₂ (fun u v : EReal => u + v)
    (Finset.sum_congr rfl fun k _ => congrArg₂ (fun u v : EReal => u * v) (ab3_h_block V c h hh t p k _ rfl) (ab3_w1_block V c W1 hW1 t k q))
    (ab3_b1_block V c b1 hb1 t q)

/-- What point t writes back to the second output is rows [10000·t, 10000·t + 10000) of the linear image. -/
theorem ab3_flushed_b (c : Dev nD) (h : S100000x64.Idx → EReal) (W2 : S64x64.Idx → EReal)
    (hh : V c main_v36 = h) (hW2 : V c main_v42 = W2) (t : Fin cfg3.N) :
    (dat3 (F := Ideal) V c).flushed 5 t
      = ((cfg3.win 5).blk t).view.read (Elt Ideal) (ofFn2 (lin0 (toFn2 h) (toFn2 W2))) := by
  show (cfg3.win 5).cut (grid3.coords t) ((dat3 V c).after 5 t) = _
  rw [after3_5]
  unfold out3_5
  rw [View.canon_unit_zero ab3_origin]
  simp only [View.ld_unit_zero (S := S10000x64) ab3_origin, View.ld_unit_zero (S := S64x64) ab3_origin]
  funext j
  obtain ⟨p, q, rfl⟩ : ∃ (p : Fin 10000) (q : Fin 64), j = ix2 p q := ⟨j 0, j 1, eq_ix2 j⟩
  obtain ⟨-, -, -, -, -, -, -, -, -, -, e0, e1⟩ := ab3_index_facts t
  have hN : cfg3.N = 10 := N_3
  have hlt : t.val * 10000 + p.val < 100000 := by have := t.isLt; have := p.isLt; omega
  have hinj : (win3 5).xinj (grid3.coords t) (ix2 p q) = ix2 p q := funext fun a => Fin.ext rfl
  refine (congrArg (k3_pay3 (F := Ideal) (iblk3 V c 0 t) (iblk3 V c 3 t)) hinj).trans ?_
  refine (ab3_payload_b_apply (iblk3 V c 0 t) (iblk3 V c 3 t) p q).trans ?_
  rw [View.read_apply]
  have hidx : ((View.whole main_v44_1).slice ((win3 5).rect t)).emb (ix2 p q) = ix2 (⟨t.val * 10000 + p.val, hlt⟩ : Fin 100000) q :=
    funext fun a => Fin.ext (by
      match a with
      | ⟨0, _⟩ => show win3_5.index t (0 : Fin 2) * 10000 + 1 * p.val = t.val * 10000 + p.val; rw [e0]; omega
      | ⟨1, _⟩ => show win3_5.index t (1 : Fin 2) * 64 + 1 * q.val = q.val; rw [e1]; omega)
  rw [hidx, ofFn2_ix2]
  exact Finset.sum_congr rfl fun k _ => congrArg₂ (fun u v : EReal => u * v) (ab3_h_block V c h hh t p k _ rfl) (ab3_w2_block V c W2 hW2 t k q)

/-- An index of the first output is in point t's block when its row lies in [10000·t, 10000·t + 10000). -/
theorem ab3_mem_block_a (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v44_0).slice (win3_4.rect t)).set ↔ _
  rw [View.set_slice_whole, Rect.mem_set_unit]
  exact Iff.rfl

/-- The same for the second output. -/
theorem ab3_mem_block_b (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v44_1).slice (win3_5.rect t)).set ↔ _
  rw [View.set_slice_whole, Rect.mem_set_unit]
  exact Iff.rfl

/-- Row r of the first output is written by point r / 10000. -/
theorem ab3_cover_a (i : S100000x64.Idx) :
    ∃ t : Fin cfg3.N, (cfg3.win 4).flush t = true ∧ i ∈ ((cfg3.win 4).blk t).view.set := by
  have h0 : (i 0).val < 100000 := (i 0).isLt
  have h1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, -, -, -, -, e0, e1, -⟩ := ab3_index_facts t
  refine ⟨t, flush3_4 t, ?_⟩
  rw [ab3_mem_block_a]
  intro a
  match a with
  | ⟨0, _⟩ =>
    show win3_4.index t (0 : Fin 2) * 10000 ≤ (i 0).val ∧ (i 0).val < win3_4.index t (0 : Fin 2) * 10000 + 10000
    rw [e0, ht]; omega
  | ⟨1, _⟩ =>
    show win3_4.index t (1 : Fin 2) * 64 ≤ (i 1).val ∧ (i 1).val < win3_4.index t (1 : Fin 2) * 64 + 64
    rw [e1]; omega

/-- Row r of the second output is written by point r / 10000. -/
theorem ab3_cover_b (i : S100000x64.Idx) :
    ∃ t : Fin cfg3.N, (cfg3.win 5).flush t = true ∧ i ∈ ((cfg3.win 5).blk t).view.set := by
  have h0 : (i 0).val < 100000 := (i 0).isLt
  have h1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, -, -, -, -, -, -, e0, e1⟩ := ab3_index_facts t
  refine ⟨t, flush3_5 t, ?_⟩
  rw [ab3_mem_block_b]
  intro a
  match a with
  | ⟨0, _⟩ =>
    show win3_5.index t (0 : Fin 2) * 10000 ≤ (i 0).val ∧ (i 0).val < win3_5.index t (0 : Fin 2) * 10000 + 10000
    rw [e0, ht]; omega
  | ⟨1, _⟩ =>
    show win3_5.index t (1 : Fin 2) * 64 ≤ (i 1).val ∧ (i 1).val < win3_5.index t (1 : Fin 2) * 64 + 64
    rw [e1]; omega

/-- After the ten points the first output holds the affine image of the features: row n, feature f is the sum over
    the 64 features of h[n, k] · W1[k, f], plus the bias b1[f]. -/
theorem final3_4 (c : Dev nD) (h : S100000x64.Idx → EReal) (W1 : S64x64.Idx → EReal) (b1 : S1x64.Idx → EReal) (W2 : S64x64.Idx → EReal)
    (hh : V c main_v36 = h) (hW1 : V c main_v38 = W1) (hb1 : V c main_v43 = b1) (hW2 : V c main_v42 = W2) :
    (dat3 (F := Ideal) V c).arrAt 4 cfg3.N = ofFn2 (lin (toFn2 h) (toFn2 W1) (fun f => b1 (ix2 (0 : Fin 1) f))) :=
  (dat3 (F := Ideal) V c).arrAt_eq_of_cover 4 (ofFn2 (lin (toFn2 h) (toFn2 W1) (fun f => b1 (ix2 (0 : Fin 1) f))))
    (fun t _ => ab3_flushed_a V c h W1 b1 hh hW1 hb1 t) ab3_cover_a

/-- After the ten points the second output holds the linear image of the features: row n, feature f is the sum over
    the 64 features of h[n, k] · W2[k, f]. -/
theorem final3_5 (c : Dev nD) (h : S100000x64.Idx → EReal) (W1 : S64x64.Idx → EReal) (b1 : S1x64.Idx → EReal) (W2 : S64x64.Idx → EReal)
    (hh : V c main_v36 = h) (hW1 : V c main_v38 = W1) (hb1 : V c main_v43 = b1) (hW2 : V c main_v42 = W2) :
    (dat3 (F := Ideal) V c).arrAt 5 cfg3.N = ofFn2 (lin0 (toFn2 h) (toFn2 W2)) :=
  (dat3 (F := Ideal) V c).arrAt_eq_of_cover 5 (ofFn2 (lin0 (toFn2 h) (toFn2 W2)))
    (fun t _ => ab3_flushed_b V c h W2 hh hW2 t) ab3_cover_b

end Cert.KernelIdeal.Val

end
-- ==== Proof.Region4.lean ====
/-
  The combining step of the second layer, from its row blocks to its whole output array.

  The grid has 10 points. At point t the body reads rows [10000·t, 10000·t + 10000) of the features h, of the
  aggregate, of b and of the one-column array of summed weights, and all of the 64×64 matrix W3 and of the 1×64 bias
  row; it writes the same rows of the output. At row p and column q of its block the body leaves
  max ((agg − b · s) + (Σ_k h[p, k] · W3[k, q] + bias[q])) 0, with s the summed weight of the row. Read through the
  blocks, row p of point t is row n = 10000·t + p of every array, so the block written at t is block t of the one
  function `combineF` of the arrays; row r lies in the block of point r / 10000, so the blocks cover the output and
  the output array ends as that function.
-/
import proofs.«131890_j77223511982150_1_alg».proof.Proof.Gen.KernelIdeal.Frame
import proofs.«131890_j77223511982150_1_alg».proof.Proof.Spec
import proofs.«131890_j77223511982150_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.LeGnn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product of a row block with the 64×64 matrix, read at an index -/

theorem combine4_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem combine4_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem combine4_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem combine4_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into the zero accumulator, the product at (p, q) is the sum over k of row p of the left factor against column q
    of the right. -/
theorem combine4_matmul_apply (x : FVec Ideal S10000x64 .f32) (w : FVec Ideal S64x64 .f32) (p : Fin 10000) (q : Fin 64) :
    matmul (F := Ideal) dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact combine4_lhs_row _ _
    | ⟨1, _⟩ => exact (combine4_lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (combine4_rhs_row _ _).trans hk
    | ⟨1, _⟩ => exact combine4_rhs_col _ _)
  rw [el, er]

/-- A one-column block cast to its own shape and broadcast across 64 columns: at (p, q), the column at p. -/
theorem combine4_column_apply (v : FVec Ideal S10000x1 .f32) (p : Fin 10000) (q : Fin 64) :
    broadcastTo S10000x64 (shapeCast S10000x1 v shapeCasts_S10000x1_S10000x1) broadcasts_S10000x1_S10000x64 (ix2 p q) = v (ix2 p (0 : Fin 1)) := by
  rw [shapeCast_self]
  refine broadcastTo_apply v broadcasts_S10000x1_S10000x64 (ix2 p q) (ix2 p (0 : Fin 1)) fun ax => ?_
  match ax with
  | ⟨0, _⟩ =>
    show p.val = if (10000 : Nat) = 1 then 0 else p.val
    rw [if_neg (by decide)]
  | ⟨1, _⟩ => rfl

/-- The body's arithmetic at (p, q): the aggregate less b times the row's summed weight, plus row p of h against
    column q of W3 plus the bias at q; the positive part. -/
theorem combine4_payload_apply (x0 : Vec Ideal S10000x64 .f32) (x2 : Vec Ideal S64x64 .f32) (x5 : Vec Ideal S1x64 .f32)
    (x9 x11 : Vec Ideal S10000x64 .f32) (x13 : Vec Ideal S10000x1 .f32) (p : Fin 10000) (q : Fin 64) :
    k4_pay1 (F := Ideal) x0 x2 x5 x9 x11 x13 (ix2 p q)
      = max ((x9 (ix2 p q) - x11 (ix2 p q) * x13 (ix2 p (0 : Fin 1)))
          + ((∑ k : Fin 64, x0 (ix2 p k) * x2 (ix2 k q)) + x5 (ix2 (0 : Fin 1) q))) 0 := by
  unfold k4_pay1
  rw [maximumf_apply, addf_apply, subf_apply, mulf_apply, addf_apply, broadcast_apply]
  rw [shapeCast_self x0, shapeCast_self x2, shapeCast_self x9, shapeCast_self x11]
  rw [combine4_matmul_apply, combine4_column_apply, Cert.LibKeepdims.row_broadcast_apply]
  show _ = max _ 0
  congr 1
  exact Ideal.ofBits_zero_f32

/-- The body's arithmetic at (p, q) of blocks that read row n of the arrays: the combining step at (n, q). -/
theorem combine4_value_at (x0 : Vec Ideal S10000x64 .f32) (x2 : Vec Ideal S64x64 .f32) (x5 : Vec Ideal S1x64 .f32)
    (x9 x11 : Vec Ideal S10000x64 .f32) (x13 : Vec Ideal S10000x1 .f32)
    (h agg bb : S100000x64.Idx → EReal) (indeg : S100000x1.Idx → EReal) (W3 : S64x64.Idx → EReal) (b3 : S1x64.Idx → EReal)
    (p : Fin 10000) (q : Fin 64) (n : Fin 100000)
    (e0 : ∀ k : Fin 64, x0 (ix2 p k) = h (ix2 n k)) (e2 : ∀ k : Fin 64, x2 (ix2 k q) = W3 (ix2 k q))
    (e5 : x5 (ix2 (0 : Fin 1) q) = b3 (ix2 (0 : Fin 1) q)) (e9 : x9 (ix2 p q) = agg (ix2 n q))
    (e11 : x11 (ix2 p q) = bb (ix2 n q)) (e13 : x13 (ix2 p (0 : Fin 1)) = indeg (ix2 n (0 : Fin 1))) :
    k4_pay1 (F := Ideal) x0 x2 x5 x9 x11 x13 (ix2 p q) = combineF h agg bb indeg W3 b3 n q := by
  have es : (∑ k : Fin 64, x0 (ix2 p k) * x2 (ix2 k q)) = ∑ k : Fin 64, h (ix2 n k) * W3 (ix2 k q) :=
    Finset.sum_congr rfl fun k _ => by rw [e0 k, e2 k]
  rw [combine4_payload_apply, e9, e11, e13, e5, es]
  rfl

/-! ## From the blocks to the array -/

theorem combine4_zero_offsets : (![0, 0] : Fin 2 → Nat) = fun _ => 0 := funext fun a => by fin_cases a <;> rfl

/-- The index maps over the grid: at point t every row-block window is at block (t, 0) and every whole-array window
    at block (0, 0). -/
theorem combine4_index_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0) :=
  (by decide +kernel : ∀ t : Fin grid4.N, _)

/-- Row p of the block of h at point t is row 10000·t + p of h. -/
theorem combine4_block_h (c : Dev nD) (h : S100000x64.Idx → EReal) (hh : V c main_v36 = h) (t : Fin cfg4.N)
    (p : Fin 10000) (q : Fin 64) (r : Fin 100000) (hr : r.val = t.val * 10000 + p.val) :
    (iblk4 V c 0 t : Vec Ideal S10000x64 .f32) (ix2 p q) = h (ix2 r q) := by
  obtain ⟨e0, e1⟩ := (combine4_index_facts t).1
  subst hh
  unfold iblk4
  rw [View.read_apply]
  show V c main_v36 _ = V c main_v36 _
  congr 1
  funext a
  apply Fin.ext
  match a with
  | ⟨0, _⟩ => show win4_0.index t 0 * 10000 + 1 * p.val = r.val; rw [e0, hr]; omega
  | ⟨1, _⟩ => show win4_0.index t 1 * 64 + 1 * q.val = q.val; rw [e1]; omega

/-- Row p of the block of the aggregate at point t is row 10000·t + p of the aggregate. -/
theorem combine4_block_agg (c : Dev nD) (agg : S100000x64.Idx → EReal) (hagg : V c main_v57 = agg) (t : Fin cfg4.N)
    (p : Fin 10000) (q : Fin 64) (r : Fin 100000) (hr : r.val = t.val * 10000 + p.val) :
    (iblk4 V c 1 t : Vec Ideal S10000x64 .f32) (ix2 p q) = agg (ix2 r q) := by
  obtain ⟨e0, e1⟩ := (combine4_index_facts t).2.1
  subst hagg
  unfold iblk4
  rw [View.read_apply]
  show V c main_v57 _ = V c main_v57 _
  congr 1
  funext a
  apply Fin.ext
  match a with
  | ⟨0, _⟩ => show win4_1.index t 0 * 10000 + 1 * p.val = r.val; rw [e0, hr]; omega
  | ⟨1, _⟩ => show win4_1.index t 1 * 64 + 1 * q.val = q.val; rw [e1]; omega

/-- Row p of the block of b at point t is row 10000·t + p of b. -/
theorem combine4_block_b (c : Dev nD) (bb : S100000x64.Idx → EReal) (hbb : V c main_v44_1 = bb) (t : Fin cfg4.N)
    (p : Fin 10000) (q : Fin 64) (r : Fin 100000) (hr : r.val = t.val * 10000 + p.val) :
    (iblk4 V c 2 t : Vec Ideal S10000x64 .f32) (ix2 p q) = bb (ix2 r q) := by
  obtain ⟨e0, e1⟩ := (combine4_index_facts t).2.2.1
  subst hbb
  unfold iblk4
  rw [View.read_apply]
  show V c main_v44_1 _ = V c main_v44_1 _
  congr 1
  funext a
  apply Fin.ext
  match a with
  | ⟨0, _⟩ => show win4_2.index t 0 * 10000 + 1 * p.val = r.val; rw [e0, hr]; omega
  | ⟨1, _⟩ => show win4_2.index t 1 * 64 + 1 * q.val = q.val; rw [e1]; omega

/-- Entry p of the block of the summed-weight column at point t is entry 10000·t + p of the column. -/
theorem combine4_block_indeg (c : Dev nD) (indeg : S100000x1.Idx → EReal) (hin : V c main_v9 = indeg) (t : Fin cfg4.N)
    (p : Fin 10000) (r : Fin 100000) (hr : r.val = t.val * 10000 + p.val) :
    (iblk4 V c 3 t : Vec Ideal S10000x1 .f32) (ix2 p (0 : Fin 1)) = indeg (ix2 r (0 : Fin 1)) := by
  obtain ⟨e0, e1⟩ := (combine4_index_facts t).2.2.2.1
  subst hin
  unfold iblk4
  rw [View.read_apply]
  show V c main_v9 _ = V c main_v9 _
  congr 1
  funext a
  apply Fin.ext
  match a with
  | ⟨0, _⟩ => show win4_3.index t 0 * 10000 + 1 * p.val = r.val; rw [e0, hr]; omega
  | ⟨1, _⟩ => show win4_3.index t 1 * 1 + 1 * 0 = 0; rw [e1]

/-- The block of W3 at every point is W3. -/
theorem combine4_block_W3 (c : Dev nD) (W3 : S64x64.Idx → EReal) (hW3 : V c main_v59 = W3) (t : Fin cfg4.N)
    (k : Fin 64) (q : Fin 64) :
    (iblk4 V c 4 t : Vec Ideal S64x64 .f32) (ix2 k q) = W3 (ix2 k q) := by
  obtain ⟨e0, e1⟩ := (combine4_index_facts t).2.2.2.2.1
  subst hW3
  unfold iblk4
  rw [View.read_apply]
  show V c main_v59 _ = V c main_v59 _
  congr 1
  funext a
  apply Fin.ext
  match a with
  | ⟨0, _⟩ => show win4_4.index t 0 * 64 + 1 * k.val = k.val; rw [e0]; omega
  | ⟨1, _⟩ => show win4_4.index t 1 * 64 + 1 * q.val = q.val; rw [e1]; omega

/-- The block of the bias row at every point is the bias row. -/
theorem combine4_block_bias (c : Dev nD) (b3 : S1x64.Idx → EReal) (hb3 : V c main_v62 = b3) (t : Fin cfg4.N)
    (q : Fin 64) :
    (iblk4 V c 5 t : Vec Ideal S1x64 .f32) (ix2 (0 : Fin 1) q) = b3 (ix2 (0 : Fin 1) q) := by
  obtain ⟨e0, e1⟩ := (combine4_index_facts t).2.2.2.2.2.1
  subst hb3
  unfold iblk4
  rw [View.read_apply]
  show V c main_v62 _ = V c main_v62 _
  congr 1
  funext a
  apply Fin.ext
  match a with
  | ⟨0, _⟩ => show win4_5.index t 0 * 1 + 1 * 0 = 0; rw [e0]
  | ⟨1, _⟩ => show win4_5.index t 1 * 64 + 1 * q.val = q.val; rw [e1]; omega

/-- What point t writes back is block t of the combining step's function of the arrays the region is entered with. -/
theorem combine4_flushed_eq (c : Dev nD) (h agg bb : S100000x64.Idx → EReal) (indeg : S100000x1.Idx → EReal)
    (W3 : S64x64.Idx → EReal) (b3 : S1x64.Idx → EReal)
    (hh : V c main_v36 = h) (hagg : V c main_v57 = agg) (hbb : V c main_v44_1 = bb) (hin : V c main_v9 = indeg)
    (hW3 : V c main_v59 = W3) (hb3 : V c main_v62 = b3) (t : Fin cfg4.N) :
    (dat4 (F := Ideal) V c).flushed 6 t
      = ((cfg4.win 6).blk t).view.read (Elt Ideal) (ofFn2 (combineF h agg bb indeg W3 b3)) := by
  show (cfg4.win 6).cut (grid4.coords t) ((dat4 (F := Ideal) V c).after 6 t) = _
  rw [after4_6]
  unfold out4_6
  rw [View.canon_unit_zero combine4_zero_offsets]
  simp only [View.ld_unit_zero (S := S10000x64) combine4_zero_offsets, View.ld_unit_zero (S := S64x64) combine4_zero_offsets,
    View.ld_unit_zero (S := S1x64) combine4_zero_offsets, View.ld_unit_zero (S := S10000x1) combine4_zero_offsets]
  funext j
  obtain ⟨p, q, rfl⟩ : ∃ (p : Fin 10000) (q : Fin 64), j = ix2 p q := ⟨j 0, j 1, eq_ix2 j⟩
  have ht : t.val < 10 := by have h1 : t.val < grid4.N := t.isLt; have hN : grid4.N = 10 := N_4; omega
  obtain ⟨e0, e1⟩ := (combine4_index_facts t).2.2.2.2.2.2
  have hr : t.val * 10000 + p.val < 100000 := by have := p.isLt; omega
  show k4_pay1 (F := Ideal) (iblk4 V c 0 t) (iblk4 V c 4 t) (iblk4 V c 5 t) (iblk4 V c 1 t) (iblk4 V c 2 t) (iblk4 V c 3 t) (ix2 p q)
      = ofFn2 (combineF h agg bb indeg W3 b3) (((cfg4.win 6).blk t).view.emb (ix2 p q))
  have hemb : ((cfg4.win 6).blk t).view.emb (ix2 p q) = ix2 (⟨t.val * 10000 + p.val, hr⟩ : Fin 100000) q := by
    funext a
    apply Fin.ext
    match a with
    | ⟨0, _⟩ => show win4_6.index t 0 * 10000 + 1 * p.val = t.val * 10000 + p.val; rw [e0]; omega
    | ⟨1, _⟩ => show win4_6.index t 1 * 64 + 1 * q.val = q.val; rw [e1]; omega
  rw [hemb, ofFn2_ix2]
  exact combine4_value_at (iblk4 V c 0 t) (iblk4 V c 4 t) (iblk4 V c 5 t) (iblk4 V c 1 t) (iblk4 V c 2 t) (iblk4 V c 3 t)
    h agg bb indeg W3 b3 p q ⟨t.val * 10000 + p.val, hr⟩
    (fun k => combine4_block_h V c h hh t p k ⟨t.val * 10000 + p.val, hr⟩ rfl)
    (fun k => combine4_block_W3 V c W3 hW3 t k q)
    (combine4_block_bias V c b3 hb3 t q)
    (combine4_block_agg V c agg hagg t p q ⟨t.val * 10000 + p.val, hr⟩ rfl)
    (combine4_block_b V c bb hbb t p q ⟨t.val * 10000 + p.val, hr⟩ rfl)
    (combine4_block_indeg V c indeg hin t p ⟨t.val * 10000 + p.val, hr⟩ rfl)

/-- An index of the array is in point t's block iff each coordinate is in the block's range on its axis. -/
theorem combine4_mem_blk (t : Fin cfg4.N) (i : S100000x64.Idx) :
    i ∈ ((cfg4.win 6).blk t).view.set ↔ ∀ a : Fin 2, win4_6.index t a * S10000x64.size a ≤ (i a).val ∧ (i a).val < win4_6.index t a * S10000x64.size a + S10000x64.size a := by
  show i ∈ ((View.whole main_v63).slice (win4_6.rect t)).set ↔ _
  rw [View.set_slice_whole, Rect.mem_set_unit]
  exact Iff.rfl

/-- Row r is in the block of point r / 10000: the blocks cover the array. -/
theorem combine4_cover (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  have hN : grid4.N = 10 := N_4
  have hlt : (i 0).val / 10000 < grid4.N := by rw [hN]; omega
  obtain ⟨e0, e1⟩ := (combine4_index_facts ⟨(i 0).val / 10000, hlt⟩).2.2.2.2.2.2
  refine ⟨⟨(i 0).val / 10000, hlt⟩, flush4_6 _, ?_⟩
  rw [combine4_mem_blk]
  intro a
  match a with
  | ⟨0, _⟩ =>
    show win4_6.index ⟨(i 0).val / 10000, hlt⟩ 0 * 10000 ≤ (i 0).val ∧ (i 0).val < win4_6.index ⟨(i 0).val / 10000, hlt⟩ 0 * 10000 + 10000
    rw [e0]
    show (i 0).val / 10000 * 10000 ≤ (i 0).val ∧ (i 0).val < (i 0).val / 10000 * 10000 + 10000
    omega
  | ⟨1, _⟩ =>
    show win4_6.index ⟨(i 0).val / 10000, hlt⟩ 1 * 64 ≤ (i 1).val ∧ (i 1).val < win4_6.index ⟨(i 0).val / 10000, hlt⟩ 1 * 64 + 64
    rw [e1]
    omega

/-- The output array after the region: the combining step's function of the arrays the region is entered with. -/
theorem final4_6 (c : Dev nD) (h agg bb : S100000x64.Idx → EReal) (indeg : S100000x1.Idx → EReal) (W3 : S64x64.Idx → EReal) (b3 : S1x64.Idx → EReal)
    (hh : V c main_v36 = h) (hagg : V c main_v57 = agg) (hbb : V c main_v44_1 = bb) (hin : V c main_v9 = indeg) (hW3 : V c main_v59 = W3) (hb3 : V c main_v62 = b3) :
    (dat4 (F := Ideal) V c).arrAt 6 cfg4.N = ofFn2 (combineF h agg bb indeg W3 b3) :=
  (dat4 (F := Ideal) V c).arrAt_eq_of_cover 6 (ofFn2 (combineF h agg bb indeg W3 b3))
    (fun t _ => combine4_flushed_eq V c h agg bb indeg W3 b3 hh hagg hbb hin hW3 hb3 t) combine4_cover

end Cert.KernelIdeal.Val

end
-- ==== Proof.KernelValue.lean ====
/-
  The program with the five regions, run from any memory, ends with its result array holding the network written
  with the subtraction taken out of the edge sums (`netK`) of its argument arrays, and the arguments unchanged: the
  run with the result named at the last boundary of the fold, the fold read back to the program's dataflow term,
  and that term read index by index.
-/
import proofs.«131890_j77223511982150_1_alg».proof.Proof.KernelRun
import proofs.«131890_j77223511982150_1_alg».proof.Proof.KernelFold
import proofs.«131890_j77223511982150_1_alg».proof.Proof.KernelRead
import proofs.«131890_j77223511982150_1_alg».proof.Proof.Region0
import proofs.«131890_j77223511982150_1_alg».proof.Proof.Region1
import proofs.«131890_j77223511982150_1_alg».proof.Proof.Region2
import proofs.«131890_j77223511982150_1_alg».proof.Proof.Region3
import proofs.«131890_j77223511982150_1_alg».proof.Proof.Region4

noncomputable section

namespace Cert.KernelIdeal.Val

open Cert.KernelIdeal Cert.KernelIdeal.Gen Cert.LeGnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result buffer at the last boundary of the fold is the network of the launch arrays. -/
theorem result_eq (c : Dev nD) :
    W10 (F := Ideal) m ρ c (Proc.devRef .tc main_v63) = ofFn2 (netK (aX m c) (aEI m c) (aW m c) (aWemb m c) (aBemb m c) (aW1 m c) (aB1 m c) (aW2 m c) (aW3 m c) (aB3 m c)) :=
  (fold_eq (fun V c x W b hx hW hb => final0 V c x W b hx hW hb)
      (fun V c h W1 b1 W2 hh hW1 hb1 hW2 => final1_4 V c h W1 b1 W2 hh hW1 hb1 hW2)
      (fun V c h W1 b1 W2 hh hW1 hb1 hW2 => final1_5 V c h W1 b1 W2 hh hW1 hb1 hW2)
      (fun V c h agg bb indeg W3 b3 hh hagg hbb hin hW3 hb3 => final2_6 V c h agg bb indeg W3 b3 hh hagg hbb hin hW3 hb3)
      (fun V c h W1 b1 W2 hh hW1 hb1 hW2 => final3_4 V c h W1 b1 W2 hh hW1 hb1 hW2)
      (fun V c h W1 b1 W2 hh hW1 hb1 hW2 => final3_5 V c h W1 b1 W2 hh hW1 hb1 hW2)
      (fun V c h agg bb indeg W3 b3 hh hagg hbb hin hW3 hb3 => final4_6 V c h agg bb indeg W3 b3 hh hagg hbb hin hW3 hb3)
      m ρ c).trans (kTerm_eq m c)

/-- Every weakly fair execution ends with the result at the network of the arguments, the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v63) = ofFn2 (netK (aX m c) (aEI m c) (aW m c) (aWemb m c) (aBemb m c) (aW1 m c) (aB1 m c) (aW2 m c) (aW3 m c) (aB3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨(h c).1.trans (result_eq m ρ c), (h c).2⟩)
    (Cert.KernelIdeal.Gen.run_named (F := Ideal) m ρ)

end Cert.KernelIdeal.Val

end
-- ==== Proof.RefDot.lean ====
/-
  The reference's two matrix products at the ideal values, read at an index.

  With one contracted axis (the left operand's columns against the right operand's rows) the product of an
  [n, K] table and a [K, 64] table, read at (n, f), is the plain sum over the contracted coordinate q of the left
  operand at (n, q) times the right operand at (q, f); for arbitrary operands, K = 128 and K = 64.
-/
import proofs.«131890_j77223511982150_1_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The [100000, 128] by [128, 64] product at (n, f): the sum over the 128 contracted coordinates. -/
theorem dg128_apply (x : FVec Ideal S100000x128 .f32) (W : FVec Ideal S128x64 .f32) (n : Fin 100000) (f : Fin 64) :
    Host.dotGeneral dot_S100000x128_S128x64_S100000x64_1_0_0_1_n_n none x W (ix2 n f)
      = ∑ q : Fin 128, x (ix2 n q) * W (ix2 q f) := by
  simp only [Host.dotGeneral]
  rw [Ideal.dotGeneral_apply,
    ← Equiv.sum_comp (contrEquiv1 dot_S100000x128_S128x64_S100000x64_1_0_0_1_n_n 128 rfl rfl).symm]
  refine Finset.sum_congr rfl fun q _ => ?_
  -- the contraction position whose one coordinate is q
  have hq := contrEquiv1_symm_val dot_S100000x128_S128x64_S100000x64_1_0_0_1_n_n 128 rfl rfl q
  -- the left index: the result's row on axis 0, the contracted coordinate on axis 1
  have el : dot_S100000x128_S128x64_S100000x64_1_0_0_1_n_n.lhsIdx (ix2 n f)
      ((contrEquiv1 dot_S100000x128_S128x64_S100000x64_1_0_0_1_n_n 128 rfl rfl).symm q) = ix2 n q :=
    funext fun a => Fin.ext (by
      match a with
      | ⟨0, _⟩ => exact Read.lhs_main_v0_0 _ _
      | ⟨1, _⟩ => exact (Read.lhs_main_v0_1 _ _).trans hq)
  -- the right index: the contracted coordinate on axis 0, the result's column on axis 1
  have er : dot_S100000x128_S128x64_S100000x64_1_0_0_1_n_n.rhsIdx (ix2 n f)
      ((contrEquiv1 dot_S100000x128_S128x64_S100000x64_1_0_0_1_n_n 128 rfl rfl).symm q) = ix2 q f :=
    funext fun a => Fin.ext (by
      match a with
      | ⟨0, _⟩ => exact (Read.rhs_main_v0_0 _ _).trans hq
      | ⟨1, _⟩ => exact Read.rhs_main_v0_1 _ _)
  rw [el, er]

/-- The [100000, 64] by [64, 64] product at (n, f): the sum over the 64 contracted coordinates. -/
theorem dg64_apply (h : FVec Ideal S100000x64 .f32) (W : FVec Ideal S64x64 .f32) (n : Fin 100000) (f : Fin 64) :
    Host.dotGeneral dot_S100000x64_S64x64_S100000x64_1_0_0_1_n_n none h W (ix2 n f)
      = ∑ q : Fin 64, h (ix2 n q) * W (ix2 q f) := by
  simp only [Host.dotGeneral]
  rw [Ideal.dotGeneral_apply,
    ← Equiv.sum_comp (contrEquiv1 dot_S100000x64_S64x64_S100000x64_1_0_0_1_n_n 64 rfl rfl).symm]
  refine Finset.sum_congr rfl fun q _ => ?_
  -- the contraction position whose one coordinate is q
  have hq := contrEquiv1_symm_val dot_S100000x64_S64x64_S100000x64_1_0_0_1_n_n 64 rfl rfl q
  -- the left index: the result's row on axis 0, the contracted coordinate on axis 1
  have el : dot_S100000x64_S64x64_S100000x64_1_0_0_1_n_n.lhsIdx (ix2 n f)
      ((contrEquiv1 dot_S100000x64_S64x64_S100000x64_1_0_0_1_n_n 64 rfl rfl).symm q) = ix2 n q :=
    funext fun a => Fin.ext (by
      match a with
      | ⟨0, _⟩ => exact Read.lhs_main_v11_0 _ _
      | ⟨1, _⟩ => exact (Read.lhs_main_v11_1 _ _).trans hq)
  -- the right index: the contracted coordinate on axis 0, the result's column on axis 1
  have er : dot_S100000x64_S64x64_S100000x64_1_0_0_1_n_n.rhsIdx (ix2 n f)
      ((contrEquiv1 dot_S100000x64_S64x64_S100000x64_1_0_0_1_n_n 64 rfl rfl).symm q) = ix2 q f :=
    funext fun a => Fin.ext (by
      match a with
      | ⟨0, _⟩ => exact (Read.rhs_main_v11_0 _ _).trans hq
      | ⟨1, _⟩ => exact Read.rhs_main_v11_1 _ _)
  rw [el, er]

end Cert.ReferenceIdeal.RefValue

end
-- ==== Proof.RefRead.lean ====
/-
  The reference network read index by index.

  The reference program computes an embedding and two layers. A layer takes the current features h and, from
  already-sliced parameters, forms a = h·W1 + b1 and b = h·W2, reads row src(e) of a and row dst(e) of b for every
  edge e (an index word made non-negative first, then held inside the node range), multiplies the difference by
  the edge's weight, adds the products into the rows named by the raw target words, adds h·W3 and b3, and keeps the
  positive part. Read at a node n and a feature f this is the layer written over the extended reals with the
  subtraction inside the edge sum.
-/
import proofs.«131890_j77223511982150_1_alg».proof.Proof.Gen.ReferenceIdeal.Run
import proofs.«131890_j77223511982150_1_alg».proof.Proof.Gen.ReferenceIdeal.Read
import proofs.«131890_j77223511982150_1_alg».proof.Proof.Spec
import proofs.«131890_j77223511982150_1_alg».proof.Proof.LibSlices
import proofs.«131890_j77223511982150_1_alg».proof.Proof.LibRowOps
import proofs.«131890_j77223511982150_1_alg».proof.Proof.RefDot
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.LeGnn Idealize.ShloMosaic Idealize.ShloMosaic.TcCoe
  Idealize.ShloMosaic.ValueIdx Idealize.SL.Sem

/-- The embedding: the inputs against the embedding matrix, plus the bias row on every node. -/
def refEmbedT (x : FVec Ideal S100000x128 .f32) (Wemb : FVec Ideal S128x64 .f32) (bemb : FVec Ideal S64 .f32) :
    FVec Ideal S100000x64 .f32 :=
  addf (Host.dotGeneral dot_S100000x128_S128x64_S100000x64_1_0_0_1_n_n none x Wemb)
    (broadcastInDim S100000x64 ![0, 1] bcast_S1x64_S100000x64_0_1 (broadcastInDim S1x64 ![1] bcast_S64_S1x64_1 bemb))

/-- One layer on arrays: the features h, the layer's matrices and bias vectors, the source and target words of the
    edges and the edge weights. -/
def refLayerT (h : FVec Ideal S100000x64 .f32) (W1 : FVec Ideal S64x64 .f32) (b1 : FVec Ideal S64 .f32)
    (W2 W3 : FVec Ideal S64x64 .f32) (b3 : FVec Ideal S64 .f32) (srcv dstv : IVec S1600000 32)
    (w : FVec Ideal S1600000 .f32) : FVec Ideal S100000x64 .f32 :=
  maximumf (addf (addf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dstv)
      (mulf (subf
          (Host.gather gather_S100000x64_S1600000x1_S1600000x64_1_0_n_n_0_1_164
            (addf (Host.dotGeneral dot_S100000x64_S64x64_S100000x64_1_0_0_1_n_n none h W1)
              (broadcastInDim S100000x64 ![0, 1] bcast_S1x64_S100000x64_0_1 (broadcastInDim S1x64 ![1] bcast_S64_S1x64_1 b1)))
            (broadcastInDim S1600000x1 ![0] bcast_S1600000_S1600000x1_0
              (select (cmpi .slt srcv (broadcastInDim S1600000 ![] bcast_S_S1600000 (constantI S_ 32 0#32)))
                (addi srcv (broadcastInDim S1600000 ![] bcast_S_S1600000 (constantI S_ 32 100000#32))) srcv)))
          (Host.gather gather_S100000x64_S1600000x1_S1600000x64_1_0_n_n_0_1_164
            (Host.dotGeneral dot_S100000x64_S64x64_S100000x64_1_0_0_1_n_n none h W2)
            (broadcastInDim S1600000x1 ![0] bcast_S1600000_S1600000x1_0
              (select (cmpi .slt dstv (broadcastInDim S1600000 ![] bcast_S_S1600000 (constantI S_ 32 0#32)))
                (addi dstv (broadcastInDim S1600000 ![] bcast_S_S1600000 (constantI S_ 32 100000#32))) dstv))))
        (broadcastInDim S1600000x64 ![0, 1] bcast_S1600000x1_S1600000x64_0_1
          (broadcastInDim S1600000x1 ![0] bcast_S1600000_S1600000x1_0 w))))
      (Host.dotGeneral dot_S100000x64_S64x64_S100000x64_1_0_0_1_n_n none h W3))
      (broadcastInDim S100000x64 ![0, 1] bcast_S1x64_S100000x64_0_1 (broadcastInDim S1x64 ![1] bcast_S64_S1x64_1 b3)))
    (broadcastInDim S100000x64 ![] bcast_S_S100000x64 (constant S_ .f32 0x00000000#32))

/-- Layer l's matrix of a stacked [2, 64, 64] array. -/
abbrev matT0 (a : FVec Ideal S2x64x64 .f32) : FVec Ideal S64x64 .f32 :=
  shapeCast _ (extractStridedSlice S1x64x64 ![0, 0, 0] a slices_S2x64x64_S1x64x64_0_0_0) shapeCasts_S1x64x64_S64x64
abbrev matT1 (a : FVec Ideal S2x64x64 .f32) : FVec Ideal S64x64 .f32 :=
  shapeCast _ (extractStridedSlice S1x64x64 ![1, 0, 0] a slices_S2x64x64_S1x64x64_1_0_0) shapeCasts_S1x64x64_S64x64
/-- Layer l's row of a stacked [2, 64] array. -/
abbrev rowT0 (a : FVec Ideal S2x64 .f32) : FVec Ideal S64 .f32 :=
  shapeCast _ (extractStridedSlice S1x64 ![0, 0] a slices_S2x64_S1x64_0_0) shapeCasts_S1x64_S64
abbrev rowT1 (a : FVec Ideal S2x64 .f32) : FVec Ideal S64 .f32 :=
  shapeCast _ (extractStridedSlice S1x64 ![1, 0] a slices_S2x64_S1x64_1_0) shapeCasts_S1x64_S64
/-- The two rows of the edge list. -/
abbrev srcT (ei : IVec S2x1600000 32) : IVec S1600000 32 :=
  shapeCast _ (extractStridedSlice S1x1600000 ![0, 0] ei slices_S2x1600000_S1x1600000_0_0) shapeCasts_S1x1600000_S1600000
abbrev dstT (ei : IVec S2x1600000 32) : IVec S1600000 32 :=
  shapeCast _ (extractStridedSlice S1x1600000 ![1, 0] ei slices_S2x1600000_S1x1600000_1_0) shapeCasts_S1x1600000_S1600000

set_option maxRecDepth 8192 in
/-- The program's result is the embedding followed by the two layers on the sliced parameters. -/
theorem res_eq_layers (m : (ℓ : Loc nD τ sig) → Buf (Elt Ideal) ℓ) (c : Dev nD) :
    Cert.ReferenceIdeal.Value.res_main_v90 (F := Ideal) m c
      = refLayerT
          (refLayerT
            (refEmbedT (m ((c.tc : Thread nD τ).loc main_arg0)) (m ((c.tc : Thread nD τ).loc main_arg4)) (m ((c.tc : Thread nD τ).loc main_arg5)))
            (matT0 (m ((c.tc : Thread nD τ).loc main_arg6))) (rowT0 (m ((c.tc : Thread nD τ).loc main_arg7)))
            (matT0 (m ((c.tc : Thread nD τ).loc main_arg8))) (matT0 (m ((c.tc : Thread nD τ).loc main_arg9)))
            (rowT0 (m ((c.tc : Thread nD τ).loc main_arg10)))
            (srcT (m ((c.tc : Thread nD τ).loc main_arg1))) (dstT (m ((c.tc : Thread nD τ).loc main_arg1)))
            (m ((c.tc : Thread nD τ).loc main_arg2)))
          (matT1 (m ((c.tc : Thread nD τ).loc main_arg6))) (rowT1 (m ((c.tc : Thread nD τ).loc main_arg7)))
          (matT1 (m ((c.tc : Thread nD τ).loc main_arg8))) (matT1 (m ((c.tc : Thread nD τ).loc main_arg9)))
          (rowT1 (m ((c.tc : Thread nD τ).loc main_arg10)))
          (srcT (m ((c.tc : Thread nD τ).loc main_arg1))) (dstT (m ((c.tc : Thread nD τ).loc main_arg1)))
          (m ((c.tc : Thread nD τ).loc main_arg2)) := by
  unfold Cert.ReferenceIdeal.Value.res_main_v90 refLayerT refEmbedT
  rfl

/-! ## The pieces of a layer read at an index -/

/-- The zero table: the scalar 0 on every node and feature. -/
theorem zeroT_apply (i : S100000x64.Idx) :
    broadcastInDim S100000x64 ![] bcast_S_S100000x64 (constant (F := Ideal) S_ .f32 0x00000000#32) i = (0 : EReal) :=
  (Cert.LibSlices.bcast_scalar_apply _ bcast_S_S100000x64 i).trans Ideal.ofBits_zero_f32

/-- A bias vector laid on every node: at (n, f), the vector at f. -/
theorem biasT_apply (b : FVec Ideal S64 .f32) (n : Fin 100000) (f : Fin 64) :
    broadcastInDim S100000x64 ![0, 1] bcast_S1x64_S100000x64_0_1 (broadcastInDim S1x64 ![1] bcast_S64_S1x64_1 b) (ix2 n f)
      = b (ix1 f) :=
  (Cert.LibSlices.bcast_row_apply _ bcast_S1x64_S100000x64_0_1 n f).trans
    (Cert.LibSlices.bcast_vec_row_apply b bcast_S64_S1x64_1 f)

/-- The edge weights laid across the features: at (e, f), the weight of e. -/
theorem wT_apply (w : FVec Ideal S1600000 .f32) (e : Fin 1600000) (f : Fin 64) :
    broadcastInDim S1600000x64 ![0, 1] bcast_S1600000x1_S1600000x64_0_1
        (broadcastInDim S1600000x1 ![0] bcast_S1600000_S1600000x1_0 w) (ix2 e f)
      = w (ix1 e) :=
  (Cert.LibSlices.bcast_col_apply _ bcast_S1600000x1_S1600000x64_0_1 e f).trans
    (Cert.LibSlices.bcast_vec_col_apply w bcast_S1600000_S1600000x1_0 e)

/-- The index words as a column: at (e, 0), the word of e. -/
theorem colT_apply (v : IVec S1600000 32) (e : Fin 1600000) :
    broadcastInDim S1600000x1 ![0] bcast_S1600000_S1600000x1_0 v (ix2 e (0 : Fin 1)) = v (ix1 e) :=
  Cert.LibSlices.bcast_vec_col_apply v bcast_S1600000_S1600000x1_0 e

/-- The index words made non-negative, at an edge: the word of the edge, made non-negative. -/
theorem wrapT_apply (v : IVec S1600000 32) (e : Fin 1600000) :
    (select (cmpi .slt v (broadcastInDim S1600000 ![] bcast_S_S1600000 (constantI S_ 32 0#32)))
        (addi v (broadcastInDim S1600000 ![] bcast_S_S1600000 (constantI S_ 32 100000#32))) v) (ix1 e)
      = wrapIx (v (ix1 e)) := by
  have h0 : broadcastInDim S1600000 ![] bcast_S_S1600000 (constantI S_ 32 0#32) (ix1 e) = 0#32 :=
    Cert.LibSlices.bcast_scalar_apply _ bcast_S_S1600000 _
  have h1 : broadcastInDim S1600000 ![] bcast_S_S1600000 (constantI S_ 32 100000#32) (ix1 e) = 100000#32 :=
    Cert.LibSlices.bcast_scalar_apply _ bcast_S_S1600000 _
  show Scalar.select (IntOp.cmpi .slt (v (ix1 e)) (broadcastInDim S1600000 ![] bcast_S_S1600000 (constantI S_ 32 0#32) (ix1 e)))
      (IntOp.addi (v (ix1 e)) (broadcastInDim S1600000 ![] bcast_S_S1600000 (constantI S_ 32 100000#32) (ix1 e))) (v (ix1 e)) = _
  rw [h0, h1]
  rfl

/-- The program's gather is the row gather. -/
theorem gather_eq : gather_S100000x64_S1600000x1_S1600000x64_1_0_n_n_0_1_164
    = Cert.RowOps.rowGatherDims 100000 1600000 64 gather_S100000x64_S1600000x1_S1600000x64_1_0_n_n_0_1_164_wf := rfl

/-- The program's scatter is the scatter into rows. -/
theorem scatter_eq : scatter_S100000x64_S1600000x1_S1600000x64_1_0_0_1
    = Cert.RowOps.rowScatterDims 100000 1600000 64 scatter_S100000x64_S1600000x1_S1600000x64_1_0_0_1_wf := rfl

/-- A table gathered at the non-negative index words, at (e, f): the table's row for the word of e, at f. -/
theorem gatherT_apply (x : FVec Ideal S100000x64 .f32) (v : IVec S1600000 32) (e : Fin 1600000) (f : Fin 64) :
    Host.gather gather_S100000x64_S1600000x1_S1600000x64_1_0_n_n_0_1_164 x
        (broadcastInDim S1600000x1 ![0] bcast_S1600000_S1600000x1_0
          (select (cmpi .slt v (broadcastInDim S1600000 ![] bcast_S_S1600000 (constantI S_ 32 0#32)))
            (addi v (broadcastInDim S1600000 ![] bcast_S_S1600000 (constantI S_ 32 100000#32))) v)) (ix2 e f)
      = x (ix2 (rowOf (wrapIx (v (ix1 e)))) f) := by
  rw [gather_eq, Cert.RowOps.gather_rows_apply (by decide)]
  refine congrArg (fun r : Fin 100000 => x (ix2 r f)) (Fin.ext ?_)
  show min (_ : BitVec 32).toInt.toNat (100000 - 1) = min (wrapIx (v (ix1 e))).toInt.toNat (100000 - 1)
  rw [colT_apply, wrapT_apply]

/-! ## A layer read at a node and a feature -/

/-- The array-level layer is the layer over the extended reals with the subtraction inside the edge sum. -/
theorem refLayerT_read (h : FVec Ideal S100000x64 .f32) (W1 : FVec Ideal S64x64 .f32) (b1 : FVec Ideal S64 .f32)
    (W2 W3 : FVec Ideal S64x64 .f32) (b3 : FVec Ideal S64 .f32) (srcv dstv : IVec S1600000 32)
    (w : FVec Ideal S1600000 .f32) :
    refLayerT h W1 b1 W2 W3 b3 srcv dstv w
      = ofFn2 (layerR (fun e => srcv (ix1 e)) (fun e => dstv (ix1 e)) (fun e => w (ix1 e)) (toFn2 W1)
          (fun f => b1 (ix1 f)) (toFn2 W2) (toFn2 W3) (fun f => b3 (ix1 f)) (toFn2 h)) := by
  refine ext2 fun n f => ?_
  rw [ofFn2_ix2]
  unfold refLayerT
  rw [maximumf_apply, addf_apply, addf_apply, zeroT_apply, biasT_apply, dg64_apply, scatter_eq,
    Cert.RowOps.scatterAdd_rows_apply, zeroT_apply, zero_add]
  have hsum : (∑ e ∈ Finset.univ.filter (fun e : Fin 1600000 =>
        (broadcastInDim S1600000x1 ![0] bcast_S1600000_S1600000x1_0 dstv (ix2 e (0 : Fin 1))).toInt = (n.val : ℤ)),
        mulf (subf
          (Host.gather gather_S100000x64_S1600000x1_S1600000x64_1_0_n_n_0_1_164
            (addf (Host.dotGeneral dot_S100000x64_S64x64_S100000x64_1_0_0_1_n_n none h W1)
              (broadcastInDim S100000x64 ![0, 1] bcast_S1x64_S100000x64_0_1 (broadcastInDim S1x64 ![1] bcast_S64_S1x64_1 b1)))
            (broadcastInDim S1600000x1 ![0] bcast_S1600000_S1600000x1_0
              (select (cmpi .slt srcv (broadcastInDim S1600000 ![] bcast_S_S1600000 (constantI S_ 32 0#32)))
                (addi srcv (broadcastInDim S1600000 ![] bcast_S_S1600000 (constantI S_ 32 100000#32))) srcv)))
          (Host.gather gather_S100000x64_S1600000x1_S1600000x64_1_0_n_n_0_1_164
            (Host.dotGeneral dot_S100000x64_S64x64_S100000x64_1_0_0_1_n_n none h W2)
            (broadcastInDim S1600000x1 ![0] bcast_S1600000_S1600000x1_0
              (select (cmpi .slt dstv (broadcastInDim S1600000 ![] bcast_S_S1600000 (constantI S_ 32 0#32)))
                (addi dstv (broadcastInDim S1600000 ![] bcast_S_S1600000 (constantI S_ 32 100000#32))) dstv))))
        (broadcastInDim S1600000x64 ![0, 1] bcast_S1600000x1_S1600000x64_0_1
          (broadcastInDim S1600000x1 ![0] bcast_S1600000_S1600000x1_0 w)) (ix2 e f))
      = ∑ e ∈ inEdges (fun e => dstv (ix1 e)) n,
          (lin (toFn2 h) (toFn2 W1) (fun f => b1 (ix1 f)) (rowOf (wrapIx (srcv (ix1 e)))) f
            - lin0 (toFn2 h) (toFn2 W2) (rowOf (wrapIx (dstv (ix1 e)))) f) * w (ix1 e) := by
    refine Finset.sum_congr (Finset.filter_congr fun e _ => by rw [colT_apply]) fun e _ => ?_
    rw [mulf_apply, subf_apply, gatherT_apply, gatherT_apply, wT_apply, addf_apply, dg64_apply, dg64_apply, biasT_apply]
    rfl
  rw [hsum]
  rfl

/-! ## The embedding and the parameter slices -/

/-- The embedding is the affine image of the inputs. -/
theorem refEmbedT_read (x : FVec Ideal S100000x128 .f32) (Wemb : FVec Ideal S128x64 .f32) (bemb : FVec Ideal S64 .f32) :
    refEmbedT x Wemb bemb = ofFn2 (lin (toFn2 x) (toFn2 Wemb) (vecOf bemb)) := by
  refine ext2 fun n f => ?_
  rw [ofFn2_ix2]
  unfold refEmbedT
  rw [addf_apply, dg128_apply, biasT_apply]
  rfl

theorem matT0_read (a : FVec Ideal S2x64x64 .f32) : toFn2 (matT0 a) = matOf a 0 :=
  funext fun q => funext fun f =>
    Cert.LibSlices.slice_mat_apply a 0 (by decide) slices_S2x64x64_S1x64x64_0_0_0 shapeCasts_S1x64x64_S64x64 q f

theorem matT1_read (a : FVec Ideal S2x64x64 .f32) : toFn2 (matT1 a) = matOf a 1 :=
  funext fun q => funext fun f =>
    Cert.LibSlices.slice_mat_apply a 1 (by decide) slices_S2x64x64_S1x64x64_1_0_0 shapeCasts_S1x64x64_S64x64 q f

theorem rowT0_read (a : FVec Ideal S2x64 .f32) : (fun f => rowT0 a (ix1 f)) = rowOfArr a 0 :=
  funext fun f => Cert.LibSlices.slice_row_apply a 0 (by decide) slices_S2x64_S1x64_0_0 shapeCasts_S1x64_S64 f

theorem rowT1_read (a : FVec Ideal S2x64 .f32) : (fun f => rowT1 a (ix1 f)) = rowOfArr a 1 :=
  funext fun f => Cert.LibSlices.slice_row_apply a 1 (by decide) slices_S2x64_S1x64_1_0 shapeCasts_S1x64_S64 f

theorem srcT_read (ei : IVec S2x1600000 32) : (fun e => srcT ei (ix1 e)) = srcOf ei :=
  funext fun e =>
    Cert.LibSlices.slice_row_apply ei 0 (by decide) slices_S2x1600000_S1x1600000_0_0 shapeCasts_S1x1600000_S1600000 e

theorem dstT_read (ei : IVec S2x1600000 32) : (fun e => dstT ei (ix1 e)) = dstOf ei :=
  funext fun e =>
    Cert.LibSlices.slice_row_apply ei 1 (by decide) slices_S2x1600000_S1x1600000_1_0 shapeCasts_S1x1600000_S1600000 e

/-! ## The network -/

/-- The reference program's result is the network with the subtraction inside the edge sums, of the argument arrays. -/
theorem ref_value (m : (ℓ : Loc nD τ sig) → Buf (Elt Ideal) ℓ) (c : Dev nD) :
    Cert.ReferenceIdeal.Value.res_main_v90 (F := Ideal) m c
      = ofFn2 (netR (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10))) := by
  rw [res_eq_layers, refLayerT_read, refLayerT_read, refEmbedT_read, toFn2_ofFn2, toFn2_ofFn2,
    matT0_read, matT0_read, matT0_read, matT1_read, matT1_read, matT1_read,
    rowT0_read, rowT0_read, rowT1_read, rowT1_read, srcT_read, dstT_read]
  rfl

end Cert.ReferenceIdeal.RefValue

end
-- ==== Proof.LibRealSums.lean ====
/-
  Finite sums of real numbers inside the extended reals.

  The inclusion of the reals in the extended reals keeps sums, differences, products and maxima, so a finite
  combination of real entries is again real; and where every term is real, a product distributes over a finite
  sum exactly as it does on the reals (on the extended reals at large it does not: an infinite factor against
  terms of both signs breaks it).
-/
import Mathlib.Data.EReal.Operations
import Mathlib.Algebra.BigOperators.Group.Finset.Basic
import Mathlib.Algebra.BigOperators.Ring.Finset
import Mathlib.Tactic.Ring

open scoped BigOperators

namespace Cert.RealSums

/-- The inclusion of the reals keeps finite sums. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A finite sum of real entries is real. -/
theorem exists_real_sum {ι : Type*} (s : Finset ι) (g : ι → EReal)
    (hg : ∀ i ∈ s, ∃ r : ℝ, g i = (r : EReal)) : ∃ r : ℝ, ∑ i ∈ s, g i = (r : EReal) := by
  induction s using Finset.cons_induction with
  | empty => exact ⟨0, by simp⟩
  | cons a s ha ih =>
    obtain ⟨ra, hra⟩ := hg a (Finset.mem_cons_self a s)
    obtain ⟨rs, hrs⟩ := ih fun i hi => hg i (Finset.mem_cons.mpr (Or.inr hi))
    exact ⟨ra + rs, by rw [Finset.sum_cons, hra, hrs, EReal.coe_add]⟩

/-- The sum of two reals is real. -/
theorem exists_real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The product of two reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The positive part of a real is real. -/
theorem exists_real_max_zero {x : EReal} (hx : ∃ r : ℝ, x = (r : EReal)) :
    ∃ r : ℝ, max x 0 = (r : EReal) := by
  obtain ⟨a, rfl⟩ := hx
  rcases le_total (a : EReal) 0 with h | h
  · exact ⟨0, by rw [max_eq_right h, EReal.coe_zero]⟩
  · exact ⟨a, max_eq_left h⟩

/-- Over real terms, taking a fixed real off every term before weighting equals weighting first and taking off
    the fixed real times the summed weights. -/
theorem sum_sub_mul {ι : Type*} (s : Finset ι) (g ω : ι → EReal) (β : EReal)
    (hg : ∀ i ∈ s, ∃ r : ℝ, g i = (r : EReal)) (hω : ∀ i ∈ s, ∃ r : ℝ, ω i = (r : EReal))
    (hβ : ∃ r : ℝ, β = (r : EReal)) :
    ∑ i ∈ s, (g i - β) * ω i = (∑ i ∈ s, g i * ω i) - β * ∑ i ∈ s, ω i := by
  obtain ⟨b, rfl⟩ := hβ
  induction s using Finset.cons_induction with
  | empty => simp
  | cons a s ha ih =>
    obtain ⟨ga, hga⟩ := hg a (Finset.mem_cons_self a s)
    obtain ⟨wa, hwa⟩ := hω a (Finset.mem_cons_self a s)
    have hg' : ∀ i ∈ s, ∃ r : ℝ, g i = (r : EReal) := fun i hi => hg i (Finset.mem_cons.mpr (Or.inr hi))
    have hω' : ∀ i ∈ s, ∃ r : ℝ, ω i = (r : EReal) := fun i hi => hω i (Finset.mem_cons.mpr (Or.inr hi))
    obtain ⟨p, hp⟩ := exists_real_sum s (fun i => g i * ω i) fun i hi => exists_real_mul (hg' i hi) (hω' i hi)
    obtain ⟨q, hq⟩ := exists_real_sum s ω hω'
    rw [Finset.sum_cons, Finset.sum_cons, Finset.sum_cons, ih hg' hω', hp, hq, hga, hwa]
    simp only [← EReal.coe_mul, ← EReal.coe_sub, ← EReal.coe_add]
    congr 1
    ring

end Cert.RealSums
-- ==== Proof.Layer.lean ====
/-
  The two forms of a graph-convolution layer agree on real entries.

  For an edge `e` that ends at node `n` the target word, read as a signed integer, is `n`; it is non-negative, so
  making it non-negative leaves it alone, and it is below the node count, so holding it inside the node range
  leaves it alone: the target row of such an edge is `n` itself. The edge sum of `(a[src e] − b[n]) · w e` is then
  the edge sum of `a[src e] · w e` less `b[n]` times the summed weights, because every term is a real number. The
  rest of the two forms differs by associativity of addition only. Real entries stay real through a layer, so the
  argument repeats for the second layer.
-/
import proofs.«131890_j77223511982150_1_alg».proof.Proof.Spec
import proofs.«131890_j77223511982150_1_alg».proof.Proof.LibRealSums

noncomputable section

open scoped BigOperators

namespace Cert.LeGnn

open Idealize.ShloMosaic Idealize.ShloMosaic.ValueIdx
open Cert.RealSums

/-- A word whose signed value is the node `n` reads row `n`: it is not negative, so it is not moved up, and it is
    below the node count, so it is not clamped. -/
theorem rowOf_wrapIx_of_toInt_eq (x : BitVec 32) (n : Fin 100000) (h : x.toInt = (n.val : ℤ)) :
    rowOf (wrapIx x) = n := by
  have hslt : x.slt 0#32 = false := by
    have h0 : ¬ (x.toInt < 0) := by omega
    simpa [BitVec.slt] using h0
  have hw : wrapIx x = x := by
    simp [wrapIx, Scalar.select, IntOp.cmpi, hslt]
  rw [hw]
  apply Fin.ext
  have hn := n.isLt
  simp only [rowOf, h, Int.toNat_natCast]
  omega

/-- Every edge that ends at `n` has target row `n`. -/
theorem rowOf_dst_of_mem (dst : EdgeIx) (n : Fin 100000) (e : Fin 1600000) (he : e ∈ inEdges dst n) :
    rowOf (wrapIx (dst e)) = n :=
  rowOf_wrapIx_of_toInt_eq (dst e) n (Finset.mem_filter.mp he).2

/-- The linear image of real features under a real matrix is real. -/
theorem lin0_real {K : Nat} (h : Feat K) (W : Mat K) (hh : Real2 h) (hW : Real2 W) : Real2 (lin0 h W) :=
  fun n f => exists_real_sum Finset.univ (fun q => h n q * W q f) fun q _ => exists_real_mul (hh n q) (hW q f)

/-- The affine image of real features under a real matrix and a real bias is real. -/
theorem lin_real {K : Nat} (h : Feat K) (W : Mat K) (b : Row) (hh : Real2 h) (hW : Real2 W) (hb : Real1 b) :
    Real2 (lin h W b) :=
  fun n f => exists_real_add (lin0_real h W hh hW n f) (hb f)

/-- The edge sums of the two forms agree at every node and feature. -/
theorem edgeSum_eq (src dst : EdgeIx) (w : EdgeW) (a b : Feat 64) (ha : Real2 a) (hb : Real2 b) (hw : Real1 w)
    (n : Fin 100000) (f : Fin 64) :
    ∑ e ∈ inEdges dst n, (a (rowOf (wrapIx (src e))) f - b (rowOf (wrapIx (dst e))) f) * w e
      = (∑ e ∈ inEdges dst n, a (rowOf (wrapIx (src e))) f * w e) - b n f * ∑ e ∈ inEdges dst n, w e := by
  have hcongr : ∑ e ∈ inEdges dst n, (a (rowOf (wrapIx (src e))) f - b (rowOf (wrapIx (dst e))) f) * w e
      = ∑ e ∈ inEdges dst n, (a (rowOf (wrapIx (src e))) f - b n f) * w e :=
    Finset.sum_congr rfl fun e he => by rw [rowOf_dst_of_mem dst n e he]
  rw [hcongr]
  exact sum_sub_mul (inEdges dst n) (fun e => a (rowOf (wrapIx (src e))) f) w (b n f)
    (fun e _ => ha _ f) (fun e _ => hw e) (hb n f)

/-- On real entries the two forms of a layer are the same function. -/
theorem layer_eq (src dst : EdgeIx) (w : EdgeW) (W1 : Mat 64) (b1 : Row) (W2 W3 : Mat 64) (b3 : Row) (h : Feat 64)
    (hw : Real1 w) (hW1 : Real2 W1) (hb1 : Real1 b1) (hW2 : Real2 W2) (hh : Real2 h) :
    layerK src dst w W1 b1 W2 W3 b3 h = layerR src dst w W1 b1 W2 W3 b3 h := by
  funext n f
  have hsum := edgeSum_eq src dst w (lin h W1 b1) (lin0 h W2) (lin_real h W1 b1 hh hW1 hb1)
    (lin0_real h W2 hh hW2) hw n f
  simp only [layerK, layerR]
  rw [hsum]
  simp only [lin, add_assoc]

/-- A layer keeps real entries real. -/
theorem layerK_real (src dst : EdgeIx) (w : EdgeW) (W1 : Mat 64) (b1 : Row) (W2 W3 : Mat 64) (b3 : Row) (h : Feat 64)
    (hw : Real1 w) (hW1 : Real2 W1) (hb1 : Real1 b1) (hW2 : Real2 W2) (hW3 : Real2 W3) (hb3 : Real1 b3)
    (hh : Real2 h) :
    Real2 (layerK src dst w W1 b1 W2 W3 b3 h) := by
  intro n f
  have ha := lin_real h W1 b1 hh hW1 hb1
  have hb := lin0_real h W2 hh hW2
  have hc := lin_real h W3 b3 hh hW3 hb3
  have hs1 := exists_real_sum (inEdges dst n) (fun e => lin h W1 b1 (rowOf (wrapIx (src e))) f * w e)
    fun e _ => exists_real_mul (ha _ f) (hw e)
  have hs2 := exists_real_sum (inEdges dst n) w fun e _ => hw e
  exact exists_real_max_zero
    (exists_real_add (exists_real_sub hs1 (exists_real_mul (hb n f) hs2)) (hc n f))

/-- The two networks agree when every argument entry is real: layer by layer, the first layer's output being
    real again. -/
theorem net_eq (x : (⟨2, ![100000, 128]⟩ : Shape).Idx → EReal) (ei : IVec ⟨2, ![2, 1600000]⟩ 32)
    (w : (⟨1, ![1600000]⟩ : Shape).Idx → EReal)
    (Wemb : (⟨2, ![128, 64]⟩ : Shape).Idx → EReal) (bemb : (⟨1, ![64]⟩ : Shape).Idx → EReal)
    (W1 : (⟨3, ![2, 64, 64]⟩ : Shape).Idx → EReal)
    (b1 : (⟨2, ![2, 64]⟩ : Shape).Idx → EReal) (W2 W3 : (⟨3, ![2, 64, 64]⟩ : Shape).Idx → EReal)
    (b3 : (⟨2, ![2, 64]⟩ : Shape).Idx → EReal)
    (hx : Real1 x) (hw : Real1 w) (hWemb : Real1 Wemb) (hbemb : Real1 bemb) (hW1 : Real1 W1) (hb1 : Real1 b1)
    (hW2 : Real1 W2) (hW3 : Real1 W3) (hb3 : Real1 b3) :
    netK x ei w Wemb bemb W1 b1 W2 W3 b3 = netR x ei w Wemb bemb W1 b1 W2 W3 b3 := by
  have hw' : Real1 (wOf w) := fun e => hw _
  have hM1 : ∀ l, Real2 (matOf W1 l) := fun l q f => hW1 _
  have hM2 : ∀ l, Real2 (matOf W2 l) := fun l q f => hW2 _
  have hM3 : ∀ l, Real2 (matOf W3 l) := fun l q f => hW3 _
  have hr1 : ∀ l, Real1 (rowOfArr b1 l) := fun l f => hb1 _
  have hr3 : ∀ l, Real1 (rowOfArr b3 l) := fun l f => hb3 _
  have h0 : Real2 (lin (toFn2 x) (toFn2 Wemb) (vecOf bemb)) :=
    lin_real _ _ _ (fun n q => hx _) (fun q f => hWemb _) (fun f => hbemb _)
  have h1 := layerK_real (srcOf ei) (dstOf ei) (wOf w) (matOf W1 0) (rowOfArr b1 0) (matOf W2 0) (matOf W3 0)
    (rowOfArr b3 0) _ hw' (hM1 0) (hr1 0) (hM2 0) (hM3 0) (hr3 0) h0
  unfold netK netR
  rw [layer_eq (srcOf ei) (dstOf ei) (wOf w) (matOf W1 1) (rowOfArr b1 1) (matOf W2 1) (matOf W3 1)
    (rowOfArr b3 1) _ hw' (hM1 1) (hr1 1) (hM2 1) h1]
  rw [layer_eq (srcOf ei) (dstOf ei) (wOf w) (matOf W1 0) (rowOfArr b1 0) (matOf W2 0) (matOf W3 0)
    (rowOfArr b3 0) _ hw' (hM1 0) (hr1 0) (hM2 0) h0]

end Cert.LeGnn

end
-- ==== Proof.Pre.lean ====
/-
  The precondition says every entry of the nine float argument arrays is a real number.

  The printed predicate is, for each float argument, "every entry's absolute value is below plus infinity", the
  nine answers joined by `and`; the claim's hypothesis says the result is 1 on every device. An `and` that is 1 had
  both operands 1; a reduction by `and` over all axes that is 1 met a 1 at every index; and an extended real whose
  absolute value `max x (-x)` is below the top element is neither infinity, so it is a real number.
-/
import proofs.«131890_j77223511982150_1_alg».proof.Defs
import proofs.«131890_j77223511982150_1_alg».proof.Proof.Gen.Pre_finite_inputs
import proofs.«131890_j77223511982150_1_alg».proof.Proof.KernelTerm
import proofs.«131890_j77223511982150_1_alg».proof.Proof.Spec
import Idealize.ShloMosaic.Lib.ReduceAll
import Idealize.ShloMosaic.Lib.ValueIdx
import Idealize.ShloMosaic.PureOps.Ideal.Laws

noncomputable section

namespace Cert.KernelIdeal.Val

open Cert.KernelIdeal Cert.LeGnn
open Idealize.ShloMosaic Idealize.ShloMosaic.ValueIdx Idealize.SL.Sem

/-- An extended real whose absolute value is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Where the comparison "absolute value below plus infinity" answers 1, the entry is a real number. -/
theorem real_of_finite_bit {s : Shape} (x : FVec Ideal s .f32)
    (hb : (⟨0, ![]⟩ : Shape).BroadcastsInDim s (![] : Fin 0 → Fin s.rank)) (i : s.Idx)
    (e : cmpf .olt (Host.absf x) (broadcastInDim s ![] hb (constant (F := Ideal) ⟨0, ![]⟩ .f32 0x7F800000#32)) i = 1#1) :
    ∃ r : ℝ, x i = (r : EReal) := by
  have htop : Ideal.ofBits .f32 0x7F800000#32 = ⊤ := by simp [Ideal.ofBits, Ideal.ieee]
  have e' : Ideal.cmp .olt (max (x i : EReal) (-(x i : EReal))) (Ideal.ofBits .f32 0x7F800000#32) = 1#1 := e
  rw [htop] at e'
  apply real_of_abs_lt_top
  by_contra hn
  simp [Ideal.cmp, hn] at e'

/-- An elementwise `and` of two bit arrays that is 1 at an index had both operands 1 there. -/
theorem and_one {s : Shape} (x y : IVec s 1) (i : s.Idx) (h : andi x y i = 1#1) : x i = 1#1 ∧ y i = 1#1 :=
  IntOp.andi_eq_one.1 h

/-- A shape of rank zero has one index. -/
instance : Subsingleton (Cert.Pre_finite_inputs.S_).Idx := ⟨fun a b => funext fun d => d.elim0⟩

/-- Under the precondition every float argument array holds real numbers only. -/
theorem pre_real (m : (ℓ : Loc Cert.KernelIdeal.nD Cert.KernelIdeal.τ Cert.KernelIdeal.sig) → Buf (Elt Ideal) ℓ)
    (hPre : Cert.Pre_KernelIdeal m) (c : Dev Cert.KernelIdeal.nD) :
    Real1 (aX m c) ∧ Real1 (aW m c) ∧ Real1 (aWemb m c) ∧ Real1 (aBemb m c) ∧ Real1 (aW1 m c) ∧ Real1 (aB1 m c)
      ∧ Real1 (aW2 m c) ∧ Real1 (aW3 m c) ∧ Real1 (aB3 m c) := by
  have h := congrFun (hPre c) ValueIdx.ix0
  dsimp only [Cert.Pre_finite_inputs.fn, Cert.Pre_finite_inputs.fn_part1, Cert.Pre_finite_inputs.fn_part2] at h
  obtain ⟨h, h10⟩ := and_one _ _ _ h
  obtain ⟨h, h9⟩ := and_one _ _ _ h
  obtain ⟨h, h8⟩ := and_one _ _ _ h
  obtain ⟨h, h7⟩ := and_one _ _ _ h
  obtain ⟨h, h6⟩ := and_one _ _ _ h
  obtain ⟨h, h5⟩ := and_one _ _ _ h
  obtain ⟨h, h4⟩ := and_one _ _ _ h
  obtain ⟨h0, h2⟩ := and_one _ _ _ h
  exact ⟨fun i => real_of_finite_bit _ _ i (Host.reduce_andi_all _ _ _ _ _ h0 i),
    fun i => real_of_finite_bit _ _ i (Host.reduce_andi_all _ _ _ _ _ h2 i),
    fun i => real_of_finite_bit _ _ i (Host.reduce_andi_all _ _ _ _ _ h4 i),
    fun i => real_of_finite_bit _ _ i (Host.reduce_andi_all _ _ _ _ _ h5 i),
    fun i => real_of_finite_bit _ _ i (Host.reduce_andi_all _ _ _ _ _ h6 i),
    fun i => real_of_finite_bit _ _ i (Host.reduce_andi_all _ _ _ _ _ h7 i),
    fun i => real_of_finite_bit _ _ i (Host.reduce_andi_all _ _ _ _ _ h8 i),
    fun i => real_of_finite_bit _ _ i (Host.reduce_andi_all _ _ _ _ _ h9 i),
    fun i => real_of_finite_bit _ _ i (Host.reduce_andi_all _ _ _ _ _ h10 i)⟩

end Cert.KernelIdeal.Val

end
-- ==== Proof.lean ====
/-
  Two graph-convolution layers over a fixed edge list, computed two ways, are the same function of finite inputs.

  The program with five accelerator regions forms, per layer, `a = h·W1 + b1` and `b = h·W2` on the nodes, sums
  `a[src e]·w e` over the edges ending at each node, and in its combining step takes off `b[n]` times the node's
  summed edge weight before adding `h·W3 + b3` and keeping the positive part. The reference sums the messages
  `(a[src e] − b[dst e])·w e` directly. An edge counted at node `n` has `dst e = n`, so the two differ by
  distributing the product over the edge sum — valid on the extended reals because the precondition makes every
  input, and hence every intermediate value, a real number — and by the grouping of a sum of three terms.

  The three frames are the generated ones (the reference's is its generated run with the result dropped); no
  rewrite was applied in idealizing the program, so that claim is trivial; the value claim is assembled here from
  the program's run with its result named, read back through the host stretches and the regions to `netK` of the
  arguments, the reference's run read to `netR`, and `netK = netR` on real inputs.
-/
import proofs.«131890_j77223511982150_1_alg».proof.Defs
import proofs.«131890_j77223511982150_1_alg».proof.Proof.Gen.Kernel
import proofs.«131890_j77223511982150_1_alg».proof.Proof.Gen.Kernel.Skeleton
import proofs.«131890_j77223511982150_1_alg».proof.Proof.Gen.Kernel.Launch
import proofs.«131890_j77223511982150_1_alg».proof.Proof.Gen.Kernel.Points
import proofs.«131890_j77223511982150_1_alg».proof.Proof.Gen.Kernel.Frame
import proofs.«131890_j77223511982150_1_alg».proof.Proof.Gen.KernelIdeal
import proofs.«131890_j77223511982150_1_alg».proof.Proof.Gen.KernelIdeal.Skeleton
import proofs.«131890_j77223511982150_1_alg».proof.Proof.Gen.KernelIdeal.Launch
import proofs.«131890_j77223511982150_1_alg».proof.Proof.Gen.KernelIdeal.Points
import proofs.«131890_j77223511982150_1_alg».proof.Proof.Gen.KernelIdeal.Frame
import proofs.«131890_j77223511982150_1_alg».proof.Proof.Gen.ReferenceIdeal
import proofs.«131890_j77223511982150_1_alg».proof.Proof.Gen.ReferenceIdeal.Run
import proofs.«131890_j77223511982150_1_alg».proof.Proof.Gen.ReferenceIdeal.Read
import proofs.«131890_j77223511982150_1_alg».proof.Proof.Gen.Pre_finite_inputs
import proofs.«131890_j77223511982150_1_alg».proof.Proof.KernelValue
import proofs.«131890_j77223511982150_1_alg».proof.Proof.RefRead
import proofs.«131890_j77223511982150_1_alg».proof.Proof.Layer
import proofs.«131890_j77223511982150_1_alg».proof.Proof.Pre
import Idealize.ShloMosaic.Adequacy
import Idealize.ShloMosaic.Init

noncomputable section

namespace Cert.Proof

open Idealize.ShloMosaic Idealize.SL.Sem Cert.LeGnn

/-- The program as printed runs and keeps its arguments. -/
theorem frame_p : Cert.frame_Kernel := fun m ρ _ => Cert.Kernel.Gen.frame m ρ
/-- So does its idealization. -/
theorem frame_pi : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: `netK` of the arguments on
    one side, `netR` on the other, equal because the precondition makes every float argument real. -/
theorem algebraic : Cert.algebraic_KernelIdeal_ReferenceIdeal := by
  intro m ρ m' ρ' hPre hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, -, e4, e5, e6, e7, e8, e9, e10⟩ := hagree c
  obtain ⟨r0, r2, r4, r5, r6, r7, r8, r9, r10⟩ := Cert.KernelIdeal.Val.pre_real m hPre c
  rw [Cert.ReferenceIdeal.RefValue.ref_value m' c, e0, e1, e2, e4, e5, e6, e7, e8, e9, e10]
  exact congrArg ofFn2 (net_eq _ _ _ _ _ _ _ _ _ _ r0 r2 r4 r5 r6 r7 r8 r9 r10).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
